-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![32768, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S2048x1024 : Shape := ⟨2, ![2048, 1024]⟩
abbrev S1x1024 : Shape := ⟨2, ![1, 1024]⟩
abbrev S15x1x1024 : Shape := ⟨3, ![15, 1, 1024]⟩
abbrev S15 : Shape := ⟨1, ![15]⟩
abbrev S_ : Shape := ⟨0, ![]⟩
abbrev S1024 : Shape := ⟨1, ![1024]⟩
abbrev S1 : Shape := ⟨1, ![1]⟩
abbrev S1x1x1024 : Shape := ⟨3, ![1, 1, 1024]⟩
abbrev S15x1024 : Shape := ⟨2, ![15, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S1x1024, .f32⟩
  | .local _ .vmem, ⟨3, _⟩ => ⟨S15x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.addi v2 c1_i32_64
  let c16_i32_65 : BitVec 32 := 16#32
  let v71 : BitVec 32 := Scalar.remsi v70 c16_i32_65
  let c1_i32_69 : BitVec 32 := 1#32
  let v72 : BitVec 32 := Scalar.muli v71 c1_i32_69
  let v73 : BitVec 32 := Scalar.addi c0_i32_70 v72
  v73.toNat
def k0_dev17 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v80 : BitVec 32 := Scalar.addi v2 c2_i32_73
  let c16_i32_74 : BitVec 32 := 16#32
  let v81 : BitVec 32 := Scalar.remsi v80 c16_i32_74
  let c1_i32_78 : BitVec 32 := 1#32
  let v82 : BitVec 32 := Scalar.muli v81 c1_i32_78
  let v83 : BitVec 32 := Scalar.addi c0_i32_79 v82
  v83.toNat
def k0_dev18 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_82 : BitVec 32 := 3#32
  let v90 : BitVec 32 := Scalar.addi v2 c3_i32_82
  let c16_i32_83 : BitVec 32 := 16#32
  let v91 : BitVec 32 := Scalar.remsi v90 c16_i32_83
  let c1_i32_87 : BitVec 32 := 1#32
  let v92 : BitVec 32 := Scalar.muli v91 c1_i32_87
  let v93 : BitVec 32 := Scalar.addi c0_i32_88 v92
  v93.toNat
def k0_dev19 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_91 : BitVec 32 := 4#32
  let v100 : BitVec 32 := Scalar.addi v2 c4_i32_91
  let c16_i32_92 : BitVec 32 := 16#32
  let v101 : BitVec 32 := Scalar.remsi v100 c16_i32_92
  let c1_i32_96 : BitVec 32 := 1#32
  let v102 : BitVec 32 := Scalar.muli v101 c1_i32_96
  let v103 : BitVec 32 := Scalar.addi c0_i32_97 v102
  v103.toNat
def k0_dev20 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_100 : BitVec 32 := 5#32
  let v110 : BitVec 32 := Scalar.addi v2 c5_i32_100
  let c16_i32_101 : BitVec 32 := 16#32
  let v111 : BitVec 32 := Scalar.remsi v110 c16_i32_101
  let c1_i32_105 : BitVec 32 := 1#32
  let v112 : BitVec 32 := Scalar.muli v111 c1_i32_105
  let v113 : BitVec 32 := Scalar.addi c0_i32_106 v112
  v113.toNat
def k0_dev21 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_109 : BitVec 32 := 6#32
  let v120 : BitVec 32 := Scalar.addi v2 c6_i32_109
  let c16_i32_110 : BitVec 32 := 16#32
  let v121 : BitVec 32 := Scalar.remsi v120 c16_i32_110
  let c1_i32_114 : BitVec 32 := 1#32
  let v122 : BitVec 32 := Scalar.muli v121 c1_i32_114
  let v123 : BitVec 32 := Scalar.addi c0_i32_115 v122
  v123.toNat
def k0_dev22 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_118 : BitVec 32 := 7#32
  let v130 : BitVec 32 := Scalar.addi v2 c7_i32_118
  let c16_i32_119 : BitVec 32 := 16#32
  let v131 : BitVec 32 := Scalar.remsi v130 c16_i32_119
  let c1_i32_123 : BitVec 32 := 1#32
  let v132 : BitVec 32 := Scalar.muli v131 c1_i32_123
  let v133 : BitVec 32 := Scalar.addi c0_i32_124 v132
  v133.toNat
def k0_dev23 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_127 : BitVec 32 := 8#32
  let v140 : BitVec 32 := Scalar.addi v2 c8_i32_127
  let c16_i32_128 : BitVec 32 := 16#32
  let v141 : BitVec 32 := Scalar.remsi v140 c16_i32_128
  let c1_i32_132 : BitVec 32 := 1#32
  let v142 : BitVec 32 := Scalar.muli v141 c1_i32_132
  let v143 : BitVec 32 := Scalar.addi c0_i32_133 v142
  v143.toNat
def k0_dev24 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_136 : BitVec 32 := 9#32
  let v150 : BitVec 32 := Scalar.addi v2 c9_i32_136
  let c16_i32_137 : BitVec 32 := 16#32
  let v151 : BitVec 32 := Scalar.remsi v150 c16_i32_137
  let c1_i32_141 : BitVec 32 := 1#32
  let v152 : BitVec 32 := Scalar.muli v151 c1_i32_141
  let v153 : BitVec 32 := Scalar.addi c0_i32_142 v152
  v153.toNat
def k0_dev25 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_145 : BitVec 32 := 10#32
  let v160 : BitVec 32 := Scalar.addi v2 c10_i32_145
  let c16_i32_146 : BitVec 32 := 16#32
  let v161 : BitVec 32 := Scalar.remsi v160 c16_i32_146
  let c1_i32_150 : BitVec 32 := 1#32
  let v162 : BitVec 32 := Scalar.muli v161 c1_i32_150
  let v163 : BitVec 32 := Scalar.addi c0_i32_151 v162
  v163.toNat
def k0_dev26 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_154 : BitVec 32 := 11#32
  let v170 : BitVec 32 := Scalar.addi v2 c11_i32_154
  let c16_i32_155 : BitVec 32 := 16#32
  let v171 : BitVec 32 := Scalar.remsi v170 c16_i32_155
  let c1_i32_159 : BitVec 32 := 1#32
  let v172 : BitVec 32 := Scalar.muli v171 c1_i32_159
  let v173 : BitVec 32 := Scalar.addi c0_i32_160 v172
  v173.toNat
def k0_dev27 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_163 : BitVec 32 := 12#32
  let v180 : BitVec 32 := Scalar.addi v2 c12_i32_163
  let c16_i32_164 : BitVec 32 := 16#32
  let v181 : BitVec 32 := Scalar.remsi v180 c16_i32_164
  let c1_i32_168 : BitVec 32 := 1#32
  let v182 : BitVec 32 := Scalar.muli v181 c1_i32_168
  let v183 : BitVec 32 := Scalar.addi c0_i32_169 v182
  v183.toNat
def k0_dev28 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_172 : BitVec 32 := 13#32
  let v190 : BitVec 32 := Scalar.addi v2 c13_i32_172
  let c16_i32_173 : BitVec 32 := 16#32
  let v191 : BitVec 32 := Scalar.remsi v190 c16_i32_173
  let c1_i32_177 : BitVec 32 := 1#32
  let v192 : BitVec 32 := Scalar.muli v191 c1_i32_177
  let v193 : BitVec 32 := Scalar.addi c0_i32_178 v192
  v193.toNat
def k0_dev29 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_181 : BitVec 32 := 14#32
  let v200 : BitVec 32 := Scalar.addi v2 c14_i32_181
  let c16_i32_182 : BitVec 32 := 16#32
  let v201 : BitVec 32 := Scalar.remsi v200 c16_i32_182
  let c1_i32_186 : BitVec 32 := 1#32
  let v202 : BitVec 32 := Scalar.muli v201 c1_i32_186
  let v203 : BitVec 32 := Scalar.addi c0_i32_187 v202
  v203.toNat
def k0_dev30 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_190 : BitVec 32 := 15#32
  let v210 : BitVec 32 := Scalar.addi v2 c15_i32_190
  let c16_i32_191 : BitVec 32 := 16#32
  let v211 : BitVec 32 := Scalar.remsi v210 c16_i32_191
  let c1_i32_195 : BitVec 32 := 1#32
  let v212 : BitVec 32 := Scalar.muli v211 c1_i32_195
  let v213 : BitVec 32 := Scalar.addi c0_i32_196 v212
  v213.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1024 : S1024.ShapeCasts S1x1024
  hamt_15 : (15#32 : BitVec 32).msb = false
  inb_S15_S1_0 : ∀ a, (![0] : Fin 1 → Nat) a + S1.size a ≤ S15.size a
  squeezes_S1_S_ : S1.Squeezes S_
  inb_S15x1x1024_S1x1x1024_0_0_0 : ∀ a, (![0, 0, 0] : Fin 3 → Nat) a + S1x1x1024.size a ≤ S15x1x1024.size a
  squeezes_S1x1x1024_S1x1024 : S1x1x1024.Squeezes S1x1024
  inb_S15_S1_1 : ∀ a, (![1] : Fin 1 → Nat) a + S1.size a ≤ S15.size a
  inb_S15x1x1024_S1x1x1024_1_0_0 : ∀ a, (![1, 0, 0] : Fin 3 → Nat) a + S1x1x1024.size a ≤ S15x1x1024.size a
  inb_S15_S1_2 : ∀ a, (![2] : Fin 1 → Nat) a + S1.size a ≤ S15.size a
  inb_S15x1x1024_S1x1x1024_2_0_0 : ∀ a, (![2, 0, 0] : Fin 3 → Nat) a + S1x1x1024.size a ≤ S15x1x1024.size a
  inb_S15_S1_3 : ∀ a, (![3] : Fin 1 → Nat) a + S1.size a ≤ S15.size a
  inb_S15x1x1024_S1x1x1024_3_0_0 : ∀ a, (![3, 0, 0] : Fin 3 → Nat) a + S1x1x1024.size a ≤ S15x1x1024.size a
  inb_S15_S1_4 : ∀ a, (![4] : Fin 1 → Nat) a + S1.size a ≤ S15.size a
  inb_S15x1x1024_S1x1x1024_4_0_0 : ∀ a, (![4, 0, 0] : Fin 3 → Nat) a + S1x1x1024.size a ≤ S15x1x1024.size a
  inb_S15_S1_5 : ∀ a, (![5] : Fin 1 → Nat) a + S1.size a ≤ S15.size a
  inb_S15x1x1024_S1x1x1024_5_0_0 : ∀ a, (![5, 0, 0] : Fin 3 → Nat) a + S1x1x1024.size a ≤ S15x1x1024.size a
  inb_S15_S1_6 : ∀ a, (![6] : Fin 1 → Nat) a + S1.size a ≤ S15.size a
  inb_S15x1x1024_S1x1x1024_6_0_0 : ∀ a, (![6, 0, 0] : Fin 3 → Nat) a + S1x1x1024.size a ≤ S15x1x1024.size a
  inb_S15_S1_7 : ∀ a, (![7] : Fin 1 → Nat) a + S1.size a ≤ S15.size a
  inb_S15x1x1024_S1x1x1024_7_0_0 : ∀ a, (![7, 0, 0] : Fin 3 → Nat) a + S1x1x1024.size a ≤ S15x1x1024.size a
  inb_S15_S1_8 : ∀ a, (![8] : Fin 1 → Nat) a + S1.size a ≤ S15.size a
  inb_S15x1x1024_S1x1x1024_8_0_0 : ∀ a, (![8, 0, 0] : Fin 3 → Nat) a + S1x1x1024.size a ≤ S15x1x1024.size a
  inb_S15_S1_9 : ∀ a, (![9] : Fin 1 → Nat) a + S1.size a ≤ S15.size a
  inb_S15x1x1024_S1x1x1024_9_0_0 : ∀ a, (![9, 0, 0] : Fin 3 → Nat) a + S1x1x1024.size a ≤ S15x1x1024.size a
  inb_S15_S1_10 : ∀ a, (![10] : Fin 1 → Nat) a + S1.size a ≤ S15.size a
  inb_S15x1x1024_S1x1x1024_10_0_0 : ∀ a, (![10, 0, 0] : Fin 3 → Nat) a + S1x1x1024.size a ≤ S15x1x1024.size a
  inb_S15_S1_11 : ∀ a, (![11] : Fin 1 → Nat) a + S1.size a ≤ S15.size a
  inb_S15x1x1024_S1x1x1024_11_0_0 : ∀ a, (![11, 0, 0] : Fin 3 → Nat) a + S1x1x1024.size a ≤ S15x1x1024.size a
  inb_S15_S1_12 : ∀ a, (![12] : Fin 1 → Nat) a + S1.size a ≤ S15.size a
  inb_S15x1x1024_S1x1x1024_12_0_0 : ∀ a, (![12, 0, 0] : Fin 3 → Nat) a + S1x1x1024.size a ≤ S15x1x1024.size a
  inb_S15_S1_13 : ∀ a, (![13] : Fin 1 → Nat) a + S1.size a ≤ S15.size a
  inb_S15x1x1024_S1x1x1024_13_0_0 : ∀ a, (![13, 0, 0] : Fin 3 → Nat) a + S1x1x1024.size a ≤ S15x1x1024.size a
  inb_S15_S1_14 : ∀ a, (![14] : Fin 1 → Nat) a + S1.size a ≤ S15.size a
  inb_S15x1x1024_S1x1x1024_14_0_0 : ∀ a, (![14, 0, 0] : Fin 3 → Nat) a + S1x1x1024.size a ≤ S15x1x1024.size a
  inb_S15x1x1024_S15x1x1024_0_0_0 : ∀ a, (![0, 0, 0] : Fin 3 → Nat) a + S15x1x1024.size a ≤ S15x1x1024.size a
  h_S15x1x1024 : 0 < S15x1x1024.numel
  shapeCasts_S15x1x1024_S15x1024 : S15x1x1024.ShapeCasts S15x1024
  reduces_S15x1024_S1024 : S15x1024.Reduces [0] S1024
  hcc0_scratch2 : 2 + S15.numel ≤ 32
  hcc0_scratch3 : 17 + S15.numel ≤ 32
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch2 : DmaSems sig S15 := SemArray.consecutive 2 S15 hcc0_scratch2
abbrev cc0_scratch3 : DmaSems sig S15 := SemArray.consecutive 17 S15 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.KernelIdeal.Base.lean ====
/-
  The all-to-all maximum on sixteen devices: the shared vocabulary of the proof.

  Every device takes the column maxima of its own 2048 rows (one row of 1024 numbers), tells each of the
  other fifteen devices that it has entered, waits until all fifteen have told it the same, copies its row
  into one slot of each other device's fifteen-slot landing buffer, waits for the fifteen rows addressed to
  it, takes the maximum of its own row and the fifteen received, and waits until its fifteen copies have
  been read out.  Device c's j-th signal and j-th copy (j = 0 … 14) go to device c + j + 1 (mod 16); the
  copy lands in slot j there.  So slot j of device c is written by device c − (j + 1), and the signal that
  device sends c is the one that must carry c's permission to write: slot 14 − j of the signaller.

  The protocol is stated under the rounds discipline: one round per semaphore.  A barrier semaphore has
  fifteen unit duties, duty j paid by device c − (j + 1) and handing over that device's slot 14 − j; a
  send semaphore has one duty, paid by the copy's departure, returning the share of the row it read; a
  receive semaphore has one duty, paid by the copy's arrival, handing over the slot with the sender's row
  in it.
-/
import proofs.«900915_g7700000000000916_dist_max_ax0_shard0_i_m2048_n1024_v7x_i16_f32_1_alg».proof.Proof.Gen.KernelIdeal
import proofs.«900915_g7700000000000916_dist_max_ax0_shard0_i_m2048_n1024_v7x_i16_f32_1_alg».proof.Proof.Gen.KernelIdeal.Skeleton
import proofs.«900915_g7700000000000916_dist_max_ax0_shard0_i_m2048_n1024_v7x_i16_f32_1_alg».proof.Proof.Gen.KernelIdeal.Launch
import proofs.«900915_g7700000000000916_dist_max_ax0_shard0_i_m2048_n1024_v7x_i16_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The sixteen devices -/

/-- The device `j + 1` places after `c`: the target of `c`'s signal `j` and of its copy `j`. -/
def fwd (c : Dev nD) (j : Fin 15) : Dev nD := ⟨(c.val + (j.val + 1)) % 16, Nat.mod_lt _ (by decide)⟩
/-- The device `j + 1` places before `c`: the one whose signal `j` and copy `j` reach `c`. -/
def bwd (c : Dev nD) (j : Fin 15) : Dev nD := ⟨(c.val + (15 - j.val)) % 16, Nat.mod_lt _ (by decide)⟩
/-- The opposite offset: `j + 1` and `rev j + 1` add up to sixteen. -/
def rev (j : Fin 15) : Fin 15 := ⟨14 - j.val, by omega⟩

theorem bwd_fwd (c : Dev nD) (j : Fin 15) : bwd (fwd c j) j = c := by revert c j; decide
theorem fwd_bwd (c : Dev nD) (j : Fin 15) : fwd (bwd c j) j = c := by revert c j; decide
theorem fwd_rev (c : Dev nD) (j : Fin 15) : fwd c (rev j) = bwd c j := by revert c j; decide
theorem bwd_rev (c : Dev nD) (j : Fin 15) : bwd c (rev j) = fwd c j := by revert c j; decide
theorem rev_rev (j : Fin 15) : rev (rev j) = j := by revert j; decide
theorem fwd_ne (c : Dev nD) (j : Fin 15) : fwd c j ≠ c := by revert c j; decide
theorem fwd_inj_right (c : Dev nD) : Function.Injective (fwd c) := by revert c; decide
theorem bwd_inj_right (c : Dev nD) : Function.Injective (bwd c) := by revert c; decide
/-- Every other device is exactly one offset away. -/
theorem exists_bwd (c d : Dev nD) (h : d ≠ c) : ∃ j, d = bwd c j := by revert c d; decide

def shift (j : Fin 15) : Dev nD ≃ Dev nD := ⟨fun c => fwd c j, fun c => bwd c j, fun c => bwd_fwd c j, fun c => fwd_bwd c j⟩

/-! ## The memrefs and cells -/

/-- The staged block of `x`, the staged result, the device's own row of maxima, the fifteen landing slots. -/
abbrev xM : Memref sig .tc .vmem S2048x1024 .f32 := Memref.whole cc0_stg0_0
abbrev oM : Memref sig .tc .vmem S1x1024 .f32 := Memref.whole cc0_stg1_0
abbrev lM : Memref sig .tc .vmem S1x1024 .f32 := Memref.whole cc0_scratch0
abbrev cM : Memref sig .tc .vmem S15x1x1024 .f32 := Memref.whole cc0_scratch1

theorem slot_inb (j : Fin 15) : ∀ a, (![j.val, 0, 0] : Fin 3 → Nat) a + S1x1x1024.size a ≤ S15x1x1024.size a := by
  revert j; decide

/-- Slot `j` of the landing buffer: row `j`, as the kernel's copies and waits name it. -/
abbrev slotRect (j : Fin 15) : Rect S15x1x1024 := Rect.unit (s := S15x1x1024) ![j.val, 0, 0] S1x1x1024.size (slot_inb j)
abbrev slotM (j : Fin 15) : Memref sig .tc .vmem S1x1024 .f32 :=
  (cM.slice (slotRect j) (fun _ => rfl)).squeeze S1x1024 squeezes_S1x1x1024_S1x1024

/-- The runtime's barrier semaphore; the fifteen send and fifteen receive DMA semaphores (scoped scratch). -/
abbrev barS : Sem sig := (SemArray.scalar (sig.barrier 0 rfl) : Sems sig S_).sem
abbrev sendS (j : Fin 15) : DmaSem sig := ⟨2 + j.val, by have := j.isLt; show 2 + j.val < 32; omega⟩
abbrev recvS (j : Fin 15) : DmaSem sig := ⟨17 + j.val, by have := j.isLt; show 17 + j.val < 32; omega⟩

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The kernel's own thirty semaphores (`false`: send, `true`: receive), and all thirty-one of the protocol's. -/
abbrev osem : Bool × Fin 15 → SemLoc sig := fun k => if k.1 then .dma (recvS k.2) else .dma (sendS k.2)
abbrev csem : Unit ⊕ (Bool × Fin 15) → SemLoc sig := fun | .inl _ => .reg barS | .inr k => osem k
abbrev kcell (ck : Dev nD × (Unit ⊕ (Bool × Fin 15))) : GSem nD τ sig := ((ck.1 : Thread nD τ), csem ck.2)

/-- What a DMA semaphore is to the protocol: a receive (`true`) or send (`false`) semaphore and its slot. -/
def slotOf (q : DmaSem sig) : Option (Bool × Fin 15) :=
  if h : 2 ≤ q.val ∧ q.val < 17 then some (false, ⟨q.val - 2, by omega⟩)
  else if h : 17 ≤ q.val ∧ q.val < 32 then some (true, ⟨q.val - 17, by omega⟩) else none

/-- The credit of one row's transfer. -/
abbrev N : ℕ := (lM : Memref sig .tc .vmem S1x1024 .f32).view.dmaCredit
theorem N_pos : 0 < N := View.dmaCredit_pos _ (by decide)

/-! ## Contents -/

/-- Device `c`'s staged block of `x`; its row of column maxima; the landing buffer once all fifteen rows are in
    (slot `j` holds the row of the device `j + 1` places before); the result. -/
def xstg (c : Dev nD) : (cc0_stg0_0 : Ref sig .tc).ty.Contents (Elt F) :=
  (win0_0.blk (0 : Fin 1)).view.read (Elt F) ((s₀ m ρ).mem ((c : Thread nD τ).loc main_arg0))
def rowMax (c : Dev nD) : (cc0_scratch0 : Ref sig .tc).ty.Contents (Elt F) := k0_pay1 (xstg m ρ c)
def landedAll (c : Dev nD) : (cc0_scratch1 : Ref sig .tc).ty.Contents (Elt F) :=
  fun i => rowMax m ρ (bwd c ⟨(i 0).val, (i 0).isLt⟩) (ValueIdx.ix2 (0 : Fin 1) (⟨(i 2).val, (i 2).isLt⟩ : Fin 1024))
def outAt (c : Dev nD) : (cc0_stg1_0 : Ref sig .tc).ty.Contents (Elt F) := k0_pay2 (rowMax m ρ c) (landedAll m ρ c)

/-- The shares of the own row lent to the fifteen copies: the left half of what is left each time. -/
def restShare : ℕ → PosShare TreeShare
  | 0 => fullShare
  | n + 1 => (restShare n).right
def copyShare (j : Fin 15) : PosShare TreeShare := (restShare j.val).left

def slotPts (c : Dev nD) (j : Fin 15) (f : Buf (Elt F) ((c : Thread nD τ).loc cc0_scratch1)) : sProp 𝕄 :=
  (slotM j).view.loc (c : Thread nD τ) ↦[(slotM j).view.set]{fullShare} f
def rowPts (c : Dev nD) (q : PosShare TreeShare) : sProp 𝕄 :=
  (lM : Memref sig .tc .vmem S1x1024 .f32).view.loc (c : Thread nD τ) ↦[(lM : Memref sig .tc .vmem S1x1024 .f32).view.set]{q} rowMax m ρ c

/-! ## The schedule -/

/-- What device `bwd c j`'s signal (duty `j` of `c`'s barrier cell) hands `c`: that device's slot `rev j` and that
    it has reached round 0 of that slot's receive cell — what `c`'s copy `rev j` into it needs. -/
def barPay (c : Dev nD) (j : Fin 15) : sProp 𝕄 :=
  iprop((∃ f, slotPts (bwd c j) (rev j) f) ∗ reached ER (recvCell (bwd c j) (rev j)) 0)
def recvPay (c : Dev nD) (j : Fin 15) : sProp 𝕄 := slotPts c j (landedAll m ρ c)
def sendPay (c : Dev nD) (j : Fin 15) : sProp 𝕄 := rowPts m ρ c (copyShare j)

/-- One round, round 0: a barrier cell has fifteen unit duties; a send or receive cell the duty `0` of a row's credit. -/
def sched : Rounds.Schedule (GSem nD τ sig) (Fin 15) 𝕄 where
  duties g r := if r = 0 ∧ g.1.2 = .tc then (match g.2 with
    | .reg _ => Finset.univ
    | .dma q => if (slotOf q).isSome then {0} else ∅) else ∅
  unitless _ := False
  amount g _ _ := match g.2 with | .reg _ => 1 | .dma _ => N
  payload g _ d := match g.2 with
    | .reg _ => barPay g.1.1 d
    | .dma q => match slotOf q with
      | some (true, j) => recvPay m ρ g.1.1 j
      | some (false, j) => sendPay m ρ g.1.1 j
      | none => iprop(emp)
  amount_pos g _ _ _ := by
    cases g.2 with
    | reg _ => exact Nat.one_pos
    | dma _ => exact N_pos

instance sched_payload_storable (g : GSem nD τ sig) (r : ℕ) (d : Fin 15) :
    BI.Storable (upEmb : UEmb _ 𝕄) ((sched (F := F) m ρ).payload g r d) := by
  show BI.Storable upEmb (match g.2 with
    | .reg _ => barPay g.1.1 d
    | .dma q => match slotOf q with
      | some (true, j) => recvPay m ρ g.1.1 j
      | some (false, j) => sendPay m ρ g.1.1 j
      | none => iprop(emp))
  unfold barPay recvPay sendPay slotPts rowPts
  (repeat' split) <;> infer_instance

end Cert.KernelIdeal.Proto

end
-- ==== Proof.KernelIdeal.Ghost.lean ====
/-
  What each device owes at launch, the levels of the waits, the ghost state a device's body starts from, and
  the pipeline's proof data: the invariant before and after the one grid point, what the staging buffers hold
  after the body, and the body's pre- and postcondition.
-/
import proofs.«900915_g7700000000000916_dist_max_ax0_shard0_i_m2048_n1024_v7x_i16_f32_1_alg».proof.Proof.KernelIdeal.Base

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

/-- Device `c` owes each other device's receive cell (slot `j` of device `fwd c j`) a row's credit, and each other
    device's barrier cell one unit. -/
def owedRecv (c : Dev nD) : CellTallies nD τ sig Unit := ∑ j : Fin 15, tallyAt (recvCell (fwd c j) j) () N
def owedBar (c : Dev nD) : CellTallies nD τ sig Unit := ∑ j : Fin 15, tallyAt (barCell (fwd c j)) () 1
def O₀ (c : Dev nD) : CellTallies nD τ sig Unit := owedRecv c + owedBar c

/-- What is still owed once the signals (copies) `0 … k − 1` have gone. -/
def owedBarFrom (c : Dev nD) (k : ℕ) : CellTallies nD τ sig Unit :=
  ∑ j ∈ Finset.univ.filter (fun j : Fin 15 => k ≤ j.val), tallyAt (barCell (fwd c j)) () 1
def owedRecvFrom (c : Dev nD) (k : ℕ) : CellTallies nD τ sig Unit :=
  ∑ j ∈ Finset.univ.filter (fun j : Fin 15 => k ≤ j.val), tallyAt (recvCell (fwd c j) j) () N

def L (g : GSem nD τ sig) : Finset Unit := if g.1.2 = .tc then {()} else ∅
/-- Barrier cells at 1, receive cells at 2, everything else (staging, send) at 0: a device waits on its barrier
    owing only receive credit, and on its receive and send cells owing nothing. -/
def lv (g : GSem nD τ sig) (_ : Unit) : ℕ := match g.2 with
  | .reg _ => 1
  | .dma q => match slotOf q with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

abbrev CK : Type := Unit ⊕ (Bool × Fin 15)

/-- Every cell's invariant under the names the launch allocated them at, and that every cell is at round 0. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

/-- The tokens of the duties device `c` pays: duty `j` of device `fwd c j`'s barrier cell, the duty of slot `j`'s
    receive cell there, and the duty of its own send cell `j`. -/
def payToks (c : Dev nD) : sProp 𝕄 :=
  iprop((bigSep Finset.univ fun j : Fin 15 => dutyTok ER (barCell (fwd c j)) 0 j)
    ∗ (bigSep Finset.univ fun j : Fin 15 => dutyTok ER (recvCell (fwd c j) j) 0 (0 : Fin 15))
    ∗ (bigSep Finset.univ fun j : Fin 15 => dutyTok ER (sendCell c j) 0 (0 : Fin 15)))
/-- Its positions at round 0 of its own thirty-one cells. -/
def ownPos (c : Dev nD) : sProp 𝕄 := bigSep Finset.univ fun k : CK => atPos ER (kcell (c, k)) 0 ∅ 0

def ghost (K : Dev nD × CK → ℕ) (c : Dev nD) : sProp 𝕄 := iprop(records m ρ K ∗ ownPos c ∗ payToks c)

/-- What device `c`'s body starts from: the ghost state at some names, the credit of its barrier's fifteen units
    and of each receive cell's row, and the level facts. -/
def start (c : Dev nD) : sProp 𝕄 :=
  iprop((∃ K, ghost m ρ K c) ∗ cred (tallyAt (barCell c) () 15)
    ∗ (bigSep Finset.univ fun j : Fin 15 => cred (tallyAt (recvCell c j) () N)) ∗ levAts L lv)

/-- Before the point: that and the two scratch buffers at whatever they hold. -/
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))
/-- After the point: the scratch buffers back, the thirty own cells at zero, closed (the barrier cell is the
    runtime's: nothing to hand back). -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.KernelIdeal.Proto

end
-- ==== Proof.KernelIdeal.Tables.lean ====
/-
  The schedule read cell by cell (which duties, which amounts, which payloads), the peeling of what a device
  owes as its signals and copies go, the level evidence for each of its waits, and the credit the launch
  deals it: fifteen units on its barrier cell (one from each other device) and one row's credit on each
  receive cell (from the one device that writes that slot).
-/
import proofs.«900915_g7700000000000916_dist_max_ax0_shard0_i_m2048_n1024_v7x_i16_f32_1_alg».proof.Proof.KernelIdeal.Ghost

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Sched
variable (c : Dev nD) (j : Fin 15)

omit [FloatOps F] in
private theorem slotOf_sendS (j : Fin 15) : slotOf (sendS j) = some (false, j) := by
  have h : 2 ≤ (sendS j).val ∧ (sendS j).val < 17 := ⟨by show 2 ≤ 2 + j.val; omega, by show 2 + j.val < 17; omega⟩
  unfold slotOf
  rw [dif_pos h]
  congr 2
  exact Fin.ext (by show 2 + j.val - 2 = j.val; omega)

omit [FloatOps F] in
private theorem slotOf_recvS (j : Fin 15) : slotOf (recvS j) = some (true, j) := by
  have h1 : ¬ (2 ≤ (recvS j).val ∧ (recvS j).val < 17) := by
    intro h; have := h.2; change 17 + j.val < 17 at this; omega
  have h2 : 17 ≤ (recvS j).val ∧ (recvS j).val < 32 := ⟨by show 17 ≤ 17 + j.val; omega, by show 17 + j.val < 32; omega⟩
  unfold slotOf
  rw [dif_neg h1, dif_pos h2]
  congr 2
  exact Fin.ext (by show 17 + j.val - 17 = j.val; omega)

theorem duties_bar : (sched (F := F) m ρ).duties (barCell c) 0 = Finset.univ := by
  show (if (0 : ℕ) = 0 ∧ (barCell c).1.2 = .tc then (Finset.univ : Finset (Fin 15)) else ∅) = Finset.univ
  exact if_pos ⟨rfl, rfl⟩
theorem duties_send : (sched (F := F) m ρ).duties (sendCell c j) 0 = {0} := by
  show (if (0 : ℕ) = 0 ∧ (sendCell c j).1.2 = .tc then (if (slotOf (sendS j)).isSome then ({0} : Finset (Fin 15)) else ∅) else ∅) = {0}
  rw [if_pos ⟨rfl, rfl⟩, slotOf_sendS]
  exact if_pos rfl
theorem duties_recv : (sched (F := F) m ρ).duties (recvCell c j) 0 = {0} := by
  show (if (0 : ℕ) = 0 ∧ (recvCell c j).1.2 = .tc then (if (slotOf (recvS j)).isSome then ({0} : Finset (Fin 15)) else ∅) else ∅) = {0}
  rw [if_pos ⟨rfl, rfl⟩, slotOf_recvS]
  exact if_pos rfl
theorem duties_later (g : GSem nD τ sig) : ∀ r, 1 ≤ r → (sched (F := F) m ρ).duties g r = ∅ := by
  intro r hr
  exact if_neg (fun h => by omega)

theorem amount_bar (d : Fin 15) : (sched (F := F) m ρ).amount (barCell c) 0 d = 1 := rfl
theorem amount_send (d : Fin 15) : (sched (F := F) m ρ).amount (sendCell c j) 0 d = N := rfl
theorem amount_recv (d : Fin 15) : (sched (F := F) m ρ).amount (recvCell c j) 0 d = N := rfl

theorem expect_bar : (sched (F := F) m ρ).expect (barCell c) 0 = 15 := by
  unfold Schedule.expect Schedule.amountOf
  rw [duties_bar]
  simp only [amount_bar, Finset.sum_const, Finset.card_univ, Fintype.card_fin, smul_eq_mul, Nat.mul_one]
theorem expect_send : (sched (F := F) m ρ).expect (sendCell c j) 0 = N := by
  unfold Schedule.expect Schedule.amountOf
  rw [duties_send, Finset.sum_singleton, amount_send]
theorem expect_recv : (sched (F := F) m ρ).expect (recvCell c j) 0 = N := by
  unfold Schedule.expect Schedule.amountOf
  rw [duties_recv, Finset.sum_singleton, amount_recv]

theorem payload_bar (d : Fin 15) : (sched (F := F) m ρ).payload (barCell c) 0 d = barPay c d := rfl
theorem payload_send (d : Fin 15) : (sched (F := F) m ρ).payload (sendCell c j) 0 d = sendPay m ρ c j := by
  show (match slotOf (sendS j) with
      | some (true, j') => recvPay m ρ c j'
      | some (false, j') => sendPay m ρ c j'
      | none => iprop(emp)) = _
  rw [slotOf_sendS]
theorem payload_recv (d : Fin 15) : (sched (F := F) m ρ).payload (recvCell c j) 0 d = recvPay m ρ c j := by
  show (match slotOf (recvS j) with
      | some (true, j') => recvPay m ρ c j'
      | some (false, j') => sendPay m ρ c j'
      | none => iprop(emp)) = _
  rw [slotOf_recvS]

/-- The whole of a cell's round, no duty taken yet. -/
theorem rest_bar : bigSep ((sched (F := F) m ρ).duties (barCell c) 0 \ ∅) (fun d => (sched (F := F) m ρ).payload (barCell c) 0 d)
    = bigSep Finset.univ (fun d : Fin 15 => barPay (F := F) c d) := by
  rw [Finset.sdiff_empty, duties_bar]
  exact bigSep_congr (fun d _ => payload_bar m ρ c d)
theorem rest_send : bigSep ((sched (F := F) m ρ).duties (sendCell c j) 0 \ ∅) (fun d => (sched (F := F) m ρ).payload (sendCell c j) 0 d)
    = sendPay m ρ c j := by
  rw [Finset.sdiff_empty, duties_send, bigSep_singleton, payload_send]
theorem rest_recv : bigSep ((sched (F := F) m ρ).duties (recvCell c j) 0 \ ∅) (fun d => (sched (F := F) m ρ).payload (recvCell c j) 0 d)
    = recvPay m ρ c j := by
  rw [Finset.sdiff_empty, duties_recv, bigSep_singleton, payload_recv]

/-- No protocol cell is unitless (so an own cell may be closed at the end). -/
theorem not_unitless (g : GSem nD τ sig) : ¬ (sched (F := F) m ρ).unitless g := fun h => h

end Sched

/-! ## Peeling what is owed -/

omit [FloatOps F] in
private theorem filter_peel (j : Fin 15) :
    Finset.univ.filter (fun k : Fin 15 => j.val ≤ k.val)
      = insert j (Finset.univ.filter (fun k : Fin 15 => j.val + 1 ≤ k.val)) := by
  ext k
  simp only [Finset.mem_filter, Finset.mem_univ, true_and, Finset.mem_insert]
  constructor
  · intro h
    by_cases hk : k = j
    · exact Or.inl hk
    · exact Or.inr (by have : k.val ≠ j.val := fun h' => hk (Fin.ext h'); omega)
  · rintro (rfl | h)
    · exact Nat.le_refl _
    · omega

omit [FloatOps F] in
private theorem not_mem_peel (j : Fin 15) : j ∉ Finset.univ.filter (fun k : Fin 15 => j.val + 1 ≤ k.val) := by
  simp only [Finset.mem_filter, Finset.mem_univ, true_and]; omega

theorem owedBarFrom_zero (c : Dev nD) : owedBarFrom c 0 = owedBar c := by
  unfold owedBarFrom owedBar
  rw [Finset.filter_true_of_mem (fun j _ => Nat.zero_le _)]
theorem owedRecvFrom_zero (c : Dev nD) : owedRecvFrom c 0 = owedRecv c := by
  unfold owedRecvFrom owedRecv
  rw [Finset.filter_true_of_mem (fun j _ => Nat.zero_le _)]
theorem owedBarFrom_end (c : Dev nD) : owedBarFrom c 15 = 0 := by
  unfold owedBarFrom
  rw [Finset.filter_false_of_mem (fun j _ => by have := j.isLt; omega), Finset.sum_empty]
theorem owedRecvFrom_end (c : Dev nD) : owedRecvFrom c 15 = 0 := by
  unfold owedRecvFrom
  rw [Finset.filter_false_of_mem (fun j _ => by have := j.isLt; omega), Finset.sum_empty]
theorem owedBarFrom_peel (c : Dev nD) (j : Fin 15) :
    owedBarFrom c j.val = owedBarFrom c (j.val + 1) + tallyAt (barCell (fwd c j)) () 1 := by
  unfold owedBarFrom
  rw [filter_peel j, Finset.sum_insert (not_mem_peel j), add_comm]
theorem owedRecvFrom_peel (c : Dev nD) (j : Fin 15) :
    owedRecvFrom c j.val = owedRecvFrom c (j.val + 1) + tallyAt (recvCell (fwd c j) j) () N := by
  unfold owedRecvFrom
  rw [filter_peel j, Finset.sum_insert (not_mem_peel j), add_comm]

/-! ## The level evidence -/

omit [FloatOps F] in
private theorem lv_bar (c : Dev nD) (i : Unit) : lv (barCell c) i = 1 := rfl

omit [FloatOps F] in
private theorem lv_recv (c : Dev nD) (j : Fin 15) (i : Unit) : lv (recvCell c j) i = 2 := by
  show (match slotOf (recvS j) with | some (true, _) => 2 | _ => 0) = 2
  rw [slotOf_recvS]

omit [FloatOps F] in
private theorem lv_stage (c : Dev nD) (q : DmaSem sig) (hq : slotOf q = none) (i : Unit) :
    lv ((c : Thread nD τ), .dma q) i = 0 := by
  show (match slotOf q with | some (true, _) => 2 | _ => 0) = 0
  rw [hq]

omit [FloatOps F] in
/-- Where a device's receive dues are positive: at a receive cell (level 2), on a TensorCore. -/
private theorem owedRecv_pos (c : Dev nD) (g : GSem nD τ sig) (i : Unit) (h : 0 < owedRecv c g i) :
    i ∈ L g ∧ lv g i = 2 := by
  obtain ⟨j, _, hj⟩ := Pipeline.sum_pos_exists (s := Finset.univ) h
  obtain ⟨rfl, -⟩ := Pipeline.tallyAt_pos hj
  exact ⟨by rw [L_tc]; exact Finset.mem_singleton.mpr rfl, lv_recv _ _ _⟩

omit [FloatOps F] in
/-- Where its barrier dues are positive: at a barrier cell (level 1), on a TensorCore. -/
private theorem owedBar_pos (c : Dev nD) (g : GSem nD τ sig) (i : Unit) (h : 0 < owedBar c g i) :
    i ∈ L g ∧ lv g i = 1 := by
  obtain ⟨j, _, hj⟩ := Pipeline.sum_pos_exists (s := Finset.univ) h
  obtain ⟨rfl, -⟩ := Pipeline.tallyAt_pos hj
  exact ⟨by rw [L_tc]; exact Finset.mem_singleton.mpr rfl, lv_bar _ _⟩

omit [FloatOps F] in
/-- A staging cell's wait (level 0) is below everything a device may owe. -/
theorem mayWait_stage (c : Dev nD) (q : DmaSem sig) (hq : slotOf q = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton.mpr rfl) fun g i h => ?_
    rw [lv_stage c q hq]
    rcases Pipeline.add_pos_cases (D₁ := owedRecv c) (D₂ := owedBar c) h with h | h
    · obtain ⟨h1, h2⟩ := owedRecv_pos c g i h
      exact ⟨h1, by rw [h2]; decide⟩
    · obtain ⟨h1, h2⟩ := owedBar_pos c g i h
      exact ⟨h1, by rw [h2]; decide⟩
  · rw [MayWait_zero]
    iintro #H
    iempintro

omit [FloatOps F] in
/-- At its barrier wait a device owes receive credit only: receive cells sit above barrier cells. -/
theorem mayWait_bar (c : Dev nD) :
    (levAts L lv : sProp 𝕄) ⊢ MayWait (c : Thread nD τ) (.reg barS) () (owedRecv c) := by
  refine Pipeline.mayWait_of_levAts (by rw [L_tc]; exact Finset.mem_singleton.mpr rfl) fun g i h => ?_
  obtain ⟨h1, h2⟩ := owedRecv_pos c g i h
  exact ⟨h1, by rw [h2]; exact (by decide : (1 : ℕ) < 2)⟩

/-! ## The launch credit -/

omit [FloatOps F] in
/-- Units owed one at a time to the same cell add up to their number. -/
private theorem sum_tallyAt_one {α : Type} [DecidableEq α] (s : Finset α) (g : GSem nD τ sig) :
    (∑ _j ∈ s, tallyAt g () 1 : CellTallies nD τ sig Unit) = tallyAt g () s.card := by
  induction s using Finset.induction_on with
  | empty => rw [Finset.sum_empty, Finset.card_empty, tallyAt_zero]
  | insert a s ha ih => rw [Finset.sum_insert ha, ih, Finset.card_insert_of_notMem ha, tallyAt_add, Nat.add_comm]

omit [FloatOps F] in
theorem creds (c : Dev nD) :
    (Pipeline.launchCred O₀ c : sProp 𝕄)
      ⊢ iprop(cred (tallyAt (barCell c) () 15) ∗ bigSep Finset.univ fun j : Fin 15 => cred (tallyAt (recvCell c j) () N)) := by
  have hsplit : (Pipeline.launchCred O₀ c : sProp 𝕄)
      = iprop(Pipeline.launchCred owedRecv c ∗ Pipeline.launchCred owedBar c) :=
    Pipeline.launchCred_add owedRecv owedBar c
  have hrecv : (Pipeline.launchCred owedRecv c : sProp 𝕄)
      ⊢ bigSep Finset.univ fun j : Fin 15 => cred (tallyAt (recvCell c j) () N) := by
    have hsum : (Pipeline.launchCred owedRecv c : sProp 𝕄)
        = bigSep Finset.univ fun j : Fin 15 => Pipeline.launchCred (fun d => tallyAt (recvCell (fwd d j) j) () N) c :=
      Pipeline.launchCred_sum Finset.univ (fun (j : Fin 15) (d : Dev nD) => tallyAt (recvCell (fwd d j) j) () N) c
    rw [hsum]
    exact bigSep_mono fun j _ =>
      Pipeline.launchCred_tallyAt (.dma (recvS j)) (fun d => fwd d j) (fun d => bwd d j)
        (fun d => fwd_bwd d j) (fun d => bwd_fwd d j) () N c
  have hbar : (Pipeline.launchCred owedBar c : sProp 𝕄) ⊢ cred (tallyAt (barCell c) () 15) := by
    have hsum : (Pipeline.launchCred owedBar c : sProp 𝕄)
        = bigSep Finset.univ fun j : Fin 15 => Pipeline.launchCred (fun d => tallyAt (barCell (fwd d j)) () 1) c :=
      Pipeline.launchCred_sum Finset.univ (fun (j : Fin 15) (d : Dev nD) => tallyAt (barCell (fwd d j)) () 1) c
    rw [hsum]
    refine (bigSep_mono fun j _ =>
      Pipeline.launchCred_tallyAt (.reg barS) (fun d => fwd d j) (fun d => bwd d j)
        (fun d => fwd_bwd d j) (fun d => bwd_fwd d j) () 1 c).trans ?_
    rw [← Pipeline.cred_finsetSum, sum_tallyAt_one, Finset.card_univ, Fintype.card_fin]
    exact .refl _
  rw [hsplit]
  iintro ⟨Hr, Hb⟩
  isplitl [Hb]
  · iapply hbar; iexact Hb
  · iapply hrecv; iexact Hr

end Cert.KernelIdeal.Proto

end
-- ==== Proof.KernelIdeal.Mem.lean ====
/-
  The buffers behind the protocol: the landing buffer as fifteen slots, the own row as the fifteen shares lent to
  the copies and the share kept, what a slot holds once the sender's row has been copied over it, the kernel's
  names for the slots and semaphores, and what the body's loads and stores read and write.
-/
import proofs.«900915_g7700000000000916_dist_max_ax0_shard0_i_m2048_n1024_v7x_i16_f32_1_alg».proof.Proof.KernelIdeal.Ghost
import Idealize.ShloMosaic.Lib.Ring
import Idealize.ShloMosaic.Lib.Pipeline.Value
import Idealize.ShloMosaic.Lib.ValueLayout

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's names -/

omit [FloatOps F] in
/-- The kernel names slot `j` by a literal row offset; any evidence of the offset's range gives the same memref. -/
theorem slotM_eq (j : Fin 15) (h : ∀ a, (![j.val, 0, 0] : Fin 3 → Nat) a + S1x1x1024.size a ≤ S15x1x1024.size a) :
    ((Memref.whole cc0_scratch1 : Memref sig .tc .vmem S15x1x1024 .f32).slice (Rect.unit (s := S15x1x1024) ![j.val, 0, 0] S1x1x1024.size h) (fun _ => rfl)).squeeze S1x1024 squeezes_S1x1x1024_S1x1024
      = slotM j := rfl

omit [FloatOps F] in
theorem sendS_eq (j : Fin 15) (h : ∀ a, (![j.val] : Fin 1 → Nat) a + S1.size a ≤ S15.size a) :
    ((cc0_scratch2.slice (Rect.unit (s := S15) ![j.val] S1.size h)).squeeze S_ squeezes_S1_S_).sem = sendS j := by
  revert h; revert j; decide
omit [FloatOps F] in
theorem recvS_eq (j : Fin 15) (h : ∀ a, (![j.val] : Fin 1 → Nat) a + S1.size a ≤ S15.size a) :
    ((cc0_scratch3.slice (Rect.unit (s := S15) ![j.val] S1.size h)).squeeze S_ squeezes_S1_S_).sem = recvS j := by
  revert h; revert j; decide

omit [FloatOps F] in
/-- On a DMA semaphore every slot's transfer is one row's credit. -/
theorem slot_amount_dma (j : Fin 15) (sm : DmaSem sig) : (slotM j).view.amount (.dma sm) = N := rfl

/-! ## The landing buffer slot by slot -/

omit [FloatOps F] in
/-- The elements under slot `j` are those of row `j` of the landing buffer. -/
private theorem slot_set (j : Fin 15) :
    (slotM j : Memref sig .tc .vmem S1x1024 .f32).view.set = (slotRect j).set := by
  show (((View.whole cc0_scratch1 : View sig .tc .vmem S15x1x1024 .f32).slice (slotRect j)).reshape S1x1024 _).set = _
  rw [View.set_reshape, View.set_slice_whole]

omit [FloatOps F] in
/-- The landing buffer held whole is held slot by slot (the slots are disjoint rows that cover it). -/
theorem slots_split (c : Dev nD) (f : Buf (Elt F) ((c : Thread nD τ).loc cc0_scratch1)) :
    ((((c : Thread nD τ).loc cc0_scratch1) ↦{fullShare} f : sProp 𝕄)) = bigSep Finset.univ fun j : Fin 15 => slotPts c j f := by
  have hd : ∀ b b' : Fin 15, b ≠ b' → Disjoint (slotRect b).set (slotRect b').set :=
    Ring.lead_disjoint (s := S15x1x1024) (NB := 15) 0 1 (fun j : Fin 15 => ![j.val, 0, 0]) S1x1x1024.size slot_inb
      (fun b => by simp) rfl
  have hc : Finset.univ.biUnion (fun b : Fin 15 => (slotRect b).set) = Finset.univ :=
    Ring.lead_cover (s := S15x1x1024) (NB := 15) 0 1 (fun j : Fin 15 => ![j.val, 0, 0]) S1x1x1024.size slot_inb
      (fun b => by simp) (fun b a ha => by fin_cases a <;> first | exact absurd rfl ha | rfl) rfl
      (fun a ha => by fin_cases a <;> first | exact absurd rfl ha | rfl) rfl
  rw [Ring.pointsTo_blocks (fun b : Fin 15 => (slotRect b).set) hd hc f]
  refine congrArg _ (funext fun j => ?_)
  unfold slotPts
  rw [slot_set]

omit [FloatOps F] in
/-- A row read through the own-row memref and carried to a slot's element type is the row. -/
private theorem read_row_cast (j : Fin 15) (g : BufTy.Contents (Elt F) (cc0_scratch0 : Ref sig .tc).ty) (z : S1x1024.Idx) :
    cast (congrArg (Elt F) (slotM j : Memref sig .tc .vmem S1x1024 .f32).view.elt_eq.symm)
      (View.read (Elt F) (lM : Memref sig .tc .vmem S1x1024 .f32).view g z) = g z := rfl

omit [FloatOps F] in
open Idealize.ShloMosaic.ValueIdx in
/-- Element `(0, k)` of slot `j` is element `(j, 0, k)` of the landing buffer. -/
private theorem slot_emb (j : Fin 15) (z : S1x1024.Idx) :
    (slotM j : Memref sig .tc .vmem S1x1024 .f32).view.emb z
      = (slotRect j).emb (ix3 (⟨0, Nat.one_pos⟩ : Fin 1) (z 0) (z 1)) := by
  have hr : Shape.reshapeEquiv squeezes_S1x1x1024_S1x1024.numel_eq z = ix3 (⟨0, Nat.one_pos⟩ : Fin 1) (z 0) (z 1) :=
    (congrArg _ (eq_ix2 z)).trans (reshapeEquiv_ix2_1ab _ (z 0) (z 1))
  exact congrArg (slotRect j).emb hr

omit [FloatOps F] in
open Idealize.ShloMosaic.ValueIdx in
private theorem slot_emb_0 (j : Fin 15) (z : S1x1024.Idx) :
    (((slotM j : Memref sig .tc .vmem S1x1024 .f32).view.emb z) 0).val = j.val := by
  rw [slot_emb, Rect.emb_apply]
  show j.val + 1 * 0 = j.val
  omega

omit [FloatOps F] in
open Idealize.ShloMosaic.ValueIdx in
private theorem slot_emb_2 (j : Fin 15) (z : S1x1024.Idx) :
    (((slotM j : Memref sig .tc .vmem S1x1024 .f32).view.emb z) 2).val = (z 1).val := by
  rw [slot_emb, Rect.emb_apply]
  show 0 + 1 * (z 1).val = (z 1).val
  omega

open Idealize.ShloMosaic.ValueIdx in
/-- Slot `j` of the full landing buffer holds, at `(0, k)`, the row of the device `j + 1` places before at `(0, k)`. -/
private theorem landedAll_slot (c : Dev nD) (j : Fin 15) (z : S1x1024.Idx) :
    landedAll m ρ c ((slotM j : Memref sig .tc .vmem S1x1024 .f32).view.emb z) = rowMax m ρ (bwd c j) z := by
  have hi0 := slot_emb_0 j z
  have hi2 := slot_emb_2 j z
  generalize (slotM j : Memref sig .tc .vmem S1x1024 .f32).view.emb z = i at hi0 hi2 ⊢
  have hz0 : (z 0).val = 0 := by have := idx2_lt0 z; omega
  have a0 : (⟨(i 0).val, (i 0).isLt⟩ : Fin 15) = j := Fin.ext hi0
  have a2 : z = ix2 (0 : Fin 1) (⟨(i 2).val, (i 2).isLt⟩ : Fin 1024) := by
    funext a
    match a with
    | ⟨0, _⟩ => exact Fin.ext hz0
    | ⟨1, _⟩ => exact Fin.ext hi2.symm
  unfold landedAll
  rw [a0, ← a2]

/-- Slot `j` of device `c` after device `bwd c j`'s row has been copied over whatever it held is slot `j` of the full
    landing buffer. -/
theorem landed_slot (c : Dev nD) (j : Fin 15) (fd : Buf (Elt F) ((slotM j).view.loc (c : Thread nD τ))) :
    ((slotM j).view.loc (c : Thread nD τ) ↦[(slotM j).view.set]{fullShare}
        ((slotM j).view.write (Elt F) fd ((lM : Memref sig .tc .vmem S1x1024 .f32).view.read (Elt F) (rowMax m ρ (bwd c j))) Finset.univ) : sProp 𝕄)
      = slotPts c j (landedAll m ρ c) := by
  unfold slotPts
  refine pointsTo_congr fun i hi => ?_
  obtain ⟨z, rfl⟩ := View.exists_emb_of_mem_set _ hi
  rw [View.write_emb_of_mem _ _ (Finset.mem_univ z), landedAll_slot]
  exact read_row_cast j (rowMax m ρ (bwd c j)) z

/-! ## The own row by shares -/

omit [FloatOps F] in
private theorem sep_rot (B L R : sProp 𝕄) : (iprop(B ∗ (L ∗ R)) : sProp 𝕄) = iprop((L ∗ B) ∗ R) := by
  have h1 : BI.sep L B = BI.sep B L := Std.Commutative.comm (op := fun a b : sProp 𝕄 => BI.sep a b) L B
  have h2 : BI.sep (BI.sep B L) R = BI.sep B (BI.sep L R) := Std.Associative.assoc (op := fun a b : sProp 𝕄 => BI.sep a b) B L R
  show BI.sep B (BI.sep L R) = BI.sep (BI.sep L B) R
  rw [h1, h2]

omit [FloatOps F] in
/-- The row held on any element set at the full share is held as the first `n` lent shares and what is left after
    `n` halvings: each halving splits what is left into the next lent share and the new rest. -/
private theorem row_split_aux (c : Dev nD) (f : Buf (Elt F) ((c : Thread nD τ).loc cc0_scratch0))
    (I : Finset (Idx ((c : Thread nD τ).loc cc0_scratch0))) :
    ∀ (n : ℕ) (hn : n ≤ 15), ((((c : Thread nD τ).loc cc0_scratch0) ↦[I]{fullShare} f : sProp 𝕄))
      = iprop((bigSep (Finset.univ.filter fun j : Fin 15 => j.val < n) fun j : Fin 15 =>
            (((c : Thread nD τ).loc cc0_scratch0) ↦[I]{copyShare j} f))
          ∗ (((c : Thread nD τ).loc cc0_scratch0) ↦[I]{restShare n} f))
  | 0, _ => by
    rw [show (Finset.univ.filter fun j : Fin 15 => j.val < 0) = ∅ from by ext j; simp, bigSep_empty]
    exact (BI.equiv_iff.mp BI.emp_sep).symm
  | n + 1, hn => by
    have hs : ((((c : Thread nD τ).loc cc0_scratch0) ↦[I]{restShare n} f : sProp 𝕄))
        ⊣⊢ iprop((((c : Thread nD τ).loc cc0_scratch0) ↦[I]{(restShare n).left} f) ∗ (((c : Thread nD τ).loc cc0_scratch0) ↦[I]{(restShare n).right} f)) :=
      pointsTo_share (PosShare.mem_left_op_right (restShare n))
    have hins : (Finset.univ.filter fun j : Fin 15 => j.val < n + 1)
        = insert (⟨n, by omega⟩ : Fin 15) (Finset.univ.filter fun j : Fin 15 => j.val < n) := by
      ext j; simp [Fin.ext_iff]; omega
    rw [row_split_aux c f I n (by omega), hins, bigSep_insert (by simp), BI.equiv_iff.mp ⟨hs.1, hs.2⟩]
    exact sep_rot _ _ _

omit [FloatOps F] in
/-- The own row held whole is held as the fifteen shares the copies borrow and the share that stays. -/
theorem row_split (c : Dev nD) (f : Buf (Elt F) ((c : Thread nD τ).loc cc0_scratch0)) :
    ((((c : Thread nD τ).loc cc0_scratch0) ↦{fullShare} f : sProp 𝕄))
      ⊣⊢ iprop((bigSep Finset.univ fun j : Fin 15 =>
            ((lM : Memref sig .tc .vmem S1x1024 .f32).view.loc (c : Thread nD τ) ↦[(lM : Memref sig .tc .vmem S1x1024 .f32).view.set]{copyShare j} f))
          ∗ ((lM : Memref sig .tc .vmem S1x1024 .f32).view.loc (c : Thread nD τ) ↦[(lM : Memref sig .tc .vmem S1x1024 .f32).view.set]{restShare 15} f)) := by
  have hset : (lM : Memref sig .tc .vmem S1x1024 .f32).view.set = Finset.univ := View.set_whole cc0_scratch0
  have hall : (Finset.univ.filter fun j : Fin 15 => j.val < 15) = Finset.univ := by
    ext j; simp
  rw [hset]
  refine BiEntails.of_eq ?_
  have h := row_split_aux (F := F) c f Finset.univ 15 le_rfl
  rw [hall] at h
  exact h

/-! ## The body's loads and stores -/

abbrev rX : Rect S2048x1024 := Rect.unit (s := S2048x1024) ![0, 0] S2048x1024.size inb_S2048x1024_S2048x1024_0_0
abbrev rR : Rect S1x1024 := Rect.unit (s := S1x1024) ![0, 0] S1x1024.size inb_S1x1024_S1x1024_0_0
abbrev rC : Rect S15x1x1024 := Rect.unit (s := S15x1x1024) ![0, 0, 0] S15x1x1024.size inb_S15x1x1024_S15x1x1024_0_0_0

omit [FloatOps F] in
theorem read_x (f : (cc0_stg0_0 : Ref sig .tc).ty.Contents (Elt F)) :
    (xM : Memref sig .tc .vmem S2048x1024 .f32).view.readAt (Elt F) rX.toLoadRect f = f :=
  Memref.readAt_unit_zero (Elt F) cc0_stg0_0 (funext fun a => by fin_cases a <;> rfl) _ f
omit [FloatOps F] in
theorem read_row (f : (cc0_scratch0 : Ref sig .tc).ty.Contents (Elt F)) :
    (lM : Memref sig .tc .vmem S1x1024 .f32).view.readAt (Elt F) rR.toLoadRect f = f :=
  Memref.readAt_unit_zero (Elt F) cc0_scratch0 (funext fun a => by fin_cases a <;> rfl) _ f
omit [FloatOps F] in
theorem read_all (f : (cc0_scratch1 : Ref sig .tc).ty.Contents (Elt F)) :
    (cM : Memref sig .tc .vmem S15x1x1024 .f32).view.readAt (Elt F) rC.toLoadRect f = f :=
  Memref.readAt_unit_zero (Elt F) cc0_scratch1 (funext fun a => by fin_cases a <;> rfl) _ f
omit [FloatOps F] in
theorem write_row (f w : (cc0_scratch0 : Ref sig .tc).ty.Contents (Elt F)) :
    ((lM : Memref sig .tc .vmem S1x1024 .f32).access rR : View sig .tc _ _ _).write (Elt F) f w Finset.univ = w :=
  Memref.write_access_unit_zero_univ (Elt F) cc0_scratch0 (funext fun a => by fin_cases a <;> rfl) _ f w
omit [FloatOps F] in
theorem write_out (f w : (cc0_stg1_0 : Ref sig .tc).ty.Contents (Elt F)) :
    ((oM : Memref sig .tc .vmem S1x1024 .f32).access rR : View sig .tc _ _ _).write (Elt F) f w Finset.univ = w :=
  Memref.write_access_unit_zero_univ (Elt F) cc0_stg1_0 (funext fun a => by fin_cases a <;> rfl) _ f w

/-- info: 'Cert.KernelIdeal.Proto.slots_split' depends on axioms: [propext, Classical.choice, Quot.sound] -/
#guard_msgs in #print axioms slots_split
/-- info: 'Cert.KernelIdeal.Proto.landed_slot' depends on axioms: [propext, Classical.choice, Quot.sound] -/
#guard_msgs in #print axioms landed_slot
/-- info: 'Cert.KernelIdeal.Proto.row_split' depends on axioms: [propext, Classical.choice, Quot.sound] -/
#guard_msgs in #print axioms row_split

end Cert.KernelIdeal.Proto

end
-- ==== Proof.KernelIdeal.Steps.lean ====
/-
  The pieces the body's run is made of: the kernel's device chains, families of fifteen written out, what the
  persistent record gives, the four buffers through their memrefs, the schedule as the run reads it, and the
  rule for one copy.
-/
import proofs.«900915_g7700000000000916_dist_max_ax0_shard0_i_m2048_n1024_v7x_i16_f32_1_alg».proof.Proof.KernelIdeal.Tables
import proofs.«900915_g7700000000000916_dist_max_ax0_shard0_i_m2048_n1024_v7x_i16_f32_1_alg».proof.Proof.KernelIdeal.Mem

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The kernel's device chains: signal `j` and copy `j` both address the device `j + 1` places on -/

theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 3 := Fin.ext (k0_dev4_eq c)
theorem dev5_eq (c : Dev nD) : (⟨k0_dev5 c, k0_dev5_lt c⟩ : Dev nD) = fwd c 4 := Fin.ext (k0_dev5_eq c)
theorem dev6_eq (c : Dev nD) : (⟨k0_dev6 c, k0_dev6_lt c⟩ : Dev nD) = fwd c 5 := Fin.ext (k0_dev6_eq c)
theorem dev7_eq (c : Dev nD) : (⟨k0_dev7 c, k0_dev7_lt c⟩ : Dev nD) = fwd c 6 := Fin.ext (k0_dev7_eq c)
theorem dev8_eq (c : Dev nD) : (⟨k0_dev8 c, k0_dev8_lt c⟩ : Dev nD) = fwd c 7 := Fin.ext (k0_dev8_eq c)
theorem dev9_eq (c : Dev nD) : (⟨k0_dev9 c, k0_dev9_lt c⟩ : Dev nD) = fwd c 8 := Fin.ext (k0_dev9_eq c)
theorem dev10_eq (c : Dev nD) : (⟨k0_dev10 c, k0_dev10_lt c⟩ : Dev nD) = fwd c 9 := Fin.ext (k0_dev10_eq c)
theorem dev11_eq (c : Dev nD) : (⟨k0_dev11 c, k0_dev11_lt c⟩ : Dev nD) = fwd c 10 := Fin.ext (k0_dev11_eq c)
theorem dev12_eq (c : Dev nD) : (⟨k0_dev12 c, k0_dev12_lt c⟩ : Dev nD) = fwd c 11 := Fin.ext (k0_dev12_eq c)
theorem dev13_eq (c : Dev nD) : (⟨k0_dev13 c, k0_dev13_lt c⟩ : Dev nD) = fwd c 12 := Fin.ext (k0_dev13_eq c)
theorem dev14_eq (c : Dev nD) : (⟨k0_dev14 c, k0_dev14_lt c⟩ : Dev nD) = fwd c 13 := Fin.ext (k0_dev14_eq c)
theorem dev15_eq (c : Dev nD) : (⟨k0_dev15 c, k0_dev15_lt c⟩ : Dev nD) = fwd c 14 := Fin.ext (k0_dev15_eq c)
theorem dev16_eq (c : Dev nD) : (⟨k0_dev16 c, k0_dev16_lt c⟩ : Dev nD) = fwd c 0 := Fin.ext (k0_dev16_eq c)
theorem dev17_eq (c : Dev nD) : (⟨k0_dev17 c, k0_dev17_lt c⟩ : Dev nD) = fwd c 1 := Fin.ext (k0_dev17_eq c)
theorem dev18_eq (c : Dev nD) : (⟨k0_dev18 c, k0_dev18_lt c⟩ : Dev nD) = fwd c 2 := Fin.ext (k0_dev18_eq c)
theorem dev19_eq (c : Dev nD) : (⟨k0_dev19 c, k0_dev19_lt c⟩ : Dev nD) = fwd c 3 := Fin.ext (k0_dev19_eq c)
theorem dev20_eq (c : Dev nD) : (⟨k0_dev20 c, k0_dev20_lt c⟩ : Dev nD) = fwd c 4 := Fin.ext (k0_dev20_eq c)
theorem dev21_eq (c : Dev nD) : (⟨k0_dev21 c, k0_dev21_lt c⟩ : Dev nD) = fwd c 5 := Fin.ext (k0_dev21_eq c)
theorem dev22_eq (c : Dev nD) : (⟨k0_dev22 c, k0_dev22_lt c⟩ : Dev nD) = fwd c 6 := Fin.ext (k0_dev22_eq c)
theorem dev23_eq (c : Dev nD) : (⟨k0_dev23 c, k0_dev23_lt c⟩ : Dev nD) = fwd c 7 := Fin.ext (k0_dev23_eq c)
theorem dev24_eq (c : Dev nD) : (⟨k0_dev24 c, k0_dev24_lt c⟩ : Dev nD) = fwd c 8 := Fin.ext (k0_dev24_eq c)
theorem dev25_eq (c : Dev nD) : (⟨k0_dev25 c, k0_dev25_lt c⟩ : Dev nD) = fwd c 9 := Fin.ext (k0_dev25_eq c)
theorem dev26_eq (c : Dev nD) : (⟨k0_dev26 c, k0_dev26_lt c⟩ : Dev nD) = fwd c 10 := Fin.ext (k0_dev26_eq c)
theorem dev27_eq (c : Dev nD) : (⟨k0_dev27 c, k0_dev27_lt c⟩ : Dev nD) = fwd c 11 := Fin.ext (k0_dev27_eq c)
theorem dev28_eq (c : Dev nD) : (⟨k0_dev28 c, k0_dev28_lt c⟩ : Dev nD) = fwd c 12 := Fin.ext (k0_dev28_eq c)
theorem dev29_eq (c : Dev nD) : (⟨k0_dev29 c, k0_dev29_lt c⟩ : Dev nD) = fwd c 13 := Fin.ext (k0_dev29_eq c)
theorem dev30_eq (c : Dev nD) : (⟨k0_dev30 c, k0_dev30_lt c⟩ : Dev nD) = fwd c 14 := Fin.ext (k0_dev30_eq c)

/-! ## Fifteen of a kind, written out -/

omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem sum_fin15 {M : Type} [AddCommMonoid M] (f : Fin 15 → M) (X : M) :
    X + ∑ j, f j = X + f 14 + f 13 + f 12 + f 11 + f 10 + f 9 + f 8 + f 7 + f 6 + f 5 + f 4 + f 3 + f 2 + f 1 + f 0 := by
  have h : ∑ j, f j = (([0, 1, 2, 3, 4, 5, 6, 7, 8, 9, 10, 11, 12, 13, 14] : List (Fin 15)).map f).sum := by
    rw [Fin.sum_univ_def]; rfl
  rw [h]; simp only [List.map_cons, List.map_nil, List.sum_cons, List.sum_nil, add_zero]; ac_rfl

/-- The offsets' involution as an equivalence: a family indexed by the slot is the same family indexed by the offset
    of the signal that hands the slot over. -/
def revE : Fin 15 ≃ Fin 15 := ⟨rev, rev, rev_rev, rev_rev⟩

/-! ## Reading the persistent record -/

theorem inv_at (K : Dev nD × CK → ℕ) (ck : Dev nD × CK) : records m ρ K ⊢ cellInv ER (sched m ρ) (K ck) (kcell ck) :=
  (show records m ρ K ⊢ bigSep Finset.univ fun ck : Dev nD × CK => cellInv ER (sched m ρ) (K ck) (kcell ck) from by
    unfold records; iintro ⟨HI, -⟩; iexact HI).trans (bigSep_elim (Finset.mem_univ ck))
theorem reached_at (K : Dev nD × CK → ℕ) (ck : Dev nD × CK) : records m ρ K ⊢ reached ER (kcell ck) 0 :=
  (show records m ρ K ⊢ bigSep Finset.univ fun ck : Dev nD × CK => reached ER (kcell ck) 0 from by
    unfold records; iintro ⟨-, HR⟩; iexact HR).trans (bigSep_elim (Finset.mem_univ ck))

theorem inv_bar (K : Dev nD × CK → ℕ) (d : Dev nD) : records m ρ K ⊢ cellInv ER (sched m ρ) (K (d, .inl ())) (barCell d) := inv_at m ρ K (d, .inl ())
theorem inv_send (K : Dev nD × CK → ℕ) (d : Dev nD) (j : Fin 15) : records m ρ K ⊢ cellInv ER (sched m ρ) (K (d, .inr (false, j))) (sendCell d j) := inv_at m ρ K (d, .inr (false, j))
theorem inv_recv (K : Dev nD × CK → ℕ) (d : Dev nD) (j : Fin 15) : records m ρ K ⊢ cellInv ER (sched m ρ) (K (d, .inr (true, j))) (recvCell d j) := inv_at m ρ K (d, .inr (true, j))
theorem reached_bar (K : Dev nD × CK → ℕ) (d : Dev nD) : records m ρ K ⊢ reached ER (barCell d) 0 := reached_at m ρ K (d, .inl ())
theorem reached_send (K : Dev nD × CK → ℕ) (d : Dev nD) (j : Fin 15) : records m ρ K ⊢ reached ER (sendCell d j) 0 := reached_at m ρ K (d, .inr (false, j))
theorem reached_recv (K : Dev nD × CK → ℕ) (d : Dev nD) (j : Fin 15) : records m ρ K ⊢ reached ER (recvCell d j) 0 := reached_at m ρ K (d, .inr (true, j))

/-- A device's positions: its barrier cell's, its fifteen send cells', its fifteen receive cells'. -/
theorem ownPos_eq (c : Dev nD) : ownPos (F := F) c
    = iprop(atPos ER (barCell c) 0 ∅ 0 ∗ (bigSep Finset.univ fun j : Fin 15 => atPos ER (sendCell c j) 0 ∅ 0)
        ∗ (bigSep Finset.univ fun j : Fin 15 => atPos ER (recvCell c j) 0 ∅ 0)) := by
  unfold ownPos
  rw [bigSep_univ_sum, bigSep_univ_of_subsingleton (), bigSep_univ_prod, bigSep_univ_eq_bigSepL [false, true] (by decide) (by decide)]
  rfl

/-! ## The four buffers through their memrefs -/

omit [FloatOps F] in
theorem x_pts (c : Dev nD) (q : PosShare TreeShare) (f : Buf (Elt F) ((c : Thread nD τ).loc cc0_stg0_0)) :
    (((c : Thread nD τ).loc cc0_stg0_0) ↦{q} f : sProp 𝕄)
      = ((xM : Memref sig .tc .vmem S2048x1024 .f32).view.loc (c : Thread nD τ) ↦[(xM : Memref sig .tc .vmem S2048x1024 .f32).view.set]{q} f) := by
  rw [View.set_whole]
omit [FloatOps F] in
theorem o_pts (c : Dev nD) (q : PosShare TreeShare) (f : Buf (Elt F) ((c : Thread nD τ).loc cc0_stg1_0)) :
    (((c : Thread nD τ).loc cc0_stg1_0) ↦{q} f : sProp 𝕄)
      = ((oM : Memref sig .tc .vmem S1x1024 .f32).view.loc (c : Thread nD τ) ↦[(oM : Memref sig .tc .vmem S1x1024 .f32).view.set]{q} f) := by
  rw [View.set_whole]
omit [FloatOps F] in
theorem l_pts (c : Dev nD) (q : PosShare TreeShare) (f : Buf (Elt F) ((c : Thread nD τ).loc cc0_scratch0)) :
    (((c : Thread nD τ).loc cc0_scratch0) ↦{q} f : sProp 𝕄)
      = ((lM : Memref sig .tc .vmem S1x1024 .f32).view.loc (c : Thread nD τ) ↦[(lM : Memref sig .tc .vmem S1x1024 .f32).view.set]{q} f) := by
  rw [View.set_whole]
omit [FloatOps F] in
theorem c_pts (c : Dev nD) (q : PosShare TreeShare) (f : Buf (Elt F) ((c : Thread nD τ).loc cc0_scratch1)) :
    (((c : Thread nD τ).loc cc0_scratch1) ↦{q} f : sProp 𝕄)
      = ((cM : Memref sig .tc .vmem S15x1x1024 .f32).view.loc (c : Thread nD τ) ↦[(cM : Memref sig .tc .vmem S15x1x1024 .f32).view.set]{q} f) := by
  rw [View.set_whole]

/-! ## The schedule as the run reads it -/

/-- Signal `j` of device `c` pays duty `j` of device `fwd c j`'s barrier cell: it hands over `c`'s own slot `rev j`. -/
theorem pay_sig (c : Dev nD) (j : Fin 15) : (sched (F := F) m ρ).payload (barCell (fwd c j)) 0 j
    = iprop((∃ f, (slotM (rev j)).view.loc (c : Thread nD τ) ↦[(slotM (rev j)).view.set]{fullShare} f) ∗ reached ER (recvCell c (rev j)) 0) := by
  rw [payload_bar]; unfold barPay slotPts; rw [bwd_fwd]

/-- What is owed to the barrier cells, as a chain the signals peel from the right. -/
theorem owed_chain (c : Dev nD) : O₀ c = owedRecv c
    + tallyAt (barCell (fwd c 14)) () 1 + tallyAt (barCell (fwd c 13)) () 1 + tallyAt (barCell (fwd c 12)) () 1 + tallyAt (barCell (fwd c 11)) () 1
    + tallyAt (barCell (fwd c 10)) () 1 + tallyAt (barCell (fwd c 9)) () 1 + tallyAt (barCell (fwd c 8)) () 1 + tallyAt (barCell (fwd c 7)) () 1
    + tallyAt (barCell (fwd c 6)) () 1 + tallyAt (barCell (fwd c 5)) () 1 + tallyAt (barCell (fwd c 4)) () 1 + tallyAt (barCell (fwd c 3)) () 1
    + tallyAt (barCell (fwd c 2)) () 1 + tallyAt (barCell (fwd c 1)) () 1 + tallyAt (barCell (fwd c 0)) () 1 := by
  unfold O₀ owedBar; exact sum_fin15 (fun j => tallyAt (barCell (fwd c j)) () 1) (owedRecv c)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
/-- One store through the whole row over any contents leaves the stored row. -/
theorem row_written (f0 w : (cc0_scratch0 : Ref sig .tc).ty.Contents (Elt F)) :
    (lM : Memref sig .tc .vmem S1x1024 .f32).view.writes (Elt F) f0 [⟨rR, w⟩] = w :=
  write_row f0 w

/-- After the first store the own row holds the column maxima of the staged block. -/
theorem row_after (c : Dev nD) (f0 : Buf (Elt F) ((c : Thread nD τ).loc cc0_scratch0)) :
    (lM : Memref sig .tc .vmem S1x1024 .f32).view.writes (Elt F) f0
        [⟨rR, k0_pay1 ((xM : Memref sig .tc .vmem S2048x1024 .f32).view.readAt (Elt F) rX.toLoadRect (xstg m ρ c))⟩]
      = rowMax m ρ c :=
  (row_written f0 _).trans (congrArg k0_pay1 (read_x (xstg m ρ c)))

/-- Copy `j`: a share of device `c`'s row into slot `j` of device `fwd c j`, whatever that slot held. The departure
    returns the share; the arrival hands the target the slot holding `c`'s row. -/
theorem wp_send_slot (K : Dev nD × CK → ℕ) (c n : Dev nD) (j : Fin 15) (hn : n = fwd c j)
    {hsc : (slotM j : Memref sig (Dev.tc n : Thread nD τ).2.kind .vmem S1x1024 .f32).view.ref.isScScratch = false}
    {hsrc : (lM : Memref sig .tc .vmem S1x1024 .f32).view.WordExact} {hdst : (slotM j : Memref sig .tc .vmem S1x1024 .f32).view.WordExact}
    {hsem : DmaTarget.Typed .vmem (.dma (recvS j)) (.remote (Dev.tc n : Thread nD τ) (slotM j : Memref sig .tc .vmem S1x1024 .f32) (.dma (sendS j)) hsc)}
    {α : Type} {Q : α → sProp 𝕄} {k : PUnit → Prog (TpuEff nD τ sig (Elt F) Λ₀ .tc) α}
    (fd : Buf (Elt F) ((slotM j).view.loc (fwd c j : Thread nD τ))) (W : Waits sig Unit) :
    iprop(cellInv ER (sched m ρ) (K (c, .inr (false, j))) (sendCell c j) ∗ cellInv ER (sched m ρ) (K (fwd c j, .inr (true, j))) (recvCell (fwd c j) j)
        ∗ ((lM : Memref sig .tc .vmem S1x1024 .f32).view.loc (c : Thread nD τ) ↦[(lM : Memref sig .tc .vmem S1x1024 .f32).view.set]{copyShare j} rowMax m ρ c)
        ∗ slotPts (fwd c j) j fd
        ∗ owes (c : Thread nD τ) (owedRecvFrom c j.val) W
        ∗ dutyTok ER (sendCell c j) 0 (0 : Fin 15) ∗ reached ER (sendCell c j) 0
        ∗ dutyTok ER (recvCell (fwd c j) j) 0 (0 : Fin 15) ∗ reached ER (recvCell (fwd c j) j) 0)
      ⊢ iprop(((cred (tallyAt (sendCell c j) () N) ∗ owes (c : Thread nD τ) (owedRecvFrom c (j.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lM (.remote (Dev.tc n : Thread nD τ) (slotM j) (.dma (sendS j)) hsc) (.dma (recvS j)) hsrc hdst hsem) k) Q) := by
  subst hn
  unfold slotPts
  exact Rounds.wp_send_pointsTo 𝒱₀ ER (sched m ρ) (c : Thread nD τ) none (κ₁ := K (c, .inr (false, j))) (κ₂ := K (fwd c j, .inr (true, j)))
    (r₁ := 0) (r₂ := 0) (d₁ := 0) (d₂ := 0) (fd := fd)
    (by rw [duties_send]; exact Finset.mem_singleton_self _) (by rw [duties_recv]; exact Finset.mem_singleton_self _)
    () () N (slot_amount_dma j (recvS j)) (amount_send m ρ c j 0) (amount_recv m ρ (fwd c j) j 0) (owedRecvFrom c (j.val + 1)) (owedRecvFrom_peel c j) (W := W)
    (by rw [payload_send]; unfold sendPay rowPts; exact BI.Entails.refl _)
    (by rw [payload_recv]; unfold recvPay; rw [← landed_slot m ρ (fwd c j) j fd, bwd_fwd])

/-- The barrier's fifteen payloads, told by the slot each hands over: slot `s` of device `fwd c s`, and that its receive
    cell there is at round 0. -/
theorem bar_pays (c : Dev nD) : bigSep Finset.univ (fun d : Fin 15 => (sched (F := F) m ρ).payload (barCell c) 0 d)
    = bigSep Finset.univ (fun s : Fin 15 => iprop((∃ f, slotPts (F := F) (fwd c s) s f) ∗ reached ER (recvCell (fwd c s) s) 0)) := by
  rw [bigSep_univ_equiv revE]
  refine bigSep_congr fun s _ => ?_
  show (sched (F := F) m ρ).payload (barCell c) 0 (rev s) = _
  rw [payload_bar]; unfold barPay; rw [bwd_rev, rev_rev]

/-! ## The buffers put back together -/

/-- The fifteen slots, each handed back by its receive cell holding its sender's row, are the landing buffer holding all
    fifteen rows. -/
theorem comm_joined (c : Dev nD) : bigSep Finset.univ (fun j : Fin 15 => (sched (F := F) m ρ).payload (recvCell c j) 0 (0 : Fin 15))
    = ((cM : Memref sig .tc .vmem S15x1x1024 .f32).view.loc (c : Thread nD τ) ↦[(cM : Memref sig .tc .vmem S15x1x1024 .f32).view.set]{fullShare} landedAll m ρ c) := by
  rw [← c_pts (F := F) c fullShare (landedAll m ρ c), slots_split c (landedAll m ρ c)]
  refine bigSep_congr fun j _ => ?_
  rw [payload_recv]; rfl

/-- The fifteen shares, each handed back by its send cell, and the share kept are the own row again. -/
theorem row_joined (c : Dev nD) :
    iprop((bigSep Finset.univ fun j : Fin 15 => (sched (F := F) m ρ).payload (sendCell c j) 0 (0 : Fin 15))
        ∗ ((lM : Memref sig .tc .vmem S1x1024 .f32).view.loc (c : Thread nD τ) ↦[(lM : Memref sig .tc .vmem S1x1024 .f32).view.set]{restShare 15} rowMax m ρ c))
      ⊢ (iprop(∃ f, ((c : Thread nD τ).loc cc0_scratch0) ↦{fullShare} f) : sProp 𝕄) := by
  have h : bigSep Finset.univ (fun j : Fin 15 => (sched (F := F) m ρ).payload (sendCell c j) 0 (0 : Fin 15))
      = bigSep Finset.univ fun j : Fin 15 =>
          ((lM : Memref sig .tc .vmem S1x1024 .f32).view.loc (c : Thread nD τ) ↦[(lM : Memref sig .tc .vmem S1x1024 .f32).view.set]{copyShare j} rowMax m ρ c) :=
    bigSep_congr fun j _ => by rw [payload_send]; rfl
  rw [h]
  iintro H
  ihave H' := ((row_split (F := F) c (rowMax m ρ c)).2) $$ H
  iexists (rowMax m ρ c); iexact H'

set_option maxRecDepth 100000 in
/-- One store through the whole result row over any contents leaves the stored row. -/
theorem out_written (f0 w : (cc0_stg1_0 : Ref sig .tc).ty.Contents (Elt F)) :
    (oM : Memref sig .tc .vmem S1x1024 .f32).view.writes (Elt F) f0 [⟨rR, w⟩] = w :=
  write_out f0 w

/-- After the last store the staged result holds the maximum of the own row and the fifteen received. -/
theorem out_after (c : Dev nD) (o0 : Buf (Elt F) ((c : Thread nD τ).loc cc0_stg1_0)) :
    (oM : Memref sig .tc .vmem S1x1024 .f32).view.writes (Elt F) o0
        [⟨rR, k0_pay2 ((lM : Memref sig .tc .vmem S1x1024 .f32).view.readAt (Elt F) rR.toLoadRect (rowMax m ρ c))
            ((cM : Memref sig .tc .vmem S15x1x1024 .f32).view.readAt (Elt F) rC.toLoadRect (landedAll m ρ c))⟩]
      = outAt m ρ c :=
  (out_written o0 _).trans (by rw [read_row, read_all]; rfl)

end Cert.KernelIdeal.Proto

end
-- ==== Proof.KernelIdeal.Close.lean ====
/-
  At the end of the body a device's thirty own cells, every round of theirs consumed, are closed: their counters,
  at zero, are the device's again.
-/
import proofs.«900915_g7700000000000916_dist_max_ax0_shard0_i_m2048_n1024_v7x_i16_f32_1_alg».proof.Proof.KernelIdeal.Tables

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
private theorem close_bigSep_bool (Φ : Bool → sProp 𝕄) : bigSep Finset.univ Φ = iprop(Φ false ∗ Φ true) :=
  bigSep_univ_eq_bigSepL [false, true] (by decide) (by decide) Φ

omit [FloatOps F] in
private theorem close_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One own cell closed: its invariant is among the records, no round from 1 on has a duty, and no protocol cell is
    unitless. -/
private theorem close_one (K : Dev nD × CK → ℕ) (c : Dev nD) (k : Bool × Fin 15) :
    iprop(records m ρ K ∗ atPos ER (kcell (c, .inr k)) 1 ∅ 0) ⊢ (|={Set.univ}=> semVal (kcell (c, .inr k)) 0 : sProp 𝕄) := by
  have hI : (bigSep Finset.univ fun ck : Dev nD × CK => (cellInv ER (sched m ρ) (K ck) (kcell ck) : sProp 𝕄))
      ⊢ cellInv ER (sched m ρ) (K (c, .inr k)) (kcell (c, .inr k)) := bigSep_elim (Finset.mem_univ ((c, Sum.inr k) : Dev nD × CK))
  unfold records
  iintro ⟨⟨#HI, -⟩, Hat⟩
  iapply (Rounds.cell_close ER (sched m ρ) (κ := K (c, .inr k)) (Set.mem_univ _) (not_unitless m ρ _) (R := 1)
    (fun r hr => duties_later m ρ _ r hr))
  isplitr
  · iapply hI
    iexact HI
  · iexact Hat

/-- From the cells' invariants and the device's positions past the one round of each send and receive cell, the
    thirty counters at zero. -/
theorem close_all (K : Dev nD × CK → ℕ) (c : Dev nD) :
    iprop(records m ρ K ∗ (bigSep Finset.univ fun j : Fin 15 => atPos ER (sendCell c j) 1 ∅ 0)
        ∗ (bigSep Finset.univ fun j : Fin 15 => atPos ER (recvCell c j) 1 ∅ 0))
      ⊢ |={Set.univ}=> (Pipeline.ownSems0 osem c : sProp 𝕄) := by
  have hP : (bigSep Finset.univ fun k : Bool × Fin 15 => (atPos ER (kcell (c, .inr k)) 1 ∅ 0 : sProp 𝕄))
      = iprop((bigSep Finset.univ fun j : Fin 15 => atPos ER (sendCell c j) 1 ∅ 0)
          ∗ (bigSep Finset.univ fun j : Fin 15 => atPos ER (recvCell c j) 1 ∅ 0)) := by
    rw [bigSep_univ_prod, close_bigSep_bool]; rfl
  rw [← hP]
  refine (close_with_persistent (R := records m ρ K) fun k _ => close_one m ρ K c k).trans ?_
  exact bigSep_fupd _ _

/-- info: 'Cert.KernelIdeal.Proto.close_all' depends on axioms: [propext, Classical.choice, Quot.sound] -/
#guard_msgs in #print axioms close_all

end Cert.KernelIdeal.Proto

end
-- ==== Proof.KernelIdeal.Body.lean ====
/-
  One device's body, run from the invariant before the point to the invariant after it.
-/
import proofs.«900915_g7700000000000916_dist_max_ax0_shard0_i_m2048_n1024_v7x_i16_f32_1_alg».proof.Proof.KernelIdeal.Steps
import proofs.«900915_g7700000000000916_dist_max_ax0_shard0_i_m2048_n1024_v7x_i16_f32_1_alg».proof.Proof.KernelIdeal.Close

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

attribute [local sl_rounds] duties_bar duties_send duties_recv amount_bar amount_send amount_recv expect_bar expect_send expect_recv pay_sig rest_bar rest_send rest_recv
attribute [local sl_canon] dev1_eq dev2_eq dev3_eq dev4_eq dev5_eq dev6_eq dev7_eq dev8_eq dev9_eq dev10_eq dev11_eq dev12_eq dev13_eq dev14_eq dev15_eq
  dev16_eq dev17_eq dev18_eq dev19_eq dev20_eq dev21_eq dev22_eq dev23_eq dev24_eq dev25_eq dev26_eq dev27_eq dev28_eq dev29_eq dev30_eq

/-- Owing nothing, whatever waits were recorded, is what the invariant after the point asks. -/
theorem owes_post (c : Dev nD) {W' : Waits sig Unit} :
    (owes (c : Thread nD τ) 0 W' : sProp 𝕄)
      ⊢ iprop(∃ W : Waits sig Unit, ⌜(↑W : Set (SemLoc sig × Unit)) ⊆ (dats m ρ 0 c).bound () t₀.succ⌝ ∗ owes (c : Thread nD τ) 0 W) := by
  iintro H; iexists W'; isplitr; · ipureintro; exact fun _ _ => Or.inl trivial
  iexact H

set_option maxHeartbeats 3200000 in
/-- The body on device `c`: fifteen signals, the column maxima, the barrier wait, fifteen copies, fifteen receive
    waits, the maximum of sixteen rows, fifteen send waits. -/
theorem sound_body (c : Dev nD) :
    bodyPre m ρ c ⊢ wp frame (wpE (defs₀ (F := F)) 𝒱₀ c none) Set.univ (bodyAt0 (F := F) t₀) (fun _ => bodyPost m ρ c) := by
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel
  simp only [semSignalWord, semWaitWord, Prog.lift, Prog.bind_op, Prog.bind_ret, Prog.pure_eq_ret]
  unfold bodyPre Φ₀ start ghost payToks Dat.owesAt Pipeline.owesWithin
  rw [show (dats m ρ 0 c).owed t₀.castSucc = O₀ c from rfl, owed_chain c]
  iintro ⟨⟨⟨⟨%K, #HR, Hpos, HtB, HtR, HtS⟩, HcB, HcR, #Hlev⟩, ⟨%f0, Hrow⟩, ⟨%g0, Hcomm⟩⟩, ⟨%W, %hW, HO⟩, ⟨%d0, %x0, %hx0, Hx⟩, ⟨%d1, %o0, %ho0, Hout⟩⟩
  -- the landing buffer slot by slot, in the order the signals give the slots away
  have hslots : bigSep Finset.univ (fun s : Fin 15 => slotPts (F := F) c s g0) = bigSep Finset.univ (fun j : Fin 15 => slotPts (F := F) c (rev j) g0) :=
    bigSep_univ_equiv revE _
  ihave Hcomm := (Entails.of_eq ((slots_split c g0).trans (hslots.trans (bigSep_fin15 (fun j : Fin 15 => slotPts (F := F) c (rev j) g0))))) $$ Hcomm
  ihave HtB := (Entails.of_eq (bigSep_fin15 (fun j : Fin 15 => dutyTok ER (barCell (fwd c j)) 0 j))) $$ HtB
  ihave Hpos := (Entails.of_eq (ownPos_eq (F := F) c)) $$ Hpos
  icases Hcomm with ⟨Hs0, Hs1, Hs2, Hs3, Hs4, Hs5, Hs6, Hs7, Hs8, Hs9, Hs10, Hs11, Hs12, Hs13, Hs14⟩
  icases HtB with ⟨Htb0, Htb1, Htb2, Htb3, Htb4, Htb5, Htb6, Htb7, Htb8, Htb9, Htb10, Htb11, Htb12, Htb13, Htb14⟩
  unfold slotPts
  -- what each signal reads: the target's barrier invariant and round, and that the own slot's receive cell is at round 0
  ihave #HIb0 := (inv_bar m ρ K (fwd c 0)) $$ HR; ihave #HRb0 := (reached_bar m ρ K (fwd c 0)) $$ HR; ihave #HRv0 := (reached_recv m ρ K c (rev 0)) $$ HR
  ihave #HIb1 := (inv_bar m ρ K (fwd c 1)) $$ HR; ihave #HRb1 := (reached_bar m ρ K (fwd c 1)) $$ HR; ihave #HRv1 := (reached_recv m ρ K c (rev 1)) $$ HR
  ihave #HIb2 := (inv_bar m ρ K (fwd c 2)) $$ HR; ihave #HRb2 := (reached_bar m ρ K (fwd c 2)) $$ HR; ihave #HRv2 := (reached_recv m ρ K c (rev 2)) $$ HR
  ihave #HIb3 := (inv_bar m ρ K (fwd c 3)) $$ HR; ihave #HRb3 := (reached_bar m ρ K (fwd c 3)) $$ HR; ihave #HRv3 := (reached_recv m ρ K c (rev 3)) $$ HR
  ihave #HIb4 := (inv_bar m ρ K (fwd c 4)) $$ HR; ihave #HRb4 := (reached_bar m ρ K (fwd c 4)) $$ HR; ihave #HRv4 := (reached_recv m ρ K c (rev 4)) $$ HR
  ihave #HIb5 := (inv_bar m ρ K (fwd c 5)) $$ HR; ihave #HRb5 := (reached_bar m ρ K (fwd c 5)) $$ HR; ihave #HRv5 := (reached_recv m ρ K c (rev 5)) $$ HR
  ihave #HIb6 := (inv_bar m ρ K (fwd c 6)) $$ HR; ihave #HRb6 := (reached_bar m ρ K (fwd c 6)) $$ HR; ihave #HRv6 := (reached_recv m ρ K c (rev 6)) $$ HR
  ihave #HIb7 := (inv_bar m ρ K (fwd c 7)) $$ HR; ihave #HRb7 := (reached_bar m ρ K (fwd c 7)) $$ HR; ihave #HRv7 := (reached_recv m ρ K c (rev 7)) $$ HR
  ihave #HIb8 := (inv_bar m ρ K (fwd c 8)) $$ HR; ihave #HRb8 := (reached_bar m ρ K (fwd c 8)) $$ HR; ihave #HRv8 := (reached_recv m ρ K c (rev 8)) $$ HR
  ihave #HIb9 := (inv_bar m ρ K (fwd c 9)) $$ HR; ihave #HRb9 := (reached_bar m ρ K (fwd c 9)) $$ HR; ihave #HRv9 := (reached_recv m ρ K c (rev 9)) $$ HR
  ihave #HIb10 := (inv_bar m ρ K (fwd c 10)) $$ HR; ihave #HRb10 := (reached_bar m ρ K (fwd c 10)) $$ HR; ihave #HRv10 := (reached_recv m ρ K c (rev 10)) $$ HR
  ihave #HIb11 := (inv_bar m ρ K (fwd c 11)) $$ HR; ihave #HRb11 := (reached_bar m ρ K (fwd c 11)) $$ HR; ihave #HRv11 := (reached_recv m ρ K c (rev 11)) $$ HR
  ihave #HIb12 := (inv_bar m ρ K (fwd c 12)) $$ HR; ihave #HRb12 := (reached_bar m ρ K (fwd c 12)) $$ HR; ihave #HRv12 := (reached_recv m ρ K c (rev 12)) $$ HR
  ihave #HIb13 := (inv_bar m ρ K (fwd c 13)) $$ HR; ihave #HRb13 := (reached_bar m ρ K (fwd c 13)) $$ HR; ihave #HRv13 := (reached_recv m ρ K c (rev 13)) $$ HR
  ihave #HIb14 := (inv_bar m ρ K (fwd c 14)) $$ HR; ihave #HRb14 := (reached_bar m ρ K (fwd c 14)) $$ HR; ihave #HRv14 := (reached_recv m ρ K c (rev 14)) $$ HR
  icases Hpos with ⟨HpB, HpS, HpR⟩
  ihave Hx := (Entails.of_eq (x_pts (F := F) c fullShare x0)) $$ Hx
  ihave Hout := (Entails.of_eq (o_pts (F := F) c fullShare o0)) $$ Hout
  ihave Hrow := (Entails.of_eq (l_pts (F := F) c fullShare f0)) $$ Hrow
  ihave #HIB := (inv_bar m ρ K c) $$ HR
  have hbar := mayWait_bar (F := F) c
  have hx : x0 = xstg m ρ c := by rw [hx0]; unfold Dat.before; rw [if_pos (fetch0_0 t₀)]; rfl
  subst hx
  sl_exec
  -- the own row now holds the column maxima; the copies borrow a share each
  ihave Hrow := (Entails.of_eq (congrArg (fun f => ((lM : Memref sig .tc .vmem S1x1024 .f32).view.loc (c : Thread nD τ) ↦[(lM : Memref sig .tc .vmem S1x1024 .f32).view.set]{fullShare} f : sProp 𝕄)) (row_after m ρ c f0))) $$ Hrow
  ihave Hrow := (Entails.of_eq (l_pts (F := F) c fullShare (rowMax m ρ c)).symm) $$ Hrow
  ihave Hrow := ((row_split (F := F) c (rowMax m ρ c)).1) $$ Hrow
  icases Hrow with ⟨Hqs, Hqr⟩
  ihave Hqs := (Entails.of_eq (bigSep_fin15 _)) $$ Hqs
  icases Hqs with ⟨Hq0, Hq1, Hq2, Hq3, Hq4, Hq5, Hq6, Hq7, Hq8, Hq9, Hq10, Hq11, Hq12, Hq13, Hq14⟩
  -- the barrier's payloads: each other device's slot for this device's row, and its receive cell's round
  ihave Hp := (Entails.of_eq ((bar_pays m ρ c).trans (bigSep_fin15 _))) $$ HpB_pay1
  icases Hp with ⟨⟨⟨%fd0, Hd0⟩, #Hrr0⟩, ⟨⟨%fd1, Hd1⟩, #Hrr1⟩, ⟨⟨%fd2, Hd2⟩, #Hrr2⟩, ⟨⟨%fd3, Hd3⟩, #Hrr3⟩, ⟨⟨%fd4, Hd4⟩, #Hrr4⟩,
    ⟨⟨%fd5, Hd5⟩, #Hrr5⟩, ⟨⟨%fd6, Hd6⟩, #Hrr6⟩, ⟨⟨%fd7, Hd7⟩, #Hrr7⟩, ⟨⟨%fd8, Hd8⟩, #Hrr8⟩, ⟨⟨%fd9, Hd9⟩, #Hrr9⟩,
    ⟨⟨%fd10, Hd10⟩, #Hrr10⟩, ⟨⟨%fd11, Hd11⟩, #Hrr11⟩, ⟨⟨%fd12, Hd12⟩, #Hrr12⟩, ⟨⟨%fd13, Hd13⟩, #Hrr13⟩, ⟨⟨%fd14, Hd14⟩, #Hrr14⟩⟩
  ihave HtS := (Entails.of_eq (bigSep_fin15 _)) $$ HtS
  icases HtS with ⟨Hts0, Hts1, Hts2, Hts3, Hts4, Hts5, Hts6, Hts7, Hts8, Hts9, Hts10, Hts11, Hts12, Hts13, Hts14⟩
  ihave HtR := (Entails.of_eq (bigSep_fin15 _)) $$ HtR
  icases HtR with ⟨Htr0, Htr1, Htr2, Htr3, Htr4, Htr5, Htr6, Htr7, Htr8, Htr9, Htr10, Htr11, Htr12, Htr13, Htr14⟩
  ihave HO := (Entails.of_eq (congrArg (fun O => (owes (c : Thread nD τ) O (insert (SemLoc.reg barS, ()) W) : sProp 𝕄)) (owedRecvFrom_zero c).symm)) $$ HO
  -- what each copy reads: its send cell's invariant and round, the target's receive cell's invariant
  ihave #HIs0 := (inv_send m ρ K c 0) $$ HR; ihave #HRs0 := (reached_send m ρ K c 0) $$ HR; ihave #HIr0 := (inv_recv m ρ K (fwd c 0) 0) $$ HR
  ihave #HIs1 := (inv_send m ρ K c 1) $$ HR; ihave #HRs1 := (reached_send m ρ K c 1) $$ HR; ihave #HIr1 := (inv_recv m ρ K (fwd c 1) 1) $$ HR
  ihave #HIs2 := (inv_send m ρ K c 2) $$ HR; ihave #HRs2 := (reached_send m ρ K c 2) $$ HR; ihave #HIr2 := (inv_recv m ρ K (fwd c 2) 2) $$ HR
  ihave #HIs3 := (inv_send m ρ K c 3) $$ HR; ihave #HRs3 := (reached_send m ρ K c 3) $$ HR; ihave #HIr3 := (inv_recv m ρ K (fwd c 3) 3) $$ HR
  ihave #HIs4 := (inv_send m ρ K c 4) $$ HR; ihave #HRs4 := (reached_send m ρ K c 4) $$ HR; ihave #HIr4 := (inv_recv m ρ K (fwd c 4) 4) $$ HR
  ihave #HIs5 := (inv_send m ρ K c 5) $$ HR; ihave #HRs5 := (reached_send m ρ K c 5) $$ HR; ihave #HIr5 := (inv_recv m ρ K (fwd c 5) 5) $$ HR
  ihave #HIs6 := (inv_send m ρ K c 6) $$ HR; ihave #HRs6 := (reached_send m ρ K c 6) $$ HR; ihave #HIr6 := (inv_recv m ρ K (fwd c 6) 6) $$ HR
  ihave #HIs7 := (inv_send m ρ K c 7) $$ HR; ihave #HRs7 := (reached_send m ρ K c 7) $$ HR; ihave #HIr7 := (inv_recv m ρ K (fwd c 7) 7) $$ HR
  ihave #HIs8 := (inv_send m ρ K c 8) $$ HR; ihave #HRs8 := (reached_send m ρ K c 8) $$ HR; ihave #HIr8 := (inv_recv m ρ K (fwd c 8) 8) $$ HR
  ihave #HIs9 := (inv_send m ρ K c 9) $$ HR; ihave #HRs9 := (reached_send m ρ K c 9) $$ HR; ihave #HIr9 := (inv_recv m ρ K (fwd c 9) 9) $$ HR
  ihave #HIs10 := (inv_send m ρ K c 10) $$ HR; ihave #HRs10 := (reached_send m ρ K c 10) $$ HR; ihave #HIr10 := (inv_recv m ρ K (fwd c 10) 10) $$ HR
  ihave #HIs11 := (inv_send m ρ K c 11) $$ HR; ihave #HRs11 := (reached_send m ρ K c 11) $$ HR; ihave #HIr11 := (inv_recv m ρ K (fwd c 11) 11) $$ HR
  ihave #HIs12 := (inv_send m ρ K c 12) $$ HR; ihave #HRs12 := (reached_send m ρ K c 12) $$ HR; ihave #HIr12 := (inv_recv m ρ K (fwd c 12) 12) $$ HR
  ihave #HIs13 := (inv_send m ρ K c 13) $$ HR; ihave #HRs13 := (reached_send m ρ K c 13) $$ HR; ihave #HIr13 := (inv_recv m ρ K (fwd c 13) 13) $$ HR
  ihave #HIs14 := (inv_send m ρ K c 14) $$ HR; ihave #HRs14 := (reached_send m ρ K c 14) $$ HR; ihave #HIr14 := (inv_recv m ρ K (fwd c 14) 14) $$ HR
  -- copy 0
  iapply (wp_send_slot m ρ K c _ 0 (dev16_eq c) fd0 (insert (SemLoc.reg barS, ()) W)) $$ [Hq0 Hd0 HO Hts0 Htr0]
  · isplitr; · iexact HIs0
    isplitr; · iexact HIr0
    isplitl [Hq0]; · iexact Hq0
    isplitl [Hd0]; · iexact Hd0
    isplitl [HO]; · iexact HO
    isplitl [Hts0]; · iexact Hts0
    isplitr; · iexact HRs0
    isplitl [Htr0]; · iexact Htr0
    iexact Hrr0
  iintro ⟨HcS0, HO⟩
  -- copy 1
  iapply (wp_send_slot m ρ K c _ 1 (dev17_eq c) fd1 (insert (SemLoc.reg barS, ()) W)) $$ [Hq1 Hd1 HO Hts1 Htr1]
  · isplitr; · iexact HIs1
    isplitr; · iexact HIr1
    isplitl [Hq1]; · iexact Hq1
    isplitl [Hd1]; · iexact Hd1
    isplitl [HO]; · iexact HO
    isplitl [Hts1]; · iexact Hts1
    isplitr; · iexact HRs1
    isplitl [Htr1]; · iexact Htr1
    iexact Hrr1
  iintro ⟨HcS1, HO⟩
  -- copy 2
  iapply (wp_send_slot m ρ K c _ 2 (dev18_eq c) fd2 (insert (SemLoc.reg barS, ()) W)) $$ [Hq2 Hd2 HO Hts2 Htr2]
  · isplitr; · iexact HIs2
    isplitr; · iexact HIr2
    isplitl [Hq2]; · iexact Hq2
    isplitl [Hd2]; · iexact Hd2
    isplitl [HO]; · iexact HO
    isplitl [Hts2]; · iexact Hts2
    isplitr; · iexact HRs2
    isplitl [Htr2]; · iexact Htr2
    iexact Hrr2
  iintro ⟨HcS2, HO⟩
  -- copy 3
  iapply (wp_send_slot m ρ K c _ 3 (dev19_eq c) fd3 (insert (SemLoc.reg barS, ()) W)) $$ [Hq3 Hd3 HO Hts3 Htr3]
  · isplitr; · iexact HIs3
    isplitr; · iexact HIr3
    isplitl [Hq3]; · iexact Hq3
    isplitl [Hd3]; · iexact Hd3
    isplitl [HO]; · iexact HO
    isplitl [Hts3]; · iexact Hts3
    isplitr; · iexact HRs3
    isplitl [Htr3]; · iexact Htr3
    iexact Hrr3
  iintro ⟨HcS3, HO⟩
  -- copy 4
  iapply (wp_send_slot m ρ K c _ 4 (dev20_eq c) fd4 (insert (SemLoc.reg barS, ()) W)) $$ [Hq4 Hd4 HO Hts4 Htr4]
  · isplitr; · iexact HIs4
    isplitr; · iexact HIr4
    isplitl [Hq4]; · iexact Hq4
    isplitl [Hd4]; · iexact Hd4
    isplitl [HO]; · iexact HO
    isplitl [Hts4]; · iexact Hts4
    isplitr; · iexact HRs4
    isplitl [Htr4]; · iexact Htr4
    iexact Hrr4
  iintro ⟨HcS4, HO⟩
  -- copy 5
  iapply (wp_send_slot m ρ K c _ 5 (dev21_eq c) fd5 (insert (SemLoc.reg barS, ()) W)) $$ [Hq5 Hd5 HO Hts5 Htr5]
  · isplitr; · iexact HIs5
    isplitr; · iexact HIr5
    isplitl [Hq5]; · iexact Hq5
    isplitl [Hd5]; · iexact Hd5
    isplitl [HO]; · iexact HO
    isplitl [Hts5]; · iexact Hts5
    isplitr; · iexact HRs5
    isplitl [Htr5]; · iexact Htr5
    iexact Hrr5
  iintro ⟨HcS5, HO⟩
  -- copy 6
  iapply (wp_send_slot m ρ K c _ 6 (dev22_eq c) fd6 (insert (SemLoc.reg barS, ()) W)) $$ [Hq6 Hd6 HO Hts6 Htr6]
  · isplitr; · iexact HIs6
    isplitr; · iexact HIr6
    isplitl [Hq6]; · iexact Hq6
    isplitl [Hd6]; · iexact Hd6
    isplitl [HO]; · iexact HO
    isplitl [Hts6]; · iexact Hts6
    isplitr; · iexact HRs6
    isplitl [Htr6]; · iexact Htr6
    iexact Hrr6
  iintro ⟨HcS6, HO⟩
  -- copy 7
  iapply (wp_send_slot m ρ K c _ 7 (dev23_eq c) fd7 (insert (SemLoc.reg barS, ()) W)) $$ [Hq7 Hd7 HO Hts7 Htr7]
  · isplitr; · iexact HIs7
    isplitr; · iexact HIr7
    isplitl [Hq7]; · iexact Hq7
    isplitl [Hd7]; · iexact Hd7
    isplitl [HO]; · iexact HO
    isplitl [Hts7]; · iexact Hts7
    isplitr; · iexact HRs7
    isplitl [Htr7]; · iexact Htr7
    iexact Hrr7
  iintro ⟨HcS7, HO⟩
  -- copy 8
  iapply (wp_send_slot m ρ K c _ 8 (dev24_eq c) fd8 (insert (SemLoc.reg barS, ()) W)) $$ [Hq8 Hd8 HO Hts8 Htr8]
  · isplitr; · iexact HIs8
    isplitr; · iexact HIr8
    isplitl [Hq8]; · iexact Hq8
    isplitl [Hd8]; · iexact Hd8
    isplitl [HO]; · iexact HO
    isplitl [Hts8]; · iexact Hts8
    isplitr; · iexact HRs8
    isplitl [Htr8]; · iexact Htr8
    iexact Hrr8
  iintro ⟨HcS8, HO⟩
  -- copy 9
  iapply (wp_send_slot m ρ K c _ 9 (dev25_eq c) fd9 (insert (SemLoc.reg barS, ()) W)) $$ [Hq9 Hd9 HO Hts9 Htr9]
  · isplitr; · iexact HIs9
    isplitr; · iexact HIr9
    isplitl [Hq9]; · iexact Hq9
    isplitl [Hd9]; · iexact Hd9
    isplitl [HO]; · iexact HO
    isplitl [Hts9]; · iexact Hts9
    isplitr; · iexact HRs9
    isplitl [Htr9]; · iexact Htr9
    iexact Hrr9
  iintro ⟨HcS9, HO⟩
  -- copy 10
  iapply (wp_send_slot m ρ K c _ 10 (dev26_eq c) fd10 (insert (SemLoc.reg barS, ()) W)) $$ [Hq10 Hd10 HO Hts10 Htr10]
  · isplitr; · iexact HIs10
    isplitr; · iexact HIr10
    isplitl [Hq10]; · iexact Hq10
    isplitl [Hd10]; · iexact Hd10
    isplitl [HO]; · iexact HO
    isplitl [Hts10]; · iexact Hts10
    isplitr; · iexact HRs10
    isplitl [Htr10]; · iexact Htr10
    iexact Hrr10
  iintro ⟨HcS10, HO⟩
  -- copy 11
  iapply (wp_send_slot m ρ K c _ 11 (dev27_eq c) fd11 (insert (SemLoc.reg barS, ()) W)) $$ [Hq11 Hd11 HO Hts11 Htr11]
  · isplitr; · iexact HIs11
    isplitr; · iexact HIr11
    isplitl [Hq11]; · iexact Hq11
    isplitl [Hd11]; · iexact Hd11
    isplitl [HO]; · iexact HO
    isplitl [Hts11]; · iexact Hts11
    isplitr; · iexact HRs11
    isplitl [Htr11]; · iexact Htr11
    iexact Hrr11
  iintro ⟨HcS11, HO⟩
  -- copy 12
  iapply (wp_send_slot m ρ K c _ 12 (dev28_eq c) fd12 (insert (SemLoc.reg barS, ()) W)) $$ [Hq12 Hd12 HO Hts12 Htr12]
  · isplitr; · iexact HIs12
    isplitr; · iexact HIr12
    isplitl [Hq12]; · iexact Hq12
    isplitl [Hd12]; · iexact Hd12
    isplitl [HO]; · iexact HO
    isplitl [Hts12]; · iexact Hts12
    isplitr; · iexact HRs12
    isplitl [Htr12]; · iexact Htr12
    iexact Hrr12
  iintro ⟨HcS12, HO⟩
  -- copy 13
  iapply (wp_send_slot m ρ K c _ 13 (dev29_eq c) fd13 (insert (SemLoc.reg barS, ()) W)) $$ [Hq13 Hd13 HO Hts13 Htr13]
  · isplitr; · iexact HIs13
    isplitr; · iexact HIr13
    isplitl [Hq13]; · iexact Hq13
    isplitl [Hd13]; · iexact Hd13
    isplitl [HO]; · iexact HO
    isplitl [Hts13]; · iexact Hts13
    isplitr; · iexact HRs13
    isplitl [Htr13]; · iexact Htr13
    iexact Hrr13
  iintro ⟨HcS13, HO⟩
  -- copy 14
  iapply (wp_send_slot m ρ K c _ 14 (dev30_eq c) fd14 (insert (SemLoc.reg barS, ()) W)) $$ [Hq14 Hd14 HO Hts14 Htr14]
  · isplitr; · iexact HIs14
    isplitr; · iexact HIr14
    isplitl [Hq14]; · iexact Hq14
    isplitl [Hd14]; · iexact Hd14
    isplitl [HO]; · iexact HO
    isplitl [Hts14]; · iexact Hts14
    isplitr; · iexact HRs14
    isplitl [Htr14]; · iexact Htr14
    iexact Hrr14
  iintro ⟨HcS14, HO⟩
  -- every copy is on its way: nothing is owed any more
  ihave HO := (Entails.of_eq (congrArg (fun O => (owes (c : Thread nD τ) O (insert (SemLoc.reg barS, ()) W) : sProp 𝕄)) (show owedRecvFrom c ((14 : Fin 15).val + 1) = 0 from owedRecvFrom_end c))) $$ HO
  -- the receive cells: their invariants, the credit of one row each, the positions
  ihave #HIv0 := (inv_recv m ρ K c 0) $$ HR; ihave #HIv1 := (inv_recv m ρ K c 1) $$ HR; ihave #HIv2 := (inv_recv m ρ K c 2) $$ HR
  ihave #HIv3 := (inv_recv m ρ K c 3) $$ HR; ihave #HIv4 := (inv_recv m ρ K c 4) $$ HR; ihave #HIv5 := (inv_recv m ρ K c 5) $$ HR
  ihave #HIv6 := (inv_recv m ρ K c 6) $$ HR; ihave #HIv7 := (inv_recv m ρ K c 7) $$ HR; ihave #HIv8 := (inv_recv m ρ K c 8) $$ HR
  ihave #HIv9 := (inv_recv m ρ K c 9) $$ HR; ihave #HIv10 := (inv_recv m ρ K c 10) $$ HR; ihave #HIv11 := (inv_recv m ρ K c 11) $$ HR
  ihave #HIv12 := (inv_recv m ρ K c 12) $$ HR; ihave #HIv13 := (inv_recv m ρ K c 13) $$ HR; ihave #HIv14 := (inv_recv m ρ K c 14) $$ HR
  ihave HcR := (Entails.of_eq (bigSep_fin15 _)) $$ HcR
  icases HcR with ⟨HcR0, HcR1, HcR2, HcR3, HcR4, HcR5, HcR6, HcR7, HcR8, HcR9, HcR10, HcR11, HcR12, HcR13, HcR14⟩
  ihave HpR := (Entails.of_eq (bigSep_fin15 _)) $$ HpR
  icases HpR with ⟨HpR0, HpR1, HpR2, HpR3, HpR4, HpR5, HpR6, HpR7, HpR8, HpR9, HpR10, HpR11, HpR12, HpR13, HpR14⟩
  ihave HpS := (Entails.of_eq (bigSep_fin15 _)) $$ HpS
  icases HpS with ⟨HpS0, HpS1, HpS2, HpS3, HpS4, HpS5, HpS6, HpS7, HpS8, HpS9, HpS10, HpS11, HpS12, HpS13, HpS14⟩
  sl_exec
  -- the fifteen slots are the landing buffer again, holding every other device's row
  ihave Hcomm := (Entails.of_eq ((bigSep_fin15 (fun j : Fin 15 => (sched (F := F) m ρ).payload (recvCell c j) 0 (0 : Fin 15))).symm.trans (comm_joined m ρ c)))
    $$ [HpR0_pay1 HpR1_pay1 HpR2_pay1 HpR3_pay1 HpR4_pay1 HpR5_pay1 HpR6_pay1 HpR7_pay1 HpR8_pay1 HpR9_pay1 HpR10_pay1 HpR11_pay1 HpR12_pay1 HpR13_pay1 HpR14_pay1]
  · isplitl [HpR0_pay1]; · iexact HpR0_pay1
    isplitl [HpR1_pay1]; · iexact HpR1_pay1
    isplitl [HpR2_pay1]; · iexact HpR2_pay1
    isplitl [HpR3_pay1]; · iexact HpR3_pay1
    isplitl [HpR4_pay1]; · iexact HpR4_pay1
    isplitl [HpR5_pay1]; · iexact HpR5_pay1
    isplitl [HpR6_pay1]; · iexact HpR6_pay1
    isplitl [HpR7_pay1]; · iexact HpR7_pay1
    isplitl [HpR8_pay1]; · iexact HpR8_pay1
    isplitl [HpR9_pay1]; · iexact HpR9_pay1
    isplitl [HpR10_pay1]; · iexact HpR10_pay1
    isplitl [HpR11_pay1]; · iexact HpR11_pay1
    isplitl [HpR12_pay1]; · iexact HpR12_pay1
    isplitl [HpR13_pay1]; · iexact HpR13_pay1
    iexact HpR14_pay1
  sl_exec
  -- the thirty own cells, their one round consumed, close: their counters at zero are the device's again
  imod (close_all m ρ K c) $$ [HpS0 HpS1 HpS2 HpS3 HpS4 HpS5 HpS6 HpS7 HpS8 HpS9 HpS10 HpS11 HpS12 HpS13 HpS14
      HpR0 HpR1 HpR2 HpR3 HpR4 HpR5 HpR6 HpR7 HpR8 HpR9 HpR10 HpR11 HpR12 HpR13 HpR14] with Hz
  · isplitr; · iexact HR
    isplitl [HpS0 HpS1 HpS2 HpS3 HpS4 HpS5 HpS6 HpS7 HpS8 HpS9 HpS10 HpS11 HpS12 HpS13 HpS14]
    · iapply (Entails.of_eq (bigSep_fin15 (fun j : Fin 15 => (atPos ER (sendCell c j) 1 ∅ 0 : sProp 𝕄))).symm)
      isplitl [HpS0]; · iexact HpS0
      isplitl [HpS1]; · iexact HpS1
      isplitl [HpS2]; · iexact HpS2
      isplitl [HpS3]; · iexact HpS3
      isplitl [HpS4]; · iexact HpS4
      isplitl [HpS5]; · iexact HpS5
      isplitl [HpS6]; · iexact HpS6
      isplitl [HpS7]; · iexact HpS7
      isplitl [HpS8]; · iexact HpS8
      isplitl [HpS9]; · iexact HpS9
      isplitl [HpS10]; · iexact HpS10
      isplitl [HpS11]; · iexact HpS11
      isplitl [HpS12]; · iexact HpS12
      isplitl [HpS13]; · iexact HpS13
      iexact HpS14
    · iapply (Entails.of_eq (bigSep_fin15 (fun j : Fin 15 => (atPos ER (recvCell c j) 1 ∅ 0 : sProp 𝕄))).symm)
      isplitl [HpR0]; · iexact HpR0
      isplitl [HpR1]; · iexact HpR1
      isplitl [HpR2]; · iexact HpR2
      isplitl [HpR3]; · iexact HpR3
      isplitl [HpR4]; · iexact HpR4
      isplitl [HpR5]; · iexact HpR5
      isplitl [HpR6]; · iexact HpR6
      isplitl [HpR7]; · iexact HpR7
      isplitl [HpR8]; · iexact HpR8
      isplitl [HpR9]; · iexact HpR9
      isplitl [HpR10]; · iexact HpR10
      isplitl [HpR11]; · iexact HpR11
      isplitl [HpR12]; · iexact HpR12
      isplitl [HpR13]; · iexact HpR13
      iexact HpR14
  -- the fifteen shares and the one kept are the own row again
  ihave Hrow := (row_joined m ρ c) $$ [HpS0_pay1 HpS1_pay1 HpS2_pay1 HpS3_pay1 HpS4_pay1 HpS5_pay1 HpS6_pay1 HpS7_pay1 HpS8_pay1 HpS9_pay1
      HpS10_pay1 HpS11_pay1 HpS12_pay1 HpS13_pay1 HpS14_pay1 Hqr]
  · isplitr [Hqr]
    · iapply (Entails.of_eq (bigSep_fin15 (fun j : Fin 15 => (sched (F := F) m ρ).payload (sendCell c j) 0 (0 : Fin 15))).symm)
      isplitl [HpS0_pay1]; · iexact HpS0_pay1
      isplitl [HpS1_pay1]; · iexact HpS1_pay1
      isplitl [HpS2_pay1]; · iexact HpS2_pay1
      isplitl [HpS3_pay1]; · iexact HpS3_pay1
      isplitl [HpS4_pay1]; · iexact HpS4_pay1
      isplitl [HpS5_pay1]; · iexact HpS5_pay1
      isplitl [HpS6_pay1]; · iexact HpS6_pay1
      isplitl [HpS7_pay1]; · iexact HpS7_pay1
      isplitl [HpS8_pay1]; · iexact HpS8_pay1
      isplitl [HpS9_pay1]; · iexact HpS9_pay1
      isplitl [HpS10_pay1]; · iexact HpS10_pay1
      isplitl [HpS11_pay1]; · iexact HpS11_pay1
      isplitl [HpS12_pay1]; · iexact HpS12_pay1
      isplitl [HpS13_pay1]; · iexact HpS13_pay1
      iexact HpS14_pay1
    · iexact Hqr
  -- the staged result holds the maximum of the sixteen rows; the buffers in the shape the invariant names them
  ihave Hout := (Entails.of_eq (congrArg (fun f => ((oM : Memref sig .tc .vmem S1x1024 .f32).view.loc (c : Thread nD τ) ↦[(oM : Memref sig .tc .vmem S1x1024 .f32).view.set]{fullShare} f : sProp 𝕄)) (out_after m ρ c o0))) $$ Hout
  ihave Hout := (Entails.of_eq (o_pts (F := F) c fullShare (outAt m ρ c)).symm) $$ Hout
  ihave Hx := (Entails.of_eq (x_pts (F := F) c fullShare (xstg m ρ c)).symm) $$ Hx
  ihave Hcomm := (Entails.of_eq (c_pts (F := F) c fullShare (landedAll m ρ c)).symm) $$ Hcomm
  rw [wp_ret]; imodintro
  unfold bodyPost Φ₁ Dat.owesAt Pipeline.owesWithin
  rw [show (dats m ρ 0 c).owed t₀.succ = 0 from rfl]
  isplitl [Hrow Hcomm Hz]
  · isplitl [Hrow]; · iexact Hrow
    isplitl [Hcomm]; · iexists _; iexact Hcomm
    iexact Hz
  isplitl [HO]
  · iapply (owes_post m ρ c); iexact HO
  isplitl [Hx]
  · iexists _; isplitr; · (ipureintro; rfl)
    iexact Hx
  iexists _; isplitr; · (ipureintro; rfl)
  iexact Hout

/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ (bodyAt0 (F := F) t₀) (fun _ => bodyPost m ρ c)
  exact sound_body m ρ c

end Cert.KernelIdeal.Proto

end
-- ==== Proof.KernelIdeal.Launch.lean ====
/-
  The launch: the protocol's ghost state dealt to the sixteen devices, each device's cells allocated, the duty
  tokens handed to the devices that pay them, the launch credit read off what the devices owe, and the run of
  @main on all devices from the body obligation; then what the result and argument arrays hold at the end.
-/
import proofs.«900915_g7700000000000916_dist_max_ax0_shard0_i_m2048_n1024_v7x_i16_f32_1_alg».proof.Proof.KernelIdeal.Body

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CK → SemLoc sig) := by
  rintro (⟨⟩ | ⟨b, j⟩) (⟨⟩ | ⟨b', j'⟩) h
  · rfl
  · cases b' <;> exact absurd h (fun h' => by cases h')
  · cases b <;> exact absurd h (fun h' => by cases h')
  · have hj : ∀ {x y : Fin 15}, x.val = y.val → x = y := fun h => Fin.ext h
    cases b <;> cases b'
    · have h1 := congrArg (fun q : DmaSem sig => q.val) (SemLoc.dma.inj h)
      have h2 : 2 + j.val = 2 + j'.val := h1
      rw [hj (by omega : j.val = j'.val)]
    · have h1 := congrArg (fun q : DmaSem sig => q.val) (SemLoc.dma.inj h)
      have h2 : 2 + j.val = 17 + j'.val := h1
      have := j.isLt; omega
    · have h1 := congrArg (fun q : DmaSem sig => q.val) (SemLoc.dma.inj h)
      have h2 : 17 + j.val = 2 + j'.val := h1
      have := j'.isLt; omega
    · have h1 := congrArg (fun q : DmaSem sig => q.val) (SemLoc.dma.inj h)
      have h2 : 17 + j.val = 17 + j'.val := h1
      rw [hj (by omega : j.val = j'.val)]

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: every device's thirty-one. -/
def ringCells : Finset (GSem nD τ sig) := Finset.univ.map ⟨kcell, kcell_injective⟩

/-- A device's own cells' duty tokens as minted: its barrier cell's fifteen, and the one of each send and receive cell. -/
abbrev TK : Type := Fin 15 ⊕ (Bool × Fin 15)
abbrev tokOf (cj : Dev nD × TK) : GSem nD τ sig × ℕ × Fin 15 := match cj.2 with
  | .inl j => (barCell cj.1, 0, j)
  | .inr k => (kcell (cj.1, .inr k), 0, 0)
theorem tokOf_injective : Function.Injective (tokOf : Dev nD × TK → GSem nD τ sig × ℕ × Fin 15) := by
  rintro ⟨c, (j | k)⟩ ⟨c', (j' | k')⟩ h
  · have h1 : c = c' := congrArg (fun x : GSem nD τ sig × ℕ × Fin 15 => x.1.1.1) h
    have h2 : j = j' := congrArg (fun x : GSem nD τ sig × ℕ × Fin 15 => x.2.2) h
    rw [h1, h2]
  · have h2 : (SemLoc.reg barS : SemLoc sig) = osem k' := congrArg (fun x : GSem nD τ sig × ℕ × Fin 15 => x.1.2) h
    obtain ⟨b', j'⟩ := k'
    cases b' <;> exact absurd h2 (fun h' => by cases h')
  · have h2 : osem k = (SemLoc.reg barS : SemLoc sig) := congrArg (fun x : GSem nD τ sig × ℕ × Fin 15 => x.1.2) h
    obtain ⟨b, j⟩ := k
    cases b <;> exact absurd h2 (fun h' => by cases h')
  · have h1 : kcell (c, .inr k) = kcell (c', .inr k') := congrArg (fun x : GSem nD τ sig × ℕ × Fin 15 => x.1) h
    have h2 := kcell_injective h1
    have h3 : c = c' := congrArg Prod.fst h2
    have h4 : (Sum.inr k : CK) = Sum.inr k' := congrArg Prod.snd h2
    rw [h3, Sum.inr.inj h4]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ (bigSep Finset.univ fun k : Bool × Fin 15 => dutyTok ER (kcell (c, .inr k)) 0 (0 : Fin 15)))

/-- What the launch element deals device `c`. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_bool (Φ : Bool → sProp 𝕄) : bigSep Finset.univ Φ = iprop(Φ false ∗ Φ true) := bigSep_univ_eq_bigSepL [false, true] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_CK (Φ : CK → sProp 𝕄) : bigSep Finset.univ Φ = iprop(Φ (.inl ()) ∗ bigSep Finset.univ fun k : Bool × Fin 15 => Φ (.inr k)) := by
  rw [bigSep_univ_sum, bigSep_univ_of_subsingleton ()]; rfl

omit [FloatOps F] in
/-- The thirty own semaphores and the barrier semaphore are the device's thirty-one cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ ownPos c ∗ payToks c) ⊢ G' m ρ c := by
  unfold G' ghost
  iintro H
  iexists K
  iexact H

omit [FloatOps F] in
/-- A family over (device, offset) may be read at the device that offset further on. -/
theorem bigSep_shift (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (fwd c j) j := by
  rw [bigSep_univ_comm, bigSep_univ_comm (fun c j => Φ (fwd c j) j)]
  exact bigSep_congr fun j _ => bigSep_univ_equiv (shift j) (fun c => Φ c j)

omit [FloatOps F] in
/-- The tokens dealt around: barrier token `j` and the receive token of slot `j` of a device go to the device `j + 1`
    places before it; the send tokens stay. -/
theorem toks_around : (bigSep Finset.univ fun c : Dev nD => (toks c : sProp 𝕄)) ⊢ bigSep Finset.univ fun c : Dev nD => payToks c := by
  have hB (c : Dev nD) : (bigSep Finset.univ fun k : Bool × Fin 15 => (dutyTok ER (kcell (c, .inr k)) 0 (0 : Fin 15) : sProp 𝕄))
      = iprop((bigSep Finset.univ fun j : Fin 15 => dutyTok ER (sendCell c j) 0 (0 : Fin 15))
          ∗ (bigSep Finset.univ fun j : Fin 15 => dutyTok ER (recvCell c j) 0 (0 : Fin 15))) := by
    rw [bigSep_univ_prod, bigSep_bool]; rfl
  unfold toks payToks
  rw [bigSep_congr (s := Finset.univ) (fun (c : Dev nD) _ => congrArg (fun X : sProp 𝕄 => iprop((bigSep Finset.univ fun j : Fin 15 => dutyTok ER (barCell c) 0 j) ∗ X)) (hB c)),
    bigSep_sep', bigSep_sep', bigSep_sep', bigSep_sep',
    bigSep_shift (fun c j => (dutyTok ER (barCell c) 0 j : sProp 𝕄)), bigSep_shift (fun c j => (dutyTok ER (recvCell c j) 0 (0 : Fin 15) : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (ownPos c : sProp 𝕄)) payToks).symm)
    isplitl [Hat]; · unfold ownPos; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨H0, H1, HS⟩
  isplitr; · iempintro
  isplitl [HS]; · iexact HS
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly
    fair execution of @main terminates, and every final state has each device's windowed arrays at the computed
    contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` block after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the maximum of the sixteen rows. -/
theorem finalA_o (c : Dev nD) : finalA m ρ c (1 : Fin 2) = outAt m ρ c := by
  show (dats m ρ 0 c).arrAt (1 : Fin 2) (t₀.val + 1) = outAt m ρ c
  rw [Dat.arrAt_succ, flush0_1 t₀, if_pos rfl]
  exact Memref.write_access_unit_zero_univ (Elt F) main_v1 (off := fun a => (cfg0.win 1).index t₀ a * (cfg0.win 1).size a)
    (funext fun a => Nat.zero_mul _) _ _ _

/-- The run with both arrays named: the strongest post the claims need. -/
theorem run_values : θ_run (defs (F := F)) (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun r h c => ⟨((h c (1 : Fin 2)).trans (finalA_o m ρ c)), ((h c (0 : Fin 2)).trans (finalA_x m ρ c))⟩) (run_main m ρ)

end Cert.KernelIdeal.Proto

end
-- ==== Proof.Kernel.Base.lean ====
/-
  The all-to-all maximum on sixteen devices: the shared vocabulary of the proof.

  Every device takes the column maxima of its own 2048 rows (one row of 1024 numbers), tells each of the
  other fifteen devices that it has entered, waits until all fifteen have told it the same, copies its row
  into one slot of each other device's fifteen-slot landing buffer, waits for the fifteen rows addressed to
  it, takes the maximum of its own row and the fifteen received, and waits until its fifteen copies have
  been read out.  Device c's j-th signal and j-th copy (j = 0 … 14) go to device c + j + 1 (mod 16); the
  copy lands in slot j there.  So slot j of device c is written by device c − (j + 1), and the signal that
  device sends c is the one that must carry c's permission to write: slot 14 − j of the signaller.

  The protocol is stated under the rounds discipline: one round per semaphore.  A barrier semaphore has
  fifteen unit duties, duty j paid by device c − (j + 1) and handing over that device's slot 14 − j; a
  send semaphore has one duty, paid by the copy's departure, returning the share of the row it read; a
  receive semaphore has one duty, paid by the copy's arrival, handing over the slot with the sender's row
  in it.
-/
import proofs.«900915_g7700000000000916_dist_max_ax0_shard0_i_m2048_n1024_v7x_i16_f32_1_alg».proof.Proof.Gen.Kernel
import proofs.«900915_g7700000000000916_dist_max_ax0_shard0_i_m2048_n1024_v7x_i16_f32_1_alg».proof.Proof.Gen.Kernel.Skeleton
import proofs.«900915_g7700000000000916_dist_max_ax0_shard0_i_m2048_n1024_v7x_i16_f32_1_alg».proof.Proof.Gen.Kernel.Launch
import proofs.«900915_g7700000000000916_dist_max_ax0_shard0_i_m2048_n1024_v7x_i16_f32_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 15`) -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The sixteen devices -/

/-- The device `j + 1` places after `c`: the target of `c`'s signal `j` and of its copy `j`. -/
def fwd (c : Dev nD) (j : Fin 15) : Dev nD := ⟨(c.val + (j.val + 1)) % 16, Nat.mod_lt _ (by decide)⟩
/-- The device `j + 1` places before `c`: the one whose signal `j` and copy `j` reach `c`. -/
def bwd (c : Dev nD) (j : Fin 15) : Dev nD := ⟨(c.val + (15 - j.val)) % 16, Nat.mod_lt _ (by decide)⟩
/-- The opposite offset: `j + 1` and `rev j + 1` add up to sixteen. -/
def rev (j : Fin 15) : Fin 15 := ⟨14 - j.val, by omega⟩

theorem bwd_fwd (c : Dev nD) (j : Fin 15) : bwd (fwd c j) j = c := by revert c j; decide
theorem fwd_bwd (c : Dev nD) (j : Fin 15) : fwd (bwd c j) j = c := by revert c j; decide
theorem fwd_rev (c : Dev nD) (j : Fin 15) : fwd c (rev j) = bwd c j := by revert c j; decide
theorem bwd_rev (c : Dev nD) (j : Fin 15) : bwd c (rev j) = fwd c j := by revert c j; decide
theorem rev_rev (j : Fin 15) : rev (rev j) = j := by revert j; decide
theorem fwd_ne (c : Dev nD) (j : Fin 15) : fwd c j ≠ c := by revert c j; decide
theorem fwd_inj_right (c : Dev nD) : Function.Injective (fwd c) := by revert c; decide
theorem bwd_inj_right (c : Dev nD) : Function.Injective (bwd c) := by revert c; decide
/-- Every other device is exactly one offset away. -/
theorem exists_bwd (c d : Dev nD) (h : d ≠ c) : ∃ j, d = bwd c j := by revert c d; decide

def shift (j : Fin 15) : Dev nD ≃ Dev nD := ⟨fun c => fwd c j, fun c => bwd c j, fun c => bwd_fwd c j, fun c => fwd_bwd c j⟩

/-! ## The memrefs and cells -/

/-- The staged block of `x`, the staged result, the device's own row of maxima, the fifteen landing slots. -/
abbrev xM : Memref sig .tc .vmem S2048x1024 .f32 := Memref.whole cc0_stg0_0
abbrev oM : Memref sig .tc .vmem S1x1024 .f32 := Memref.whole cc0_stg1_0
abbrev lM : Memref sig .tc .vmem S1x1024 .f32 := Memref.whole cc0_scratch0
abbrev cM : Memref sig .tc .vmem S15x1x1024 .f32 := Memref.whole cc0_scratch1

theorem slot_inb (j : Fin 15) : ∀ a, (![j.val, 0, 0] : Fin 3 → Nat) a + S1x1x1024.size a ≤ S15x1x1024.size a := by
  revert j; decide

/-- Slot `j` of the landing buffer: row `j`, as the kernel's copies and waits name it. -/
abbrev slotRect (j : Fin 15) : Rect S15x1x1024 := Rect.unit (s := S15x1x1024) ![j.val, 0, 0] S1x1x1024.size (slot_inb j)
abbrev slotM (j : Fin 15) : Memref sig .tc .vmem S1x1024 .f32 :=
  (cM.slice (slotRect j) (fun _ => rfl)).squeeze S1x1024 squeezes_S1x1x1024_S1x1024

/-- The runtime's barrier semaphore; the fifteen send and fifteen receive DMA semaphores (scoped scratch). -/
abbrev barS : Sem sig := (SemArray.scalar (sig.barrier 0 rfl) : Sems sig S_).sem
abbrev sendS (j : Fin 15) : DmaSem sig := ⟨2 + j.val, by have := j.isLt; show 2 + j.val < 32; omega⟩
abbrev recvS (j : Fin 15) : DmaSem sig := ⟨17 + j.val, by have := j.isLt; show 17 + j.val < 32; omega⟩

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The kernel's own thirty semaphores (`false`: send, `true`: receive), and all thirty-one of the protocol's. -/
abbrev osem : Bool × Fin 15 → SemLoc sig := fun k => if k.1 then .dma (recvS k.2) else .dma (sendS k.2)
abbrev csem : Unit ⊕ (Bool × Fin 15) → SemLoc sig := fun | .inl _ => .reg barS | .inr k => osem k
abbrev kcell (ck : Dev nD × (Unit ⊕ (Bool × Fin 15))) : GSem nD τ sig := ((ck.1 : Thread nD τ), csem ck.2)

/-- What a DMA semaphore is to the protocol: a receive (`true`) or send (`false`) semaphore and its slot. -/
def slotOf (q : DmaSem sig) : Option (Bool × Fin 15) :=
  if h : 2 ≤ q.val ∧ q.val < 17 then some (false, ⟨q.val - 2, by omega⟩)
  else if h : 17 ≤ q.val ∧ q.val < 32 then some (true, ⟨q.val - 17, by omega⟩) else none

/-- The credit of one row's transfer. -/
abbrev N : ℕ := (lM : Memref sig .tc .vmem S1x1024 .f32).view.dmaCredit
theorem N_pos : 0 < N := View.dmaCredit_pos _ (by decide)

/-! ## Contents -/

/-- Device `c`'s staged block of `x`; its row of column maxima; the landing buffer once all fifteen rows are in
    (slot `j` holds the row of the device `j + 1` places before); the result. -/
def xstg (c : Dev nD) : (cc0_stg0_0 : Ref sig .tc).ty.Contents (Elt F) :=
  (win0_0.blk (0 : Fin 1)).view.read (Elt F) ((s₀ m ρ).mem ((c : Thread nD τ).loc main_arg0))
def rowMax (c : Dev nD) : (cc0_scratch0 : Ref sig .tc).ty.Contents (Elt F) := k0_pay1 (xstg m ρ c)
def landedAll (c : Dev nD) : (cc0_scratch1 : Ref sig .tc).ty.Contents (Elt F) :=
  fun i => rowMax m ρ (bwd c ⟨(i 0).val, (i 0).isLt⟩) (ValueIdx.ix2 (0 : Fin 1) (⟨(i 2).val, (i 2).isLt⟩ : Fin 1024))
def outAt (c : Dev nD) : (cc0_stg1_0 : Ref sig .tc).ty.Contents (Elt F) := k0_pay2 (rowMax m ρ c) (landedAll m ρ c)

/-- The shares of the own row lent to the fifteen copies: the left half of what is left each time. -/
def restShare : ℕ → PosShare TreeShare
  | 0 => fullShare
  | n + 1 => (restShare n).right
def copyShare (j : Fin 15) : PosShare TreeShare := (restShare j.val).left

def slotPts (c : Dev nD) (j : Fin 15) (f : Buf (Elt F) ((c : Thread nD τ).loc cc0_scratch1)) : sProp 𝕄 :=
  (slotM j).view.loc (c : Thread nD τ) ↦[(slotM j).view.set]{fullShare} f
def rowPts (c : Dev nD) (q : PosShare TreeShare) : sProp 𝕄 :=
  (lM : Memref sig .tc .vmem S1x1024 .f32).view.loc (c : Thread nD τ) ↦[(lM : Memref sig .tc .vmem S1x1024 .f32).view.set]{q} rowMax m ρ c

/-! ## The schedule -/

/-- What device `bwd c j`'s signal (duty `j` of `c`'s barrier cell) hands `c`: that device's slot `rev j` and that
    it has reached round 0 of that slot's receive cell — what `c`'s copy `rev j` into it needs. -/
def barPay (c : Dev nD) (j : Fin 15) : sProp 𝕄 :=
  iprop((∃ f, slotPts (bwd c j) (rev j) f) ∗ reached ER (recvCell (bwd c j) (rev j)) 0)
def recvPay (c : Dev nD) (j : Fin 15) : sProp 𝕄 := slotPts c j (landedAll m ρ c)
def sendPay (c : Dev nD) (j : Fin 15) : sProp 𝕄 := rowPts m ρ c (copyShare j)

/-- One round, round 0: a barrier cell has fifteen unit duties; a send or receive cell the duty `0` of a row's credit. -/
def sched : Rounds.Schedule (GSem nD τ sig) (Fin 15) 𝕄 where
  duties g r := if r = 0 ∧ g.1.2 = .tc then (match g.2 with
    | .reg _ => Finset.univ
    | .dma q => if (slotOf q).isSome then {0} else ∅) else ∅
  unitless _ := False
  amount g _ _ := match g.2 with | .reg _ => 1 | .dma _ => N
  payload g _ d := match g.2 with
    | .reg _ => barPay g.1.1 d
    | .dma q => match slotOf q with
      | some (true, j) => recvPay m ρ g.1.1 j
      | some (false, j) => sendPay m ρ g.1.1 j
      | none => iprop(emp)
  amount_pos g _ _ _ := by
    cases g.2 with
    | reg _ => exact Nat.one_pos
    | dma _ => exact N_pos

instance sched_payload_storable (g : GSem nD τ sig) (r : ℕ) (d : Fin 15) :
    BI.Storable (upEmb : UEmb _ 𝕄) ((sched (F := F) m ρ).payload g r d) := by
  show BI.Storable upEmb (match g.2 with
    | .reg _ => barPay g.1.1 d
    | .dma q => match slotOf q with
      | some (true, j) => recvPay m ρ g.1.1 j
      | some (false, j) => sendPay m ρ g.1.1 j
      | none => iprop(emp))
  unfold barPay recvPay sendPay slotPts rowPts
  (repeat' split) <;> infer_instance

end Cert.Kernel.Proto

end
-- ==== Proof.Kernel.Ghost.lean ====
/-
  What each device owes at launch, the levels of the waits, the ghost state a device's body starts from, and
  the pipeline's proof data: the invariant before and after the one grid point, what the staging buffers hold
  after the body, and the body's pre- and postcondition.
-/
import proofs.«900915_g7700000000000916_dist_max_ax0_shard0_i_m2048_n1024_v7x_i16_f32_1_alg».proof.Proof.Kernel.Base

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

/-- Device `c` owes each other device's receive cell (slot `j` of device `fwd c j`) a row's credit, and each other
    device's barrier cell one unit. -/
def owedRecv (c : Dev nD) : CellTallies nD τ sig Unit := ∑ j : Fin 15, tallyAt (recvCell (fwd c j) j) () N
def owedBar (c : Dev nD) : CellTallies nD τ sig Unit := ∑ j : Fin 15, tallyAt (barCell (fwd c j)) () 1
def O₀ (c : Dev nD) : CellTallies nD τ sig Unit := owedRecv c + owedBar c

/-- What is still owed once the signals (copies) `0 … k − 1` have gone. -/
def owedBarFrom (c : Dev nD) (k : ℕ) : CellTallies nD τ sig Unit :=
  ∑ j ∈ Finset.univ.filter (fun j : Fin 15 => k ≤ j.val), tallyAt (barCell (fwd c j)) () 1
def owedRecvFrom (c : Dev nD) (k : ℕ) : CellTallies nD τ sig Unit :=
  ∑ j ∈ Finset.univ.filter (fun j : Fin 15 => k ≤ j.val), tallyAt (recvCell (fwd c j) j) () N

def L (g : GSem nD τ sig) : Finset Unit := if g.1.2 = .tc then {()} else ∅
/-- Barrier cells at 1, receive cells at 2, everything else (staging, send) at 0: a device waits on its barrier
    owing only receive credit, and on its receive and send cells owing nothing. -/
def lv (g : GSem nD τ sig) (_ : Unit) : ℕ := match g.2 with
  | .reg _ => 1
  | .dma q => match slotOf q with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

abbrev CK : Type := Unit ⊕ (Bool × Fin 15)

/-- Every cell's invariant under the names the launch allocated them at, and that every cell is at round 0. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

/-- The tokens of the duties device `c` pays: duty `j` of device `fwd c j`'s barrier cell, the duty of slot `j`'s
    receive cell there, and the duty of its own send cell `j`. -/
def payToks (c : Dev nD) : sProp 𝕄 :=
  iprop((bigSep Finset.univ fun j : Fin 15 => dutyTok ER (barCell (fwd c j)) 0 j)
    ∗ (bigSep Finset.univ fun j : Fin 15 => dutyTok ER (recvCell (fwd c j) j) 0 (0 : Fin 15))
    ∗ (bigSep Finset.univ fun j : Fin 15 => dutyTok ER (sendCell c j) 0 (0 : Fin 15)))
/-- Its positions at round 0 of its own thirty-one cells. -/
def ownPos (c : Dev nD) : sProp 𝕄 := bigSep Finset.univ fun k : CK => atPos ER (kcell (c, k)) 0 ∅ 0

def ghost (K : Dev nD × CK → ℕ) (c : Dev nD) : sProp 𝕄 := iprop(records m ρ K ∗ ownPos c ∗ payToks c)

/-- What device `c`'s body starts from: the ghost state at some names, the credit of its barrier's fifteen units
    and of each receive cell's row, and the level facts. -/
def start (c : Dev nD) : sProp 𝕄 :=
  iprop((∃ K, ghost m ρ K c) ∗ cred (tallyAt (barCell c) () 15)
    ∗ (bigSep Finset.univ fun j : Fin 15 => cred (tallyAt (recvCell c j) () N)) ∗ levAts L lv)

/-- Before the point: that and the two scratch buffers at whatever they hold. -/
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))
/-- After the point: the scratch buffers back, the thirty own cells at zero, closed (the barrier cell is the
    runtime's: nothing to hand back). -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ Pipeline.ownSems0 osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.Kernel.Proto

end
-- ==== Proof.Kernel.Tables.lean ====
/-
  The schedule read cell by cell (which duties, which amounts, which payloads), the peeling of what a device
  owes as its signals and copies go, the level evidence for each of its waits, and the credit the launch
  deals it: fifteen units on its barrier cell (one from each other device) and one row's credit on each
  receive cell (from the one device that writes that slot).
-/
import proofs.«900915_g7700000000000916_dist_max_ax0_shard0_i_m2048_n1024_v7x_i16_f32_1_alg».proof.Proof.Kernel.Ghost

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables -/

section Sched
variable (c : Dev nD) (j : Fin 15)

omit [FloatOps F] in
private theorem slotOf_sendS (j : Fin 15) : slotOf (sendS j) = some (false, j) := by
  have h : 2 ≤ (sendS j).val ∧ (sendS j).val < 17 := ⟨by show 2 ≤ 2 + j.val; omega, by show 2 + j.val < 17; omega⟩
  unfold slotOf
  rw [dif_pos h]
  congr 2
  exact Fin.ext (by show 2 + j.val - 2 = j.val; omega)

omit [FloatOps F] in
private theorem slotOf_recvS (j : Fin 15) : slotOf (recvS j) = some (true, j) := by
  have h1 : ¬ (2 ≤ (recvS j).val ∧ (recvS j).val < 17) := by
    intro h; have := h.2; change 17 + j.val < 17 at this; omega
  have h2 : 17 ≤ (recvS j).val ∧ (recvS j).val < 32 := ⟨by show 17 ≤ 17 + j.val; omega, by show 17 + j.val < 32; omega⟩
  unfold slotOf
  rw [dif_neg h1, dif_pos h2]
  congr 2
  exact Fin.ext (by show 17 + j.val - 17 = j.val; omega)

theorem duties_bar : (sched (F := F) m ρ).duties (barCell c) 0 = Finset.univ := by
  show (if (0 : ℕ) = 0 ∧ (barCell c).1.2 = .tc then (Finset.univ : Finset (Fin 15)) else ∅) = Finset.univ
  exact if_pos ⟨rfl, rfl⟩
theorem duties_send : (sched (F := F) m ρ).duties (sendCell c j) 0 = {0} := by
  show (if (0 : ℕ) = 0 ∧ (sendCell c j).1.2 = .tc then (if (slotOf (sendS j)).isSome then ({0} : Finset (Fin 15)) else ∅) else ∅) = {0}
  rw [if_pos ⟨rfl, rfl⟩, slotOf_sendS]
  exact if_pos rfl
theorem duties_recv : (sched (F := F) m ρ).duties (recvCell c j) 0 = {0} := by
  show (if (0 : ℕ) = 0 ∧ (recvCell c j).1.2 = .tc then (if (slotOf (recvS j)).isSome then ({0} : Finset (Fin 15)) else ∅) else ∅) = {0}
  rw [if_pos ⟨rfl, rfl⟩, slotOf_recvS]
  exact if_pos rfl
theorem duties_later (g : GSem nD τ sig) : ∀ r, 1 ≤ r → (sched (F := F) m ρ).duties g r = ∅ := by
  intro r hr
  exact if_neg (fun h => by omega)

theorem amount_bar (d : Fin 15) : (sched (F := F) m ρ).amount (barCell c) 0 d = 1 := rfl
theorem amount_send (d : Fin 15) : (sched (F := F) m ρ).amount (sendCell c j) 0 d = N := rfl
theorem amount_recv (d : Fin 15) : (sched (F := F) m ρ).amount (recvCell c j) 0 d = N := rfl

theorem expect_bar : (sched (F := F) m ρ).expect (barCell c) 0 = 15 := by
  unfold Schedule.expect Schedule.amountOf
  rw [duties_bar]
  simp only [amount_bar, Finset.sum_const, Finset.card_univ, Fintype.card_fin, smul_eq_mul, Nat.mul_one]
theorem expect_send : (sched (F := F) m ρ).expect (sendCell c j) 0 = N := by
  unfold Schedule.expect Schedule.amountOf
  rw [duties_send, Finset.sum_singleton, amount_send]
theorem expect_recv : (sched (F := F) m ρ).expect (recvCell c j) 0 = N := by
  unfold Schedule.expect Schedule.amountOf
  rw [duties_recv, Finset.sum_singleton, amount_recv]

theorem payload_bar (d : Fin 15) : (sched (F := F) m ρ).payload (barCell c) 0 d = barPay c d := rfl
theorem payload_send (d : Fin 15) : (sched (F := F) m ρ).payload (sendCell c j) 0 d = sendPay m ρ c j := by
  show (match slotOf (sendS j) with
      | some (true, j') => recvPay m ρ c j'
      | some (false, j') => sendPay m ρ c j'
      | none => iprop(emp)) = _
  rw [slotOf_sendS]
theorem payload_recv (d : Fin 15) : (sched (F := F) m ρ).payload (recvCell c j) 0 d = recvPay m ρ c j := by
  show (match slotOf (recvS j) with
      | some (true, j') => recvPay m ρ c j'
      | some (false, j') => sendPay m ρ c j'
      | none => iprop(emp)) = _
  rw [slotOf_recvS]

/-- The whole of a cell's round, no duty taken yet. -/
theorem rest_bar : bigSep ((sched (F := F) m ρ).duties (barCell c) 0 \ ∅) (fun d => (sched (F := F) m ρ).payload (barCell c) 0 d)
    = bigSep Finset.univ (fun d : Fin 15 => barPay (F := F) c d) := by
  rw [Finset.sdiff_empty, duties_bar]
  exact bigSep_congr (fun d _ => payload_bar m ρ c d)
theorem rest_send : bigSep ((sched (F := F) m ρ).duties (sendCell c j) 0 \ ∅) (fun d => (sched (F := F) m ρ).payload (sendCell c j) 0 d)
    = sendPay m ρ c j := by
  rw [Finset.sdiff_empty, duties_send, bigSep_singleton, payload_send]
theorem rest_recv : bigSep ((sched (F := F) m ρ).duties (recvCell c j) 0 \ ∅) (fun d => (sched (F := F) m ρ).payload (recvCell c j) 0 d)
    = recvPay m ρ c j := by
  rw [Finset.sdiff_empty, duties_recv, bigSep_singleton, payload_recv]

/-- No protocol cell is unitless (so an own cell may be closed at the end). -/
theorem not_unitless (g : GSem nD τ sig) : ¬ (sched (F := F) m ρ).unitless g := fun h => h

end Sched

/-! ## Peeling what is owed -/

omit [FloatOps F] in
private theorem filter_peel (j : Fin 15) :
    Finset.univ.filter (fun k : Fin 15 => j.val ≤ k.val)
      = insert j (Finset.univ.filter (fun k : Fin 15 => j.val + 1 ≤ k.val)) := by
  ext k
  simp only [Finset.mem_filter, Finset.mem_univ, true_and, Finset.mem_insert]
  constructor
  · intro h
    by_cases hk : k = j
    · exact Or.inl hk
    · exact Or.inr (by have : k.val ≠ j.val := fun h' => hk (Fin.ext h'); omega)
  · rintro (rfl | h)
    · exact Nat.le_refl _
    · omega

omit [FloatOps F] in
private theorem not_mem_peel (j : Fin 15) : j ∉ Finset.univ.filter (fun k : Fin 15 => j.val + 1 ≤ k.val) := by
  simp only [Finset.mem_filter, Finset.mem_univ, true_and]; omega

theorem owedBarFrom_zero (c : Dev nD) : owedBarFrom c 0 = owedBar c := by
  unfold owedBarFrom owedBar
  rw [Finset.filter_true_of_mem (fun j _ => Nat.zero_le _)]
theorem owedRecvFrom_zero (c : Dev nD) : owedRecvFrom c 0 = owedRecv c := by
  unfold owedRecvFrom owedRecv
  rw [Finset.filter_true_of_mem (fun j _ => Nat.zero_le _)]
theorem owedBarFrom_end (c : Dev nD) : owedBarFrom c 15 = 0 := by
  unfold owedBarFrom
  rw [Finset.filter_false_of_mem (fun j _ => by have := j.isLt; omega), Finset.sum_empty]
theorem owedRecvFrom_end (c : Dev nD) : owedRecvFrom c 15 = 0 := by
  unfold owedRecvFrom
  rw [Finset.filter_false_of_mem (fun j _ => by have := j.isLt; omega), Finset.sum_empty]
theorem owedBarFrom_peel (c : Dev nD) (j : Fin 15) :
    owedBarFrom c j.val = owedBarFrom c (j.val + 1) + tallyAt (barCell (fwd c j)) () 1 := by
  unfold owedBarFrom
  rw [filter_peel j, Finset.sum_insert (not_mem_peel j), add_comm]
theorem owedRecvFrom_peel (c : Dev nD) (j : Fin 15) :
    owedRecvFrom c j.val = owedRecvFrom c (j.val + 1) + tallyAt (recvCell (fwd c j) j) () N := by
  unfold owedRecvFrom
  rw [filter_peel j, Finset.sum_insert (not_mem_peel j), add_comm]

/-! ## The level evidence -/

omit [FloatOps F] in
private theorem lv_bar (c : Dev nD) (i : Unit) : lv (barCell c) i = 1 := rfl

omit [FloatOps F] in
private theorem lv_recv (c : Dev nD) (j : Fin 15) (i : Unit) : lv (recvCell c j) i = 2 := by
  show (match slotOf (recvS j) with | some (true, _) => 2 | _ => 0) = 2
  rw [slotOf_recvS]

omit [FloatOps F] in
private theorem lv_stage (c : Dev nD) (q : DmaSem sig) (hq : slotOf q = none) (i : Unit) :
    lv ((c : Thread nD τ), .dma q) i = 0 := by
  show (match slotOf q with | some (true, _) => 2 | _ => 0) = 0
  rw [hq]

omit [FloatOps F] in
/-- Where a device's receive dues are positive: at a receive cell (level 2), on a TensorCore. -/
private theorem owedRecv_pos (c : Dev nD) (g : GSem nD τ sig) (i : Unit) (h : 0 < owedRecv c g i) :
    i ∈ L g ∧ lv g i = 2 := by
  obtain ⟨j, _, hj⟩ := Pipeline.sum_pos_exists (s := Finset.univ) h
  obtain ⟨rfl, -⟩ := Pipeline.tallyAt_pos hj
  exact ⟨by rw [L_tc]; exact Finset.mem_singleton.mpr rfl, lv_recv _ _ _⟩

omit [FloatOps F] in
/-- Where its barrier dues are positive: at a barrier cell (level 1), on a TensorCore. -/
private theorem owedBar_pos (c : Dev nD) (g : GSem nD τ sig) (i : Unit) (h : 0 < owedBar c g i) :
    i ∈ L g ∧ lv g i = 1 := by
  obtain ⟨j, _, hj⟩ := Pipeline.sum_pos_exists (s := Finset.univ) h
  obtain ⟨rfl, -⟩ := Pipeline.tallyAt_pos hj
  exact ⟨by rw [L_tc]; exact Finset.mem_singleton.mpr rfl, lv_bar _ _⟩

omit [FloatOps F] in
/-- A staging cell's wait (level 0) is below everything a device may owe. -/
theorem mayWait_stage (c : Dev nD) (q : DmaSem sig) (hq : slotOf q = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton.mpr rfl) fun g i h => ?_
    rw [lv_stage c q hq]
    rcases Pipeline.add_pos_cases (D₁ := owedRecv c) (D₂ := owedBar c) h with h | h
    · obtain ⟨h1, h2⟩ := owedRecv_pos c g i h
      exact ⟨h1, by rw [h2]; decide⟩
    · obtain ⟨h1, h2⟩ := owedBar_pos c g i h
      exact ⟨h1, by rw [h2]; decide⟩
  · rw [MayWait_zero]
    iintro #H
    iempintro

omit [FloatOps F] in
/-- At its barrier wait a device owes receive credit only: receive cells sit above barrier cells. -/
theorem mayWait_bar (c : Dev nD) :
    (levAts L lv : sProp 𝕄) ⊢ MayWait (c : Thread nD τ) (.reg barS) () (owedRecv c) := by
  refine Pipeline.mayWait_of_levAts (by rw [L_tc]; exact Finset.mem_singleton.mpr rfl) fun g i h => ?_
  obtain ⟨h1, h2⟩ := owedRecv_pos c g i h
  exact ⟨h1, by rw [h2]; exact (by decide : (1 : ℕ) < 2)⟩

/-! ## The launch credit -/

omit [FloatOps F] in
/-- Units owed one at a time to the same cell add up to their number. -/
private theorem sum_tallyAt_one {α : Type} [DecidableEq α] (s : Finset α) (g : GSem nD τ sig) :
    (∑ _j ∈ s, tallyAt g () 1 : CellTallies nD τ sig Unit) = tallyAt g () s.card := by
  induction s using Finset.induction_on with
  | empty => rw [Finset.sum_empty, Finset.card_empty, tallyAt_zero]
  | insert a s ha ih => rw [Finset.sum_insert ha, ih, Finset.card_insert_of_notMem ha, tallyAt_add, Nat.add_comm]

omit [FloatOps F] in
theorem creds (c : Dev nD) :
    (Pipeline.launchCred O₀ c : sProp 𝕄)
      ⊢ iprop(cred (tallyAt (barCell c) () 15) ∗ bigSep Finset.univ fun j : Fin 15 => cred (tallyAt (recvCell c j) () N)) := by
  have hsplit : (Pipeline.launchCred O₀ c : sProp 𝕄)
      = iprop(Pipeline.launchCred owedRecv c ∗ Pipeline.launchCred owedBar c) :=
    Pipeline.launchCred_add owedRecv owedBar c
  have hrecv : (Pipeline.launchCred owedRecv c : sProp 𝕄)
      ⊢ bigSep Finset.univ fun j : Fin 15 => cred (tallyAt (recvCell c j) () N) := by
    have hsum : (Pipeline.launchCred owedRecv c : sProp 𝕄)
        = bigSep Finset.univ fun j : Fin 15 => Pipeline.launchCred (fun d => tallyAt (recvCell (fwd d j) j) () N) c :=
      Pipeline.launchCred_sum Finset.univ (fun (j : Fin 15) (d : Dev nD) => tallyAt (recvCell (fwd d j) j) () N) c
    rw [hsum]
    exact bigSep_mono fun j _ =>
      Pipeline.launchCred_tallyAt (.dma (recvS j)) (fun d => fwd d j) (fun d => bwd d j)
        (fun d => fwd_bwd d j) (fun d => bwd_fwd d j) () N c
  have hbar : (Pipeline.launchCred owedBar c : sProp 𝕄) ⊢ cred (tallyAt (barCell c) () 15) := by
    have hsum : (Pipeline.launchCred owedBar c : sProp 𝕄)
        = bigSep Finset.univ fun j : Fin 15 => Pipeline.launchCred (fun d => tallyAt (barCell (fwd d j)) () 1) c :=
      Pipeline.launchCred_sum Finset.univ (fun (j : Fin 15) (d : Dev nD) => tallyAt (barCell (fwd d j)) () 1) c
    rw [hsum]
    refine (bigSep_mono fun j _ =>
      Pipeline.launchCred_tallyAt (.reg barS) (fun d => fwd d j) (fun d => bwd d j)
        (fun d => fwd_bwd d j) (fun d => bwd_fwd d j) () 1 c).trans ?_
    rw [← Pipeline.cred_finsetSum, sum_tallyAt_one, Finset.card_univ, Fintype.card_fin]
    exact .refl _
  rw [hsplit]
  iintro ⟨Hr, Hb⟩
  isplitl [Hb]
  · iapply hbar; iexact Hb
  · iapply hrecv; iexact Hr

end Cert.Kernel.Proto

end
-- ==== Proof.Kernel.Mem.lean ====
/-
  The buffers behind the protocol: the landing buffer as fifteen slots, the own row as the fifteen shares lent to
  the copies and the share kept, what a slot holds once the sender's row has been copied over it, the kernel's
  names for the slots and semaphores, and what the body's loads and stores read and write.
-/
import proofs.«900915_g7700000000000916_dist_max_ax0_shard0_i_m2048_n1024_v7x_i16_f32_1_alg».proof.Proof.Kernel.Ghost
import Idealize.ShloMosaic.Lib.Ring
import Idealize.ShloMosaic.Lib.Pipeline.Value
import Idealize.ShloMosaic.Lib.ValueLayout

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's names -/

omit [FloatOps F] in
/-- The kernel names slot `j` by a literal row offset; any evidence of the offset's range gives the same memref. -/
theorem slotM_eq (j : Fin 15) (h : ∀ a, (![j.val, 0, 0] : Fin 3 → Nat) a + S1x1x1024.size a ≤ S15x1x1024.size a) :
    ((Memref.whole cc0_scratch1 : Memref sig .tc .vmem S15x1x1024 .f32).slice (Rect.unit (s := S15x1x1024) ![j.val, 0, 0] S1x1x1024.size h) (fun _ => rfl)).squeeze S1x1024 squeezes_S1x1x1024_S1x1024
      = slotM j := rfl

omit [FloatOps F] in
theorem sendS_eq (j : Fin 15) (h : ∀ a, (![j.val] : Fin 1 → Nat) a + S1.size a ≤ S15.size a) :
    ((cc0_scratch2.slice (Rect.unit (s := S15) ![j.val] S1.size h)).squeeze S_ squeezes_S1_S_).sem = sendS j := by
  revert h; revert j; decide
omit [FloatOps F] in
theorem recvS_eq (j : Fin 15) (h : ∀ a, (![j.val] : Fin 1 → Nat) a + S1.size a ≤ S15.size a) :
    ((cc0_scratch3.slice (Rect.unit (s := S15) ![j.val] S1.size h)).squeeze S_ squeezes_S1_S_).sem = recvS j := by
  revert h; revert j; decide

omit [FloatOps F] in
/-- On a DMA semaphore every slot's transfer is one row's credit. -/
theorem slot_amount_dma (j : Fin 15) (sm : DmaSem sig) : (slotM j).view.amount (.dma sm) = N := rfl

/-! ## The landing buffer slot by slot -/

omit [FloatOps F] in
/-- The elements under slot `j` are those of row `j` of the landing buffer. -/
private theorem slot_set (j : Fin 15) :
    (slotM j : Memref sig .tc .vmem S1x1024 .f32).view.set = (slotRect j).set := by
  show (((View.whole cc0_scratch1 : View sig .tc .vmem S15x1x1024 .f32).slice (slotRect j)).reshape S1x1024 _).set = _
  rw [View.set_reshape, View.set_slice_whole]

omit [FloatOps F] in
/-- The landing buffer held whole is held slot by slot (the slots are disjoint rows that cover it). -/
theorem slots_split (c : Dev nD) (f : Buf (Elt F) ((c : Thread nD τ).loc cc0_scratch1)) :
    ((((c : Thread nD τ).loc cc0_scratch1) ↦{fullShare} f : sProp 𝕄)) = bigSep Finset.univ fun j : Fin 15 => slotPts c j f := by
  have hd : ∀ b b' : Fin 15, b ≠ b' → Disjoint (slotRect b).set (slotRect b').set :=
    Ring.lead_disjoint (s := S15x1x1024) (NB := 15) 0 1 (fun j : Fin 15 => ![j.val, 0, 0]) S1x1x1024.size slot_inb
      (fun b => by simp) rfl
  have hc : Finset.univ.biUnion (fun b : Fin 15 => (slotRect b).set) = Finset.univ :=
    Ring.lead_cover (s := S15x1x1024) (NB := 15) 0 1 (fun j : Fin 15 => ![j.val, 0, 0]) S1x1x1024.size slot_inb
      (fun b => by simp) (fun b a ha => by fin_cases a <;> first | exact absurd rfl ha | rfl) rfl
      (fun a ha => by fin_cases a <;> first | exact absurd rfl ha | rfl) rfl
  rw [Ring.pointsTo_blocks (fun b : Fin 15 => (slotRect b).set) hd hc f]
  refine congrArg _ (funext fun j => ?_)
  unfold slotPts
  rw [slot_set]

omit [FloatOps F] in
/-- A row read through the own-row memref and carried to a slot's element type is the row. -/
private theorem read_row_cast (j : Fin 15) (g : BufTy.Contents (Elt F) (cc0_scratch0 : Ref sig .tc).ty) (z : S1x1024.Idx) :
    cast (congrArg (Elt F) (slotM j : Memref sig .tc .vmem S1x1024 .f32).view.elt_eq.symm)
      (View.read (Elt F) (lM : Memref sig .tc .vmem S1x1024 .f32).view g z) = g z := rfl

omit [FloatOps F] in
open Idealize.ShloMosaic.ValueIdx in
/-- Element `(0, k)` of slot `j` is element `(j, 0, k)` of the landing buffer. -/
private theorem slot_emb (j : Fin 15) (z : S1x1024.Idx) :
    (slotM j : Memref sig .tc .vmem S1x1024 .f32).view.emb z
      = (slotRect j).emb (ix3 (⟨0, Nat.one_pos⟩ : Fin 1) (z 0) (z 1)) := by
  have hr : Shape.reshapeEquiv squeezes_S1x1x1024_S1x1024.numel_eq z = ix3 (⟨0, Nat.one_pos⟩ : Fin 1) (z 0) (z 1) :=
    (congrArg _ (eq_ix2 z)).trans (reshapeEquiv_ix2_1ab _ (z 0) (z 1))
  exact congrArg (slotRect j).emb hr

omit [FloatOps F] in
open Idealize.ShloMosaic.ValueIdx in
private theorem slot_emb_0 (j : Fin 15) (z : S1x1024.Idx) :
    (((slotM j : Memref sig .tc .vmem S1x1024 .f32).view.emb z) 0).val = j.val := by
  rw [slot_emb, Rect.emb_apply]
  show j.val + 1 * 0 = j.val
  omega

omit [FloatOps F] in
open Idealize.ShloMosaic.ValueIdx in
private theorem slot_emb_2 (j : Fin 15) (z : S1x1024.Idx) :
    (((slotM j : Memref sig .tc .vmem S1x1024 .f32).view.emb z) 2).val = (z 1).val := by
  rw [slot_emb, Rect.emb_apply]
  show 0 + 1 * (z 1).val = (z 1).val
  omega

open Idealize.ShloMosaic.ValueIdx in
/-- Slot `j` of the full landing buffer holds, at `(0, k)`, the row of the device `j + 1` places before at `(0, k)`. -/
private theorem landedAll_slot (c : Dev nD) (j : Fin 15) (z : S1x1024.Idx) :
    landedAll m ρ c ((slotM j : Memref sig .tc .vmem S1x1024 .f32).view.emb z) = rowMax m ρ (bwd c j) z := by
  have hi0 := slot_emb_0 j z
  have hi2 := slot_emb_2 j z
  generalize (slotM j : Memref sig .tc .vmem S1x1024 .f32).view.emb z = i at hi0 hi2 ⊢
  have hz0 : (z 0).val = 0 := by have := idx2_lt0 z; omega
  have a0 : (⟨(i 0).val, (i 0).isLt⟩ : Fin 15) = j := Fin.ext hi0
  have a2 : z = ix2 (0 : Fin 1) (⟨(i 2).val, (i 2).isLt⟩ : Fin 1024) := by
    funext a
    match a with
    | ⟨0, _⟩ => exact Fin.ext hz0
    | ⟨1, _⟩ => exact Fin.ext hi2.symm
  unfold landedAll
  rw [a0, ← a2]

/-- Slot `j` of device `c` after device `bwd c j`'s row has been copied over whatever it held is slot `j` of the full
    landing buffer. -/
theorem landed_slot (c : Dev nD) (j : Fin 15) (fd : Buf (Elt F) ((slotM j).view.loc (c : Thread nD τ))) :
    ((slotM j).view.loc (c : Thread nD τ) ↦[(slotM j).view.set]{fullShare}
        ((slotM j).view.write (Elt F) fd ((lM : Memref sig .tc .vmem S1x1024 .f32).view.read (Elt F) (rowMax m ρ (bwd c j))) Finset.univ) : sProp 𝕄)
      = slotPts c j (landedAll m ρ c) := by
  unfold slotPts
  refine pointsTo_congr fun i hi => ?_
  obtain ⟨z, rfl⟩ := View.exists_emb_of_mem_set _ hi
  rw [View.write_emb_of_mem _ _ (Finset.mem_univ z), landedAll_slot]
  exact read_row_cast j (rowMax m ρ (bwd c j)) z

/-! ## The own row by shares -/

omit [FloatOps F] in
private theorem sep_rot (B L R : sProp 𝕄) : (iprop(B ∗ (L ∗ R)) : sProp 𝕄) = iprop((L ∗ B) ∗ R) := by
  have h1 : BI.sep L B = BI.sep B L := Std.Commutative.comm (op := fun a b : sProp 𝕄 => BI.sep a b) L B
  have h2 : BI.sep (BI.sep B L) R = BI.sep B (BI.sep L R) := Std.Associative.assoc (op := fun a b : sProp 𝕄 => BI.sep a b) B L R
  show BI.sep B (BI.sep L R) = BI.sep (BI.sep L B) R
  rw [h1, h2]

omit [FloatOps F] in
/-- The row held on any element set at the full share is held as the first `n` lent shares and what is left after
    `n` halvings: each halving splits what is left into the next lent share and the new rest. -/
private theorem row_split_aux (c : Dev nD) (f : Buf (Elt F) ((c : Thread nD τ).loc cc0_scratch0))
    (I : Finset (Idx ((c : Thread nD τ).loc cc0_scratch0))) :
    ∀ (n : ℕ) (hn : n ≤ 15), ((((c : Thread nD τ).loc cc0_scratch0) ↦[I]{fullShare} f : sProp 𝕄))
      = iprop((bigSep (Finset.univ.filter fun j : Fin 15 => j.val < n) fun j : Fin 15 =>
            (((c : Thread nD τ).loc cc0_scratch0) ↦[I]{copyShare j} f))
          ∗ (((c : Thread nD τ).loc cc0_scratch0) ↦[I]{restShare n} f))
  | 0, _ => by
    rw [show (Finset.univ.filter fun j : Fin 15 => j.val < 0) = ∅ from by ext j; simp, bigSep_empty]
    exact (BI.equiv_iff.mp BI.emp_sep).symm
  | n + 1, hn => by
    have hs : ((((c : Thread nD τ).loc cc0_scratch0) ↦[I]{restShare n} f : sProp 𝕄))
        ⊣⊢ iprop((((c : Thread nD τ).loc cc0_scratch0) ↦[I]{(restShare n).left} f) ∗ (((c : Thread nD τ).loc cc0_scratch0) ↦[I]{(restShare n).right} f)) :=
      pointsTo_share (PosShare.mem_left_op_right (restShare n))
    have hins : (Finset.univ.filter fun j : Fin 15 => j.val < n + 1)
        = insert (⟨n, by omega⟩ : Fin 15) (Finset.univ.filter fun j : Fin 15 => j.val < n) := by
      ext j; simp [Fin.ext_iff]; omega
    rw [row_split_aux c f I n (by omega), hins, bigSep_insert (by simp), BI.equiv_iff.mp ⟨hs.1, hs.2⟩]
    exact sep_rot _ _ _

omit [FloatOps F] in
/-- The own row held whole is held as the fifteen shares the copies borrow and the share that stays. -/
theorem row_split (c : Dev nD) (f : Buf (Elt F) ((c : Thread nD τ).loc cc0_scratch0)) :
    ((((c : Thread nD τ).loc cc0_scratch0) ↦{fullShare} f : sProp 𝕄))
      ⊣⊢ iprop((bigSep Finset.univ fun j : Fin 15 =>
            ((lM : Memref sig .tc .vmem S1x1024 .f32).view.loc (c : Thread nD τ) ↦[(lM : Memref sig .tc .vmem S1x1024 .f32).view.set]{copyShare j} f))
          ∗ ((lM : Memref sig .tc .vmem S1x1024 .f32).view.loc (c : Thread nD τ) ↦[(lM : Memref sig .tc .vmem S1x1024 .f32).view.set]{restShare 15} f)) := by
  have hset : (lM : Memref sig .tc .vmem S1x1024 .f32).view.set = Finset.univ := View.set_whole cc0_scratch0
  have hall : (Finset.univ.filter fun j : Fin 15 => j.val < 15) = Finset.univ := by
    ext j; simp
  rw [hset]
  refine BiEntails.of_eq ?_
  have h := row_split_aux (F := F) c f Finset.univ 15 le_rfl
  rw [hall] at h
  exact h

/-! ## The body's loads and stores -/

abbrev rX : Rect S2048x1024 := Rect.unit (s := S2048x1024) ![0, 0] S2048x1024.size inb_S2048x1024_S2048x1024_0_0
abbrev rR : Rect S1x1024 := Rect.unit (s := S1x1024) ![0, 0] S1x1024.size inb_S1x1024_S1x1024_0_0
abbrev rC : Rect S15x1x1024 := Rect.unit (s := S15x1x1024) ![0, 0, 0] S15x1x1024.size inb_S15x1x1024_S15x1x1024_0_0_0

omit [FloatOps F] in
theorem read_x (f : (cc0_stg0_0 : Ref sig .tc).ty.Contents (Elt F)) :
    (xM : Memref sig .tc .vmem S2048x1024 .f32).view.readAt (Elt F) rX.toLoadRect f = f :=
  Memref.readAt_unit_zero (Elt F) cc0_stg0_0 (funext fun a => by fin_cases a <;> rfl) _ f
omit [FloatOps F] in
theorem read_row (f : (cc0_scratch0 : Ref sig .tc).ty.Contents (Elt F)) :
    (lM : Memref sig .tc .vmem S1x1024 .f32).view.readAt (Elt F) rR.toLoadRect f = f :=
  Memref.readAt_unit_zero (Elt F) cc0_scratch0 (funext fun a => by fin_cases a <;> rfl) _ f
omit [FloatOps F] in
theorem read_all (f : (cc0_scratch1 : Ref sig .tc).ty.Contents (Elt F)) :
    (cM : Memref sig .tc .vmem S15x1x1024 .f32).view.readAt (Elt F) rC.toLoadRect f = f :=
  Memref.readAt_unit_zero (Elt F) cc0_scratch1 (funext fun a => by fin_cases a <;> rfl) _ f
omit [FloatOps F] in
theorem write_row (f w : (cc0_scratch0 : Ref sig .tc).ty.Contents (Elt F)) :
    ((lM : Memref sig .tc .vmem S1x1024 .f32).access rR : View sig .tc _ _ _).write (Elt F) f w Finset.univ = w :=
  Memref.write_access_unit_zero_univ (Elt F) cc0_scratch0 (funext fun a => by fin_cases a <;> rfl) _ f w
omit [FloatOps F] in
theorem write_out (f w : (cc0_stg1_0 : Ref sig .tc).ty.Contents (Elt F)) :
    ((oM : Memref sig .tc .vmem S1x1024 .f32).access rR : View sig .tc _ _ _).write (Elt F) f w Finset.univ = w :=
  Memref.write_access_unit_zero_univ (Elt F) cc0_stg1_0 (funext fun a => by fin_cases a <;> rfl) _ f w

/-- info: 'Cert.Kernel.Proto.slots_split' depends on axioms: [propext, Classical.choice, Quot.sound] -/
#guard_msgs in #print axioms slots_split
/-- info: 'Cert.Kernel.Proto.landed_slot' depends on axioms: [propext, Classical.choice, Quot.sound] -/
#guard_msgs in #print axioms landed_slot
/-- info: 'Cert.Kernel.Proto.row_split' depends on axioms: [propext, Classical.choice, Quot.sound] -/
#guard_msgs in #print axioms row_split

end Cert.Kernel.Proto

end
-- ==== Proof.Kernel.Steps.lean ====
/-
  The pieces the body's run is made of: the kernel's device chains, families of fifteen written out, what the
  persistent record gives, the four buffers through their memrefs, the schedule as the run reads it, and the
  rule for one copy.
-/
import proofs.«900915_g7700000000000916_dist_max_ax0_shard0_i_m2048_n1024_v7x_i16_f32_1_alg».proof.Proof.Kernel.Tables
import proofs.«900915_g7700000000000916_dist_max_ax0_shard0_i_m2048_n1024_v7x_i16_f32_1_alg».proof.Proof.Kernel.Mem

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-! ## The kernel's device chains: signal `j` and copy `j` both address the device `j + 1` places on -/

theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 3 := Fin.ext (k0_dev4_eq c)
theorem dev5_eq (c : Dev nD) : (⟨k0_dev5 c, k0_dev5_lt c⟩ : Dev nD) = fwd c 4 := Fin.ext (k0_dev5_eq c)
theorem dev6_eq (c : Dev nD) : (⟨k0_dev6 c, k0_dev6_lt c⟩ : Dev nD) = fwd c 5 := Fin.ext (k0_dev6_eq c)
theorem dev7_eq (c : Dev nD) : (⟨k0_dev7 c, k0_dev7_lt c⟩ : Dev nD) = fwd c 6 := Fin.ext (k0_dev7_eq c)
theorem dev8_eq (c : Dev nD) : (⟨k0_dev8 c, k0_dev8_lt c⟩ : Dev nD) = fwd c 7 := Fin.ext (k0_dev8_eq c)
theorem dev9_eq (c : Dev nD) : (⟨k0_dev9 c, k0_dev9_lt c⟩ : Dev nD) = fwd c 8 := Fin.ext (k0_dev9_eq c)
theorem dev10_eq (c : Dev nD) : (⟨k0_dev10 c, k0_dev10_lt c⟩ : Dev nD) = fwd c 9 := Fin.ext (k0_dev10_eq c)
theorem dev11_eq (c : Dev nD) : (⟨k0_dev11 c, k0_dev11_lt c⟩ : Dev nD) = fwd c 10 := Fin.ext (k0_dev11_eq c)
theorem dev12_eq (c : Dev nD) : (⟨k0_dev12 c, k0_dev12_lt c⟩ : Dev nD) = fwd c 11 := Fin.ext (k0_dev12_eq c)
theorem dev13_eq (c : Dev nD) : (⟨k0_dev13 c, k0_dev13_lt c⟩ : Dev nD) = fwd c 12 := Fin.ext (k0_dev13_eq c)
theorem dev14_eq (c : Dev nD) : (⟨k0_dev14 c, k0_dev14_lt c⟩ : Dev nD) = fwd c 13 := Fin.ext (k0_dev14_eq c)
theorem dev15_eq (c : Dev nD) : (⟨k0_dev15 c, k0_dev15_lt c⟩ : Dev nD) = fwd c 14 := Fin.ext (k0_dev15_eq c)
theorem dev16_eq (c : Dev nD) : (⟨k0_dev16 c, k0_dev16_lt c⟩ : Dev nD) = fwd c 0 := Fin.ext (k0_dev16_eq c)
theorem dev17_eq (c : Dev nD) : (⟨k0_dev17 c, k0_dev17_lt c⟩ : Dev nD) = fwd c 1 := Fin.ext (k0_dev17_eq c)
theorem dev18_eq (c : Dev nD) : (⟨k0_dev18 c, k0_dev18_lt c⟩ : Dev nD) = fwd c 2 := Fin.ext (k0_dev18_eq c)
theorem dev19_eq (c : Dev nD) : (⟨k0_dev19 c, k0_dev19_lt c⟩ : Dev nD) = fwd c 3 := Fin.ext (k0_dev19_eq c)
theorem dev20_eq (c : Dev nD) : (⟨k0_dev20 c, k0_dev20_lt c⟩ : Dev nD) = fwd c 4 := Fin.ext (k0_dev20_eq c)
theorem dev21_eq (c : Dev nD) : (⟨k0_dev21 c, k0_dev21_lt c⟩ : Dev nD) = fwd c 5 := Fin.ext (k0_dev21_eq c)
theorem dev22_eq (c : Dev nD) : (⟨k0_dev22 c, k0_dev22_lt c⟩ : Dev nD) = fwd c 6 := Fin.ext (k0_dev22_eq c)
theorem dev23_eq (c : Dev nD) : (⟨k0_dev23 c, k0_dev23_lt c⟩ : Dev nD) = fwd c 7 := Fin.ext (k0_dev23_eq c)
theorem dev24_eq (c : Dev nD) : (⟨k0_dev24 c, k0_dev24_lt c⟩ : Dev nD) = fwd c 8 := Fin.ext (k0_dev24_eq c)
theorem dev25_eq (c : Dev nD) : (⟨k0_dev25 c, k0_dev25_lt c⟩ : Dev nD) = fwd c 9 := Fin.ext (k0_dev25_eq c)
theorem dev26_eq (c : Dev nD) : (⟨k0_dev26 c, k0_dev26_lt c⟩ : Dev nD) = fwd c 10 := Fin.ext (k0_dev26_eq c)
theorem dev27_eq (c : Dev nD) : (⟨k0_dev27 c, k0_dev27_lt c⟩ : Dev nD) = fwd c 11 := Fin.ext (k0_dev27_eq c)
theorem dev28_eq (c : Dev nD) : (⟨k0_dev28 c, k0_dev28_lt c⟩ : Dev nD) = fwd c 12 := Fin.ext (k0_dev28_eq c)
theorem dev29_eq (c : Dev nD) : (⟨k0_dev29 c, k0_dev29_lt c⟩ : Dev nD) = fwd c 13 := Fin.ext (k0_dev29_eq c)
theorem dev30_eq (c : Dev nD) : (⟨k0_dev30 c, k0_dev30_lt c⟩ : Dev nD) = fwd c 14 := Fin.ext (k0_dev30_eq c)

/-! ## Fifteen of a kind, written out -/

omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem sum_fin15 {M : Type} [AddCommMonoid M] (f : Fin 15 → M) (X : M) :
    X + ∑ j, f j = X + f 14 + f 13 + f 12 + f 11 + f 10 + f 9 + f 8 + f 7 + f 6 + f 5 + f 4 + f 3 + f 2 + f 1 + f 0 := by
  have h : ∑ j, f j = (([0, 1, 2, 3, 4, 5, 6, 7, 8, 9, 10, 11, 12, 13, 14] : List (Fin 15)).map f).sum := by
    rw [Fin.sum_univ_def]; rfl
  rw [h]; simp only [List.map_cons, List.map_nil, List.sum_cons, List.sum_nil, add_zero]; ac_rfl

/-- The offsets' involution as an equivalence: a family indexed by the slot is the same family indexed by the offset
    of the signal that hands the slot over. -/
def revE : Fin 15 ≃ Fin 15 := ⟨rev, rev, rev_rev, rev_rev⟩

/-! ## Reading the persistent record -/

theorem inv_at (K : Dev nD × CK → ℕ) (ck : Dev nD × CK) : records m ρ K ⊢ cellInv ER (sched m ρ) (K ck) (kcell ck) :=
  (show records m ρ K ⊢ bigSep Finset.univ fun ck : Dev nD × CK => cellInv ER (sched m ρ) (K ck) (kcell ck) from by
    unfold records; iintro ⟨HI, -⟩; iexact HI).trans (bigSep_elim (Finset.mem_univ ck))
theorem reached_at (K : Dev nD × CK → ℕ) (ck : Dev nD × CK) : records m ρ K ⊢ reached ER (kcell ck) 0 :=
  (show records m ρ K ⊢ bigSep Finset.univ fun ck : Dev nD × CK => reached ER (kcell ck) 0 from by
    unfold records; iintro ⟨-, HR⟩; iexact HR).trans (bigSep_elim (Finset.mem_univ ck))

theorem inv_bar (K : Dev nD × CK → ℕ) (d : Dev nD) : records m ρ K ⊢ cellInv ER (sched m ρ) (K (d, .inl ())) (barCell d) := inv_at m ρ K (d, .inl ())
theorem inv_send (K : Dev nD × CK → ℕ) (d : Dev nD) (j : Fin 15) : records m ρ K ⊢ cellInv ER (sched m ρ) (K (d, .inr (false, j))) (sendCell d j) := inv_at m ρ K (d, .inr (false, j))
theorem inv_recv (K : Dev nD × CK → ℕ) (d : Dev nD) (j : Fin 15) : records m ρ K ⊢ cellInv ER (sched m ρ) (K (d, .inr (true, j))) (recvCell d j) := inv_at m ρ K (d, .inr (true, j))
theorem reached_bar (K : Dev nD × CK → ℕ) (d : Dev nD) : records m ρ K ⊢ reached ER (barCell d) 0 := reached_at m ρ K (d, .inl ())
theorem reached_send (K : Dev nD × CK → ℕ) (d : Dev nD) (j : Fin 15) : records m ρ K ⊢ reached ER (sendCell d j) 0 := reached_at m ρ K (d, .inr (false, j))
theorem reached_recv (K : Dev nD × CK → ℕ) (d : Dev nD) (j : Fin 15) : records m ρ K ⊢ reached ER (recvCell d j) 0 := reached_at m ρ K (d, .inr (true, j))

/-- A device's positions: its barrier cell's, its fifteen send cells', its fifteen receive cells'. -/
theorem ownPos_eq (c : Dev nD) : ownPos (F := F) c
    = iprop(atPos ER (barCell c) 0 ∅ 0 ∗ (bigSep Finset.univ fun j : Fin 15 => atPos ER (sendCell c j) 0 ∅ 0)
        ∗ (bigSep Finset.univ fun j : Fin 15 => atPos ER (recvCell c j) 0 ∅ 0)) := by
  unfold ownPos
  rw [bigSep_univ_sum, bigSep_univ_of_subsingleton (), bigSep_univ_prod, bigSep_univ_eq_bigSepL [false, true] (by decide) (by decide)]
  rfl

/-! ## The four buffers through their memrefs -/

omit [FloatOps F] in
theorem x_pts (c : Dev nD) (q : PosShare TreeShare) (f : Buf (Elt F) ((c : Thread nD τ).loc cc0_stg0_0)) :
    (((c : Thread nD τ).loc cc0_stg0_0) ↦{q} f : sProp 𝕄)
      = ((xM : Memref sig .tc .vmem S2048x1024 .f32).view.loc (c : Thread nD τ) ↦[(xM : Memref sig .tc .vmem S2048x1024 .f32).view.set]{q} f) := by
  rw [View.set_whole]
omit [FloatOps F] in
theorem o_pts (c : Dev nD) (q : PosShare TreeShare) (f : Buf (Elt F) ((c : Thread nD τ).loc cc0_stg1_0)) :
    (((c : Thread nD τ).loc cc0_stg1_0) ↦{q} f : sProp 𝕄)
      = ((oM : Memref sig .tc .vmem S1x1024 .f32).view.loc (c : Thread nD τ) ↦[(oM : Memref sig .tc .vmem S1x1024 .f32).view.set]{q} f) := by
  rw [View.set_whole]
omit [FloatOps F] in
theorem l_pts (c : Dev nD) (q : PosShare TreeShare) (f : Buf (Elt F) ((c : Thread nD τ).loc cc0_scratch0)) :
    (((c : Thread nD τ).loc cc0_scratch0) ↦{q} f : sProp 𝕄)
      = ((lM : Memref sig .tc .vmem S1x1024 .f32).view.loc (c : Thread nD τ) ↦[(lM : Memref sig .tc .vmem S1x1024 .f32).view.set]{q} f) := by
  rw [View.set_whole]
omit [FloatOps F] in
theorem c_pts (c : Dev nD) (q : PosShare TreeShare) (f : Buf (Elt F) ((c : Thread nD τ).loc cc0_scratch1)) :
    (((c : Thread nD τ).loc cc0_scratch1) ↦{q} f : sProp 𝕄)
      = ((cM : Memref sig .tc .vmem S15x1x1024 .f32).view.loc (c : Thread nD τ) ↦[(cM : Memref sig .tc .vmem S15x1x1024 .f32).view.set]{q} f) := by
  rw [View.set_whole]

/-! ## The schedule as the run reads it -/

/-- Signal `j` of device `c` pays duty `j` of device `fwd c j`'s barrier cell: it hands over `c`'s own slot `rev j`. -/
theorem pay_sig (c : Dev nD) (j : Fin 15) : (sched (F := F) m ρ).payload (barCell (fwd c j)) 0 j
    = iprop((∃ f, (slotM (rev j)).view.loc (c : Thread nD τ) ↦[(slotM (rev j)).view.set]{fullShare} f) ∗ reached ER (recvCell c (rev j)) 0) := by
  rw [payload_bar]; unfold barPay slotPts; rw [bwd_fwd]

/-- What is owed to the barrier cells, as a chain the signals peel from the right. -/
theorem owed_chain (c : Dev nD) : O₀ c = owedRecv c
    + tallyAt (barCell (fwd c 14)) () 1 + tallyAt (barCell (fwd c 13)) () 1 + tallyAt (barCell (fwd c 12)) () 1 + tallyAt (barCell (fwd c 11)) () 1
    + tallyAt (barCell (fwd c 10)) () 1 + tallyAt (barCell (fwd c 9)) () 1 + tallyAt (barCell (fwd c 8)) () 1 + tallyAt (barCell (fwd c 7)) () 1
    + tallyAt (barCell (fwd c 6)) () 1 + tallyAt (barCell (fwd c 5)) () 1 + tallyAt (barCell (fwd c 4)) () 1 + tallyAt (barCell (fwd c 3)) () 1
    + tallyAt (barCell (fwd c 2)) () 1 + tallyAt (barCell (fwd c 1)) () 1 + tallyAt (barCell (fwd c 0)) () 1 := by
  unfold O₀ owedBar; exact sum_fin15 (fun j => tallyAt (barCell (fwd c j)) () 1) (owedRecv c)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 100000 in
/-- One store through the whole row over any contents leaves the stored row. -/
theorem row_written (f0 w : (cc0_scratch0 : Ref sig .tc).ty.Contents (Elt F)) :
    (lM : Memref sig .tc .vmem S1x1024 .f32).view.writes (Elt F) f0 [⟨rR, w⟩] = w :=
  write_row f0 w

/-- After the first store the own row holds the column maxima of the staged block. -/
theorem row_after (c : Dev nD) (f0 : Buf (Elt F) ((c : Thread nD τ).loc cc0_scratch0)) :
    (lM : Memref sig .tc .vmem S1x1024 .f32).view.writes (Elt F) f0
        [⟨rR, k0_pay1 ((xM : Memref sig .tc .vmem S2048x1024 .f32).view.readAt (Elt F) rX.toLoadRect (xstg m ρ c))⟩]
      = rowMax m ρ c :=
  (row_written f0 _).trans (congrArg k0_pay1 (read_x (xstg m ρ c)))

/-- Copy `j`: a share of device `c`'s row into slot `j` of device `fwd c j`, whatever that slot held. The departure
    returns the share; the arrival hands the target the slot holding `c`'s row. -/
theorem wp_send_slot (K : Dev nD × CK → ℕ) (c n : Dev nD) (j : Fin 15) (hn : n = fwd c j)
    {hsc : (slotM j : Memref sig (Dev.tc n : Thread nD τ).2.kind .vmem S1x1024 .f32).view.ref.isScScratch = false}
    {hsrc : (lM : Memref sig .tc .vmem S1x1024 .f32).view.WordExact} {hdst : (slotM j : Memref sig .tc .vmem S1x1024 .f32).view.WordExact}
    {hsem : DmaTarget.Typed .vmem (.dma (recvS j)) (.remote (Dev.tc n : Thread nD τ) (slotM j : Memref sig .tc .vmem S1x1024 .f32) (.dma (sendS j)) hsc)}
    {α : Type} {Q : α → sProp 𝕄} {k : PUnit → Prog (TpuEff nD τ sig (Elt F) Λ₀ .tc) α}
    (fd : Buf (Elt F) ((slotM j).view.loc (fwd c j : Thread nD τ))) (W : Waits sig Unit) :
    iprop(cellInv ER (sched m ρ) (K (c, .inr (false, j))) (sendCell c j) ∗ cellInv ER (sched m ρ) (K (fwd c j, .inr (true, j))) (recvCell (fwd c j) j)
        ∗ ((lM : Memref sig .tc .vmem S1x1024 .f32).view.loc (c : Thread nD τ) ↦[(lM : Memref sig .tc .vmem S1x1024 .f32).view.set]{copyShare j} rowMax m ρ c)
        ∗ slotPts (fwd c j) j fd
        ∗ owes (c : Thread nD τ) (owedRecvFrom c j.val) W
        ∗ dutyTok ER (sendCell c j) 0 (0 : Fin 15) ∗ reached ER (sendCell c j) 0
        ∗ dutyTok ER (recvCell (fwd c j) j) 0 (0 : Fin 15) ∗ reached ER (recvCell (fwd c j) j) 0)
      ⊢ iprop(((cred (tallyAt (sendCell c j) () N) ∗ owes (c : Thread nD τ) (owedRecvFrom c (j.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma lM (.remote (Dev.tc n : Thread nD τ) (slotM j) (.dma (sendS j)) hsc) (.dma (recvS j)) hsrc hdst hsem) k) Q) := by
  subst hn
  unfold slotPts
  exact Rounds.wp_send_pointsTo 𝒱₀ ER (sched m ρ) (c : Thread nD τ) none (κ₁ := K (c, .inr (false, j))) (κ₂ := K (fwd c j, .inr (true, j)))
    (r₁ := 0) (r₂ := 0) (d₁ := 0) (d₂ := 0) (fd := fd)
    (by rw [duties_send]; exact Finset.mem_singleton_self _) (by rw [duties_recv]; exact Finset.mem_singleton_self _)
    () () N (slot_amount_dma j (recvS j)) (amount_send m ρ c j 0) (amount_recv m ρ (fwd c j) j 0) (owedRecvFrom c (j.val + 1)) (owedRecvFrom_peel c j) (W := W)
    (by rw [payload_send]; unfold sendPay rowPts; exact BI.Entails.refl _)
    (by rw [payload_recv]; unfold recvPay; rw [← landed_slot m ρ (fwd c j) j fd, bwd_fwd])

/-- The barrier's fifteen payloads, told by the slot each hands over: slot `s` of device `fwd c s`, and that its receive
    cell there is at round 0. -/
theorem bar_pays (c : Dev nD) : bigSep Finset.univ (fun d : Fin 15 => (sched (F := F) m ρ).payload (barCell c) 0 d)
    = bigSep Finset.univ (fun s : Fin 15 => iprop((∃ f, slotPts (F := F) (fwd c s) s f) ∗ reached ER (recvCell (fwd c s) s) 0)) := by
  rw [bigSep_univ_equiv revE]
  refine bigSep_congr fun s _ => ?_
  show (sched (F := F) m ρ).payload (barCell c) 0 (rev s) = _
  rw [payload_bar]; unfold barPay; rw [bwd_rev, rev_rev]

/-! ## The buffers put back together -/

/-- The fifteen slots, each handed back by its receive cell holding its sender's row, are the landing buffer holding all
    fifteen rows. -/
theorem comm_joined (c : Dev nD) : bigSep Finset.univ (fun j : Fin 15 => (sched (F := F) m ρ).payload (recvCell c j) 0 (0 : Fin 15))
    = ((cM : Memref sig .tc .vmem S15x1x1024 .f32).view.loc (c : Thread nD τ) ↦[(cM : Memref sig .tc .vmem S15x1x1024 .f32).view.set]{fullShare} landedAll m ρ c) := by
  rw [← c_pts (F := F) c fullShare (landedAll m ρ c), slots_split c (landedAll m ρ c)]
  refine bigSep_congr fun j _ => ?_
  rw [payload_recv]; rfl

/-- The fifteen shares, each handed back by its send cell, and the share kept are the own row again. -/
theorem row_joined (c : Dev nD) :
    iprop((bigSep Finset.univ fun j : Fin 15 => (sched (F := F) m ρ).payload (sendCell c j) 0 (0 : Fin 15))
        ∗ ((lM : Memref sig .tc .vmem S1x1024 .f32).view.loc (c : Thread nD τ) ↦[(lM : Memref sig .tc .vmem S1x1024 .f32).view.set]{restShare 15} rowMax m ρ c))
      ⊢ (iprop(∃ f, ((c : Thread nD τ).loc cc0_scratch0) ↦{fullShare} f) : sProp 𝕄) := by
  have h : bigSep Finset.univ (fun j : Fin 15 => (sched (F := F) m ρ).payload (sendCell c j) 0 (0 : Fin 15))
      = bigSep Finset.univ fun j : Fin 15 =>
          ((lM : Memref sig .tc .vmem S1x1024 .f32).view.loc (c : Thread nD τ) ↦[(lM : Memref sig .tc .vmem S1x1024 .f32).view.set]{copyShare j} rowMax m ρ c) :=
    bigSep_congr fun j _ => by rw [payload_send]; rfl
  rw [h]
  iintro H
  ihave H' := ((row_split (F := F) c (rowMax m ρ c)).2) $$ H
  iexists (rowMax m ρ c); iexact H'

set_option maxRecDepth 100000 in
/-- One store through the whole result row over any contents leaves the stored row. -/
theorem out_written (f0 w : (cc0_stg1_0 : Ref sig .tc).ty.Contents (Elt F)) :
    (oM : Memref sig .tc .vmem S1x1024 .f32).view.writes (Elt F) f0 [⟨rR, w⟩] = w :=
  write_out f0 w

/-- After the last store the staged result holds the maximum of the own row and the fifteen received. -/
theorem out_after (c : Dev nD) (o0 : Buf (Elt F) ((c : Thread nD τ).loc cc0_stg1_0)) :
    (oM : Memref sig .tc .vmem S1x1024 .f32).view.writes (Elt F) o0
        [⟨rR, k0_pay2 ((lM : Memref sig .tc .vmem S1x1024 .f32).view.readAt (Elt F) rR.toLoadRect (rowMax m ρ c))
            ((cM : Memref sig .tc .vmem S15x1x1024 .f32).view.readAt (Elt F) rC.toLoadRect (landedAll m ρ c))⟩]
      = outAt m ρ c :=
  (out_written o0 _).trans (by rw [read_row, read_all]; rfl)

end Cert.Kernel.Proto

end
-- ==== Proof.Kernel.Close.lean ====
/-
  At the end of the body a device's thirty own cells, every round of theirs consumed, are closed: their counters,
  at zero, are the device's again.
-/
import proofs.«900915_g7700000000000916_dist_max_ax0_shard0_i_m2048_n1024_v7x_i16_f32_1_alg».proof.Proof.Kernel.Tables

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
private theorem close_bigSep_bool (Φ : Bool → sProp 𝕄) : bigSep Finset.univ Φ = iprop(Φ false ∗ Φ true) :=
  bigSep_univ_eq_bigSepL [false, true] (by decide) (by decide) Φ

omit [FloatOps F] in
private theorem close_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One own cell closed: its invariant is among the records, no round from 1 on has a duty, and no protocol cell is
    unitless. -/
private theorem close_one (K : Dev nD × CK → ℕ) (c : Dev nD) (k : Bool × Fin 15) :
    iprop(records m ρ K ∗ atPos ER (kcell (c, .inr k)) 1 ∅ 0) ⊢ (|={Set.univ}=> semVal (kcell (c, .inr k)) 0 : sProp 𝕄) := by
  have hI : (bigSep Finset.univ fun ck : Dev nD × CK => (cellInv ER (sched m ρ) (K ck) (kcell ck) : sProp 𝕄))
      ⊢ cellInv ER (sched m ρ) (K (c, .inr k)) (kcell (c, .inr k)) := bigSep_elim (Finset.mem_univ ((c, Sum.inr k) : Dev nD × CK))
  unfold records
  iintro ⟨⟨#HI, -⟩, Hat⟩
  iapply (Rounds.cell_close ER (sched m ρ) (κ := K (c, .inr k)) (Set.mem_univ _) (not_unitless m ρ _) (R := 1)
    (fun r hr => duties_later m ρ _ r hr))
  isplitr
  · iapply hI
    iexact HI
  · iexact Hat

/-- From the cells' invariants and the device's positions past the one round of each send and receive cell, the
    thirty counters at zero. -/
theorem close_all (K : Dev nD × CK → ℕ) (c : Dev nD) :
    iprop(records m ρ K ∗ (bigSep Finset.univ fun j : Fin 15 => atPos ER (sendCell c j) 1 ∅ 0)
        ∗ (bigSep Finset.univ fun j : Fin 15 => atPos ER (recvCell c j) 1 ∅ 0))
      ⊢ |={Set.univ}=> (Pipeline.ownSems0 osem c : sProp 𝕄) := by
  have hP : (bigSep Finset.univ fun k : Bool × Fin 15 => (atPos ER (kcell (c, .inr k)) 1 ∅ 0 : sProp 𝕄))
      = iprop((bigSep Finset.univ fun j : Fin 15 => atPos ER (sendCell c j) 1 ∅ 0)
          ∗ (bigSep Finset.univ fun j : Fin 15 => atPos ER (recvCell c j) 1 ∅ 0)) := by
    rw [bigSep_univ_prod, close_bigSep_bool]; rfl
  rw [← hP]
  refine (close_with_persistent (R := records m ρ K) fun k _ => close_one m ρ K c k).trans ?_
  exact bigSep_fupd _ _

/-- info: 'Cert.Kernel.Proto.close_all' depends on axioms: [propext, Classical.choice, Quot.sound] -/
#guard_msgs in #print axioms close_all

end Cert.Kernel.Proto

end
-- ==== Proof.Kernel.Body.lean ====
/-
  One device's body, run from the invariant before the point to the invariant after it.
-/
import proofs.«900915_g7700000000000916_dist_max_ax0_shard0_i_m2048_n1024_v7x_i16_f32_1_alg».proof.Proof.Kernel.Steps
import proofs.«900915_g7700000000000916_dist_max_ax0_shard0_i_m2048_n1024_v7x_i16_f32_1_alg».proof.Proof.Kernel.Close

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

attribute [local sl_rounds] duties_bar duties_send duties_recv amount_bar amount_send amount_recv expect_bar expect_send expect_recv pay_sig rest_bar rest_send rest_recv
attribute [local sl_canon] dev1_eq dev2_eq dev3_eq dev4_eq dev5_eq dev6_eq dev7_eq dev8_eq dev9_eq dev10_eq dev11_eq dev12_eq dev13_eq dev14_eq dev15_eq
  dev16_eq dev17_eq dev18_eq dev19_eq dev20_eq dev21_eq dev22_eq dev23_eq dev24_eq dev25_eq dev26_eq dev27_eq dev28_eq dev29_eq dev30_eq

/-- Owing nothing, whatever waits were recorded, is what the invariant after the point asks. -/
theorem owes_post (c : Dev nD) {W' : Waits sig Unit} :
    (owes (c : Thread nD τ) 0 W' : sProp 𝕄)
      ⊢ iprop(∃ W : Waits sig Unit, ⌜(↑W : Set (SemLoc sig × Unit)) ⊆ (dats m ρ 0 c).bound () t₀.succ⌝ ∗ owes (c : Thread nD τ) 0 W) := by
  iintro H; iexists W'; isplitr; · ipureintro; exact fun _ _ => Or.inl trivial
  iexact H

set_option maxHeartbeats 3200000 in
/-- The body on device `c`: fifteen signals, the column maxima, the barrier wait, fifteen copies, fifteen receive
    waits, the maximum of sixteen rows, fifteen send waits. -/
theorem sound_body (c : Dev nD) :
    bodyPre m ρ c ⊢ wp frame (wpE (defs₀ (F := F)) 𝒱₀ c none) Set.univ (bodyAt0 (F := F) t₀) (fun _ => bodyPost m ρ c) := by
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => bodyPost m ρ c)
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel
  simp only [semSignalWord, semWaitWord, Prog.lift, Prog.bind_op, Prog.bind_ret, Prog.pure_eq_ret]
  unfold bodyPre Φ₀ start ghost payToks Dat.owesAt Pipeline.owesWithin
  rw [show (dats m ρ 0 c).owed t₀.castSucc = O₀ c from rfl, owed_chain c]
  iintro ⟨⟨⟨⟨%K, #HR, Hpos, HtB, HtR, HtS⟩, HcB, HcR, #Hlev⟩, ⟨%f0, Hrow⟩, ⟨%g0, Hcomm⟩⟩, ⟨%W, %hW, HO⟩, ⟨%d0, %x0, %hx0, Hx⟩, ⟨%d1, %o0, %ho0, Hout⟩⟩
  -- the landing buffer slot by slot, in the order the signals give the slots away
  have hslots : bigSep Finset.univ (fun s : Fin 15 => slotPts (F := F) c s g0) = bigSep Finset.univ (fun j : Fin 15 => slotPts (F := F) c (rev j) g0) :=
    bigSep_univ_equiv revE _
  ihave Hcomm := (Entails.of_eq ((slots_split c g0).trans (hslots.trans (bigSep_fin15 (fun j : Fin 15 => slotPts (F := F) c (rev j) g0))))) $$ Hcomm
  ihave HtB := (Entails.of_eq (bigSep_fin15 (fun j : Fin 15 => dutyTok ER (barCell (fwd c j)) 0 j))) $$ HtB
  ihave Hpos := (Entails.of_eq (ownPos_eq (F := F) c)) $$ Hpos
  icases Hcomm with ⟨Hs0, Hs1, Hs2, Hs3, Hs4, Hs5, Hs6, Hs7, Hs8, Hs9, Hs10, Hs11, Hs12, Hs13, Hs14⟩
  icases HtB with ⟨Htb0, Htb1, Htb2, Htb3, Htb4, Htb5, Htb6, Htb7, Htb8, Htb9, Htb10, Htb11, Htb12, Htb13, Htb14⟩
  unfold slotPts
  -- what each signal reads: the target's barrier invariant and round, and that the own slot's receive cell is at round 0
  ihave #HIb0 := (inv_bar m ρ K (fwd c 0)) $$ HR; ihave #HRb0 := (reached_bar m ρ K (fwd c 0)) $$ HR; ihave #HRv0 := (reached_recv m ρ K c (rev 0)) $$ HR
  ihave #HIb1 := (inv_bar m ρ K (fwd c 1)) $$ HR; ihave #HRb1 := (reached_bar m ρ K (fwd c 1)) $$ HR; ihave #HRv1 := (reached_recv m ρ K c (rev 1)) $$ HR
  ihave #HIb2 := (inv_bar m ρ K (fwd c 2)) $$ HR; ihave #HRb2 := (reached_bar m ρ K (fwd c 2)) $$ HR; ihave #HRv2 := (reached_recv m ρ K c (rev 2)) $$ HR
  ihave #HIb3 := (inv_bar m ρ K (fwd c 3)) $$ HR; ihave #HRb3 := (reached_bar m ρ K (fwd c 3)) $$ HR; ihave #HRv3 := (reached_recv m ρ K c (rev 3)) $$ HR
  ihave #HIb4 := (inv_bar m ρ K (fwd c 4)) $$ HR; ihave #HRb4 := (reached_bar m ρ K (fwd c 4)) $$ HR; ihave #HRv4 := (reached_recv m ρ K c (rev 4)) $$ HR
  ihave #HIb5 := (inv_bar m ρ K (fwd c 5)) $$ HR; ihave #HRb5 := (reached_bar m ρ K (fwd c 5)) $$ HR; ihave #HRv5 := (reached_recv m ρ K c (rev 5)) $$ HR
  ihave #HIb6 := (inv_bar m ρ K (fwd c 6)) $$ HR; ihave #HRb6 := (reached_bar m ρ K (fwd c 6)) $$ HR; ihave #HRv6 := (reached_recv m ρ K c (rev 6)) $$ HR
  ihave #HIb7 := (inv_bar m ρ K (fwd c 7)) $$ HR; ihave #HRb7 := (reached_bar m ρ K (fwd c 7)) $$ HR; ihave #HRv7 := (reached_recv m ρ K c (rev 7)) $$ HR
  ihave #HIb8 := (inv_bar m ρ K (fwd c 8)) $$ HR; ihave #HRb8 := (reached_bar m ρ K (fwd c 8)) $$ HR; ihave #HRv8 := (reached_recv m ρ K c (rev 8)) $$ HR
  ihave #HIb9 := (inv_bar m ρ K (fwd c 9)) $$ HR; ihave #HRb9 := (reached_bar m ρ K (fwd c 9)) $$ HR; ihave #HRv9 := (reached_recv m ρ K c (rev 9)) $$ HR
  ihave #HIb10 := (inv_bar m ρ K (fwd c 10)) $$ HR; ihave #HRb10 := (reached_bar m ρ K (fwd c 10)) $$ HR; ihave #HRv10 := (reached_recv m ρ K c (rev 10)) $$ HR
  ihave #HIb11 := (inv_bar m ρ K (fwd c 11)) $$ HR; ihave #HRb11 := (reached_bar m ρ K (fwd c 11)) $$ HR; ihave #HRv11 := (reached_recv m ρ K c (rev 11)) $$ HR
  ihave #HIb12 := (inv_bar m ρ K (fwd c 12)) $$ HR; ihave #HRb12 := (reached_bar m ρ K (fwd c 12)) $$ HR; ihave #HRv12 := (reached_recv m ρ K c (rev 12)) $$ HR
  ihave #HIb13 := (inv_bar m ρ K (fwd c 13)) $$ HR; ihave #HRb13 := (reached_bar m ρ K (fwd c 13)) $$ HR; ihave #HRv13 := (reached_recv m ρ K c (rev 13)) $$ HR
  ihave #HIb14 := (inv_bar m ρ K (fwd c 14)) $$ HR; ihave #HRb14 := (reached_bar m ρ K (fwd c 14)) $$ HR; ihave #HRv14 := (reached_recv m ρ K c (rev 14)) $$ HR
  icases Hpos with ⟨HpB, HpS, HpR⟩
  ihave Hx := (Entails.of_eq (x_pts (F := F) c fullShare x0)) $$ Hx
  ihave Hout := (Entails.of_eq (o_pts (F := F) c fullShare o0)) $$ Hout
  ihave Hrow := (Entails.of_eq (l_pts (F := F) c fullShare f0)) $$ Hrow
  ihave #HIB := (inv_bar m ρ K c) $$ HR
  have hbar := mayWait_bar (F := F) c
  have hx : x0 = xstg m ρ c := by rw [hx0]; unfold Dat.before; rw [if_pos (fetch0_0 t₀)]; rfl
  subst hx
  sl_exec
  -- the own row now holds the column maxima; the copies borrow a share each
  ihave Hrow := (Entails.of_eq (congrArg (fun f => ((lM : Memref sig .tc .vmem S1x1024 .f32).view.loc (c : Thread nD τ) ↦[(lM : Memref sig .tc .vmem S1x1024 .f32).view.set]{fullShare} f : sProp 𝕄)) (row_after m ρ c f0))) $$ Hrow
  ihave Hrow := (Entails.of_eq (l_pts (F := F) c fullShare (rowMax m ρ c)).symm) $$ Hrow
  ihave Hrow := ((row_split (F := F) c (rowMax m ρ c)).1) $$ Hrow
  icases Hrow with ⟨Hqs, Hqr⟩
  ihave Hqs := (Entails.of_eq (bigSep_fin15 _)) $$ Hqs
  icases Hqs with ⟨Hq0, Hq1, Hq2, Hq3, Hq4, Hq5, Hq6, Hq7, Hq8, Hq9, Hq10, Hq11, Hq12, Hq13, Hq14⟩
  -- the barrier's payloads: each other device's slot for this device's row, and its receive cell's round
  ihave Hp := (Entails.of_eq ((bar_pays m ρ c).trans (bigSep_fin15 _))) $$ HpB_pay1
  icases Hp with ⟨⟨⟨%fd0, Hd0⟩, #Hrr0⟩, ⟨⟨%fd1, Hd1⟩, #Hrr1⟩, ⟨⟨%fd2, Hd2⟩, #Hrr2⟩, ⟨⟨%fd3, Hd3⟩, #Hrr3⟩, ⟨⟨%fd4, Hd4⟩, #Hrr4⟩,
    ⟨⟨%fd5, Hd5⟩, #Hrr5⟩, ⟨⟨%fd6, Hd6⟩, #Hrr6⟩, ⟨⟨%fd7, Hd7⟩, #Hrr7⟩, ⟨⟨%fd8, Hd8⟩, #Hrr8⟩, ⟨⟨%fd9, Hd9⟩, #Hrr9⟩,
    ⟨⟨%fd10, Hd10⟩, #Hrr10⟩, ⟨⟨%fd11, Hd11⟩, #Hrr11⟩, ⟨⟨%fd12, Hd12⟩, #Hrr12⟩, ⟨⟨%fd13, Hd13⟩, #Hrr13⟩, ⟨⟨%fd14, Hd14⟩, #Hrr14⟩⟩
  ihave HtS := (Entails.of_eq (bigSep_fin15 _)) $$ HtS
  icases HtS with ⟨Hts0, Hts1, Hts2, Hts3, Hts4, Hts5, Hts6, Hts7, Hts8, Hts9, Hts10, Hts11, Hts12, Hts13, Hts14⟩
  ihave HtR := (Entails.of_eq (bigSep_fin15 _)) $$ HtR
  icases HtR with ⟨Htr0, Htr1, Htr2, Htr3, Htr4, Htr5, Htr6, Htr7, Htr8, Htr9, Htr10, Htr11, Htr12, Htr13, Htr14⟩
  ihave HO := (Entails.of_eq (congrArg (fun O => (owes (c : Thread nD τ) O (insert (SemLoc.reg barS, ()) W) : sProp 𝕄)) (owedRecvFrom_zero c).symm)) $$ HO
  -- what each copy reads: its send cell's invariant and round, the target's receive cell's invariant
  ihave #HIs0 := (inv_send m ρ K c 0) $$ HR; ihave #HRs0 := (reached_send m ρ K c 0) $$ HR; ihave #HIr0 := (inv_recv m ρ K (fwd c 0) 0) $$ HR
  ihave #HIs1 := (inv_send m ρ K c 1) $$ HR; ihave #HRs1 := (reached_send m ρ K c 1) $$ HR; ihave #HIr1 := (inv_recv m ρ K (fwd c 1) 1) $$ HR
  ihave #HIs2 := (inv_send m ρ K c 2) $$ HR; ihave #HRs2 := (reached_send m ρ K c 2) $$ HR; ihave #HIr2 := (inv_recv m ρ K (fwd c 2) 2) $$ HR
  ihave #HIs3 := (inv_send m ρ K c 3) $$ HR; ihave #HRs3 := (reached_send m ρ K c 3) $$ HR; ihave #HIr3 := (inv_recv m ρ K (fwd c 3) 3) $$ HR
  ihave #HIs4 := (inv_send m ρ K c 4) $$ HR; ihave #HRs4 := (reached_send m ρ K c 4) $$ HR; ihave #HIr4 := (inv_recv m ρ K (fwd c 4) 4) $$ HR
  ihave #HIs5 := (inv_send m ρ K c 5) $$ HR; ihave #HRs5 := (reached_send m ρ K c 5) $$ HR; ihave #HIr5 := (inv_recv m ρ K (fwd c 5) 5) $$ HR
  ihave #HIs6 := (inv_send m ρ K c 6) $$ HR; ihave #HRs6 := (reached_send m ρ K c 6) $$ HR; ihave #HIr6 := (inv_recv m ρ K (fwd c 6) 6) $$ HR
  ihave #HIs7 := (inv_send m ρ K c 7) $$ HR; ihave #HRs7 := (reached_send m ρ K c 7) $$ HR; ihave #HIr7 := (inv_recv m ρ K (fwd c 7) 7) $$ HR
  ihave #HIs8 := (inv_send m ρ K c 8) $$ HR; ihave #HRs8 := (reached_send m ρ K c 8) $$ HR; ihave #HIr8 := (inv_recv m ρ K (fwd c 8) 8) $$ HR
  ihave #HIs9 := (inv_send m ρ K c 9) $$ HR; ihave #HRs9 := (reached_send m ρ K c 9) $$ HR; ihave #HIr9 := (inv_recv m ρ K (fwd c 9) 9) $$ HR
  ihave #HIs10 := (inv_send m ρ K c 10) $$ HR; ihave #HRs10 := (reached_send m ρ K c 10) $$ HR; ihave #HIr10 := (inv_recv m ρ K (fwd c 10) 10) $$ HR
  ihave #HIs11 := (inv_send m ρ K c 11) $$ HR; ihave #HRs11 := (reached_send m ρ K c 11) $$ HR; ihave #HIr11 := (inv_recv m ρ K (fwd c 11) 11) $$ HR
  ihave #HIs12 := (inv_send m ρ K c 12) $$ HR; ihave #HRs12 := (reached_send m ρ K c 12) $$ HR; ihave #HIr12 := (inv_recv m ρ K (fwd c 12) 12) $$ HR
  ihave #HIs13 := (inv_send m ρ K c 13) $$ HR; ihave #HRs13 := (reached_send m ρ K c 13) $$ HR; ihave #HIr13 := (inv_recv m ρ K (fwd c 13) 13) $$ HR
  ihave #HIs14 := (inv_send m ρ K c 14) $$ HR; ihave #HRs14 := (reached_send m ρ K c 14) $$ HR; ihave #HIr14 := (inv_recv m ρ K (fwd c 14) 14) $$ HR
  -- copy 0
  iapply (wp_send_slot m ρ K c _ 0 (dev16_eq c) fd0 (insert (SemLoc.reg barS, ()) W)) $$ [Hq0 Hd0 HO Hts0 Htr0]
  · isplitr; · iexact HIs0
    isplitr; · iexact HIr0
    isplitl [Hq0]; · iexact Hq0
    isplitl [Hd0]; · iexact Hd0
    isplitl [HO]; · iexact HO
    isplitl [Hts0]; · iexact Hts0
    isplitr; · iexact HRs0
    isplitl [Htr0]; · iexact Htr0
    iexact Hrr0
  iintro ⟨HcS0, HO⟩
  -- copy 1
  iapply (wp_send_slot m ρ K c _ 1 (dev17_eq c) fd1 (insert (SemLoc.reg barS, ()) W)) $$ [Hq1 Hd1 HO Hts1 Htr1]
  · isplitr; · iexact HIs1
    isplitr; · iexact HIr1
    isplitl [Hq1]; · iexact Hq1
    isplitl [Hd1]; · iexact Hd1
    isplitl [HO]; · iexact HO
    isplitl [Hts1]; · iexact Hts1
    isplitr; · iexact HRs1
    isplitl [Htr1]; · iexact Htr1
    iexact Hrr1
  iintro ⟨HcS1, HO⟩
  -- copy 2
  iapply (wp_send_slot m ρ K c _ 2 (dev18_eq c) fd2 (insert (SemLoc.reg barS, ()) W)) $$ [Hq2 Hd2 HO Hts2 Htr2]
  · isplitr; · iexact HIs2
    isplitr; · iexact HIr2
    isplitl [Hq2]; · iexact Hq2
    isplitl [Hd2]; · iexact Hd2
    isplitl [HO]; · iexact HO
    isplitl [Hts2]; · iexact Hts2
    isplitr; · iexact HRs2
    isplitl [Htr2]; · iexact Htr2
    iexact Hrr2
  iintro ⟨HcS2, HO⟩
  -- copy 3
  iapply (wp_send_slot m ρ K c _ 3 (dev19_eq c) fd3 (insert (SemLoc.reg barS, ()) W)) $$ [Hq3 Hd3 HO Hts3 Htr3]
  · isplitr; · iexact HIs3
    isplitr; · iexact HIr3
    isplitl [Hq3]; · iexact Hq3
    isplitl [Hd3]; · iexact Hd3
    isplitl [HO]; · iexact HO
    isplitl [Hts3]; · iexact Hts3
    isplitr; · iexact HRs3
    isplitl [Htr3]; · iexact Htr3
    iexact Hrr3
  iintro ⟨HcS3, HO⟩
  -- copy 4
  iapply (wp_send_slot m ρ K c _ 4 (dev20_eq c) fd4 (insert (SemLoc.reg barS, ()) W)) $$ [Hq4 Hd4 HO Hts4 Htr4]
  · isplitr; · iexact HIs4
    isplitr; · iexact HIr4
    isplitl [Hq4]; · iexact Hq4
    isplitl [Hd4]; · iexact Hd4
    isplitl [HO]; · iexact HO
    isplitl [Hts4]; · iexact Hts4
    isplitr; · iexact HRs4
    isplitl [Htr4]; · iexact Htr4
    iexact Hrr4
  iintro ⟨HcS4, HO⟩
  -- copy 5
  iapply (wp_send_slot m ρ K c _ 5 (dev21_eq c) fd5 (insert (SemLoc.reg barS, ()) W)) $$ [Hq5 Hd5 HO Hts5 Htr5]
  · isplitr; · iexact HIs5
    isplitr; · iexact HIr5
    isplitl [Hq5]; · iexact Hq5
    isplitl [Hd5]; · iexact Hd5
    isplitl [HO]; · iexact HO
    isplitl [Hts5]; · iexact Hts5
    isplitr; · iexact HRs5
    isplitl [Htr5]; · iexact Htr5
    iexact Hrr5
  iintro ⟨HcS5, HO⟩
  -- copy 6
  iapply (wp_send_slot m ρ K c _ 6 (dev22_eq c) fd6 (insert (SemLoc.reg barS, ()) W)) $$ [Hq6 Hd6 HO Hts6 Htr6]
  · isplitr; · iexact HIs6
    isplitr; · iexact HIr6
    isplitl [Hq6]; · iexact Hq6
    isplitl [Hd6]; · iexact Hd6
    isplitl [HO]; · iexact HO
    isplitl [Hts6]; · iexact Hts6
    isplitr; · iexact HRs6
    isplitl [Htr6]; · iexact Htr6
    iexact Hrr6
  iintro ⟨HcS6, HO⟩
  -- copy 7
  iapply (wp_send_slot m ρ K c _ 7 (dev23_eq c) fd7 (insert (SemLoc.reg barS, ()) W)) $$ [Hq7 Hd7 HO Hts7 Htr7]
  · isplitr; · iexact HIs7
    isplitr; · iexact HIr7
    isplitl [Hq7]; · iexact Hq7
    isplitl [Hd7]; · iexact Hd7
    isplitl [HO]; · iexact HO
    isplitl [Hts7]; · iexact Hts7
    isplitr; · iexact HRs7
    isplitl [Htr7]; · iexact Htr7
    iexact Hrr7
  iintro ⟨HcS7, HO⟩
  -- copy 8
  iapply (wp_send_slot m ρ K c _ 8 (dev24_eq c) fd8 (insert (SemLoc.reg barS, ()) W)) $$ [Hq8 Hd8 HO Hts8 Htr8]
  · isplitr; · iexact HIs8
    isplitr; · iexact HIr8
    isplitl [Hq8]; · iexact Hq8
    isplitl [Hd8]; · iexact Hd8
    isplitl [HO]; · iexact HO
    isplitl [Hts8]; · iexact Hts8
    isplitr; · iexact HRs8
    isplitl [Htr8]; · iexact Htr8
    iexact Hrr8
  iintro ⟨HcS8, HO⟩
  -- copy 9
  iapply (wp_send_slot m ρ K c _ 9 (dev25_eq c) fd9 (insert (SemLoc.reg barS, ()) W)) $$ [Hq9 Hd9 HO Hts9 Htr9]
  · isplitr; · iexact HIs9
    isplitr; · iexact HIr9
    isplitl [Hq9]; · iexact Hq9
    isplitl [Hd9]; · iexact Hd9
    isplitl [HO]; · iexact HO
    isplitl [Hts9]; · iexact Hts9
    isplitr; · iexact HRs9
    isplitl [Htr9]; · iexact Htr9
    iexact Hrr9
  iintro ⟨HcS9, HO⟩
  -- copy 10
  iapply (wp_send_slot m ρ K c _ 10 (dev26_eq c) fd10 (insert (SemLoc.reg barS, ()) W)) $$ [Hq10 Hd10 HO Hts10 Htr10]
  · isplitr; · iexact HIs10
    isplitr; · iexact HIr10
    isplitl [Hq10]; · iexact Hq10
    isplitl [Hd10]; · iexact Hd10
    isplitl [HO]; · iexact HO
    isplitl [Hts10]; · iexact Hts10
    isplitr; · iexact HRs10
    isplitl [Htr10]; · iexact Htr10
    iexact Hrr10
  iintro ⟨HcS10, HO⟩
  -- copy 11
  iapply (wp_send_slot m ρ K c _ 11 (dev27_eq c) fd11 (insert (SemLoc.reg barS, ()) W)) $$ [Hq11 Hd11 HO Hts11 Htr11]
  · isplitr; · iexact HIs11
    isplitr; · iexact HIr11
    isplitl [Hq11]; · iexact Hq11
    isplitl [Hd11]; · iexact Hd11
    isplitl [HO]; · iexact HO
    isplitl [Hts11]; · iexact Hts11
    isplitr; · iexact HRs11
    isplitl [Htr11]; · iexact Htr11
    iexact Hrr11
  iintro ⟨HcS11, HO⟩
  -- copy 12
  iapply (wp_send_slot m ρ K c _ 12 (dev28_eq c) fd12 (insert (SemLoc.reg barS, ()) W)) $$ [Hq12 Hd12 HO Hts12 Htr12]
  · isplitr; · iexact HIs12
    isplitr; · iexact HIr12
    isplitl [Hq12]; · iexact Hq12
    isplitl [Hd12]; · iexact Hd12
    isplitl [HO]; · iexact HO
    isplitl [Hts12]; · iexact Hts12
    isplitr; · iexact HRs12
    isplitl [Htr12]; · iexact Htr12
    iexact Hrr12
  iintro ⟨HcS12, HO⟩
  -- copy 13
  iapply (wp_send_slot m ρ K c _ 13 (dev29_eq c) fd13 (insert (SemLoc.reg barS, ()) W)) $$ [Hq13 Hd13 HO Hts13 Htr13]
  · isplitr; · iexact HIs13
    isplitr; · iexact HIr13
    isplitl [Hq13]; · iexact Hq13
    isplitl [Hd13]; · iexact Hd13
    isplitl [HO]; · iexact HO
    isplitl [Hts13]; · iexact Hts13
    isplitr; · iexact HRs13
    isplitl [Htr13]; · iexact Htr13
    iexact Hrr13
  iintro ⟨HcS13, HO⟩
  -- copy 14
  iapply (wp_send_slot m ρ K c _ 14 (dev30_eq c) fd14 (insert (SemLoc.reg barS, ()) W)) $$ [Hq14 Hd14 HO Hts14 Htr14]
  · isplitr; · iexact HIs14
    isplitr; · iexact HIr14
    isplitl [Hq14]; · iexact Hq14
    isplitl [Hd14]; · iexact Hd14
    isplitl [HO]; · iexact HO
    isplitl [Hts14]; · iexact Hts14
    isplitr; · iexact HRs14
    isplitl [Htr14]; · iexact Htr14
    iexact Hrr14
  iintro ⟨HcS14, HO⟩
  -- every copy is on its way: nothing is owed any more
  ihave HO := (Entails.of_eq (congrArg (fun O => (owes (c : Thread nD τ) O (insert (SemLoc.reg barS, ()) W) : sProp 𝕄)) (show owedRecvFrom c ((14 : Fin 15).val + 1) = 0 from owedRecvFrom_end c))) $$ HO
  -- the receive cells: their invariants, the credit of one row each, the positions
  ihave #HIv0 := (inv_recv m ρ K c 0) $$ HR; ihave #HIv1 := (inv_recv m ρ K c 1) $$ HR; ihave #HIv2 := (inv_recv m ρ K c 2) $$ HR
  ihave #HIv3 := (inv_recv m ρ K c 3) $$ HR; ihave #HIv4 := (inv_recv m ρ K c 4) $$ HR; ihave #HIv5 := (inv_recv m ρ K c 5) $$ HR
  ihave #HIv6 := (inv_recv m ρ K c 6) $$ HR; ihave #HIv7 := (inv_recv m ρ K c 7) $$ HR; ihave #HIv8 := (inv_recv m ρ K c 8) $$ HR
  ihave #HIv9 := (inv_recv m ρ K c 9) $$ HR; ihave #HIv10 := (inv_recv m ρ K c 10) $$ HR; ihave #HIv11 := (inv_recv m ρ K c 11) $$ HR
  ihave #HIv12 := (inv_recv m ρ K c 12) $$ HR; ihave #HIv13 := (inv_recv m ρ K c 13) $$ HR; ihave #HIv14 := (inv_recv m ρ K c 14) $$ HR
  ihave HcR := (Entails.of_eq (bigSep_fin15 _)) $$ HcR
  icases HcR with ⟨HcR0, HcR1, HcR2, HcR3, HcR4, HcR5, HcR6, HcR7, HcR8, HcR9, HcR10, HcR11, HcR12, HcR13, HcR14⟩
  ihave HpR := (Entails.of_eq (bigSep_fin15 _)) $$ HpR
  icases HpR with ⟨HpR0, HpR1, HpR2, HpR3, HpR4, HpR5, HpR6, HpR7, HpR8, HpR9, HpR10, HpR11, HpR12, HpR13, HpR14⟩
  ihave HpS := (Entails.of_eq (bigSep_fin15 _)) $$ HpS
  icases HpS with ⟨HpS0, HpS1, HpS2, HpS3, HpS4, HpS5, HpS6, HpS7, HpS8, HpS9, HpS10, HpS11, HpS12, HpS13, HpS14⟩
  sl_exec
  -- the fifteen slots are the landing buffer again, holding every other device's row
  ihave Hcomm := (Entails.of_eq ((bigSep_fin15 (fun j : Fin 15 => (sched (F := F) m ρ).payload (recvCell c j) 0 (0 : Fin 15))).symm.trans (comm_joined m ρ c)))
    $$ [HpR0_pay1 HpR1_pay1 HpR2_pay1 HpR3_pay1 HpR4_pay1 HpR5_pay1 HpR6_pay1 HpR7_pay1 HpR8_pay1 HpR9_pay1 HpR10_pay1 HpR11_pay1 HpR12_pay1 HpR13_pay1 HpR14_pay1]
  · isplitl [HpR0_pay1]; · iexact HpR0_pay1
    isplitl [HpR1_pay1]; · iexact HpR1_pay1
    isplitl [HpR2_pay1]; · iexact HpR2_pay1
    isplitl [HpR3_pay1]; · iexact HpR3_pay1
    isplitl [HpR4_pay1]; · iexact HpR4_pay1
    isplitl [HpR5_pay1]; · iexact HpR5_pay1
    isplitl [HpR6_pay1]; · iexact HpR6_pay1
    isplitl [HpR7_pay1]; · iexact HpR7_pay1
    isplitl [HpR8_pay1]; · iexact HpR8_pay1
    isplitl [HpR9_pay1]; · iexact HpR9_pay1
    isplitl [HpR10_pay1]; · iexact HpR10_pay1
    isplitl [HpR11_pay1]; · iexact HpR11_pay1
    isplitl [HpR12_pay1]; · iexact HpR12_pay1
    isplitl [HpR13_pay1]; · iexact HpR13_pay1
    iexact HpR14_pay1
  sl_exec
  -- the thirty own cells, their one round consumed, close: their counters at zero are the device's again
  imod (close_all m ρ K c) $$ [HpS0 HpS1 HpS2 HpS3 HpS4 HpS5 HpS6 HpS7 HpS8 HpS9 HpS10 HpS11 HpS12 HpS13 HpS14
      HpR0 HpR1 HpR2 HpR3 HpR4 HpR5 HpR6 HpR7 HpR8 HpR9 HpR10 HpR11 HpR12 HpR13 HpR14] with Hz
  · isplitr; · iexact HR
    isplitl [HpS0 HpS1 HpS2 HpS3 HpS4 HpS5 HpS6 HpS7 HpS8 HpS9 HpS10 HpS11 HpS12 HpS13 HpS14]
    · iapply (Entails.of_eq (bigSep_fin15 (fun j : Fin 15 => (atPos ER (sendCell c j) 1 ∅ 0 : sProp 𝕄))).symm)
      isplitl [HpS0]; · iexact HpS0
      isplitl [HpS1]; · iexact HpS1
      isplitl [HpS2]; · iexact HpS2
      isplitl [HpS3]; · iexact HpS3
      isplitl [HpS4]; · iexact HpS4
      isplitl [HpS5]; · iexact HpS5
      isplitl [HpS6]; · iexact HpS6
      isplitl [HpS7]; · iexact HpS7
      isplitl [HpS8]; · iexact HpS8
      isplitl [HpS9]; · iexact HpS9
      isplitl [HpS10]; · iexact HpS10
      isplitl [HpS11]; · iexact HpS11
      isplitl [HpS12]; · iexact HpS12
      isplitl [HpS13]; · iexact HpS13
      iexact HpS14
    · iapply (Entails.of_eq (bigSep_fin15 (fun j : Fin 15 => (atPos ER (recvCell c j) 1 ∅ 0 : sProp 𝕄))).symm)
      isplitl [HpR0]; · iexact HpR0
      isplitl [HpR1]; · iexact HpR1
      isplitl [HpR2]; · iexact HpR2
      isplitl [HpR3]; · iexact HpR3
      isplitl [HpR4]; · iexact HpR4
      isplitl [HpR5]; · iexact HpR5
      isplitl [HpR6]; · iexact HpR6
      isplitl [HpR7]; · iexact HpR7
      isplitl [HpR8]; · iexact HpR8
      isplitl [HpR9]; · iexact HpR9
      isplitl [HpR10]; · iexact HpR10
      isplitl [HpR11]; · iexact HpR11
      isplitl [HpR12]; · iexact HpR12
      isplitl [HpR13]; · iexact HpR13
      iexact HpR14
  -- the fifteen shares and the one kept are the own row again
  ihave Hrow := (row_joined m ρ c) $$ [HpS0_pay1 HpS1_pay1 HpS2_pay1 HpS3_pay1 HpS4_pay1 HpS5_pay1 HpS6_pay1 HpS7_pay1 HpS8_pay1 HpS9_pay1
      HpS10_pay1 HpS11_pay1 HpS12_pay1 HpS13_pay1 HpS14_pay1 Hqr]
  · isplitr [Hqr]
    · iapply (Entails.of_eq (bigSep_fin15 (fun j : Fin 15 => (sched (F := F) m ρ).payload (sendCell c j) 0 (0 : Fin 15))).symm)
      isplitl [HpS0_pay1]; · iexact HpS0_pay1
      isplitl [HpS1_pay1]; · iexact HpS1_pay1
      isplitl [HpS2_pay1]; · iexact HpS2_pay1
      isplitl [HpS3_pay1]; · iexact HpS3_pay1
      isplitl [HpS4_pay1]; · iexact HpS4_pay1
      isplitl [HpS5_pay1]; · iexact HpS5_pay1
      isplitl [HpS6_pay1]; · iexact HpS6_pay1
      isplitl [HpS7_pay1]; · iexact HpS7_pay1
      isplitl [HpS8_pay1]; · iexact HpS8_pay1
      isplitl [HpS9_pay1]; · iexact HpS9_pay1
      isplitl [HpS10_pay1]; · iexact HpS10_pay1
      isplitl [HpS11_pay1]; · iexact HpS11_pay1
      isplitl [HpS12_pay1]; · iexact HpS12_pay1
      isplitl [HpS13_pay1]; · iexact HpS13_pay1
      iexact HpS14_pay1
    · iexact Hqr
  -- the staged result holds the maximum of the sixteen rows; the buffers in the shape the invariant names them
  ihave Hout := (Entails.of_eq (congrArg (fun f => ((oM : Memref sig .tc .vmem S1x1024 .f32).view.loc (c : Thread nD τ) ↦[(oM : Memref sig .tc .vmem S1x1024 .f32).view.set]{fullShare} f : sProp 𝕄)) (out_after m ρ c o0))) $$ Hout
  ihave Hout := (Entails.of_eq (o_pts (F := F) c fullShare (outAt m ρ c)).symm) $$ Hout
  ihave Hx := (Entails.of_eq (x_pts (F := F) c fullShare (xstg m ρ c)).symm) $$ Hx
  ihave Hcomm := (Entails.of_eq (c_pts (F := F) c fullShare (landedAll m ρ c)).symm) $$ Hcomm
  rw [wp_ret]; imodintro
  unfold bodyPost Φ₁ Dat.owesAt Pipeline.owesWithin
  rw [show (dats m ρ 0 c).owed t₀.succ = 0 from rfl]
  isplitl [Hrow Hcomm Hz]
  · isplitl [Hrow]; · iexact Hrow
    isplitl [Hcomm]; · iexists _; iexact Hcomm
    iexact Hz
  isplitl [HO]
  · iapply (owes_post m ρ c); iexact HO
  isplitl [Hx]
  · iexists _; isplitr; · (ipureintro; rfl)
    iexact Hx
  iexists _; isplitr; · (ipureintro; rfl)
  iexact Hout

/-- The library's body obligation on core `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ (bodyAt0 (F := F) t₀) (fun _ => bodyPost m ρ c)
  exact sound_body m ρ c

end Cert.Kernel.Proto

end
-- ==== Proof.Kernel.Launch.lean ====
/-
  The launch: the protocol's ghost state dealt to the sixteen devices, each device's cells allocated, the duty
  tokens handed to the devices that pay them, the launch credit read off what the devices owe, and the run of
  @main on all devices from the body obligation; then what the result and argument arrays hold at the end.
-/
import proofs.«900915_g7700000000000916_dist_max_ax0_shard0_i_m2048_n1024_v7x_i16_f32_1_alg».proof.Proof.Kernel.Body

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CK → SemLoc sig) := by
  rintro (⟨⟩ | ⟨b, j⟩) (⟨⟩ | ⟨b', j'⟩) h
  · rfl
  · cases b' <;> exact absurd h (fun h' => by cases h')
  · cases b <;> exact absurd h (fun h' => by cases h')
  · have hj : ∀ {x y : Fin 15}, x.val = y.val → x = y := fun h => Fin.ext h
    cases b <;> cases b'
    · have h1 := congrArg (fun q : DmaSem sig => q.val) (SemLoc.dma.inj h)
      have h2 : 2 + j.val = 2 + j'.val := h1
      rw [hj (by omega : j.val = j'.val)]
    · have h1 := congrArg (fun q : DmaSem sig => q.val) (SemLoc.dma.inj h)
      have h2 : 2 + j.val = 17 + j'.val := h1
      have := j.isLt; omega
    · have h1 := congrArg (fun q : DmaSem sig => q.val) (SemLoc.dma.inj h)
      have h2 : 17 + j.val = 2 + j'.val := h1
      have := j'.isLt; omega
    · have h1 := congrArg (fun q : DmaSem sig => q.val) (SemLoc.dma.inj h)
      have h2 : 17 + j.val = 17 + j'.val := h1
      rw [hj (by omega : j.val = j'.val)]

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: every device's thirty-one. -/
def ringCells : Finset (GSem nD τ sig) := Finset.univ.map ⟨kcell, kcell_injective⟩

/-- A device's own cells' duty tokens as minted: its barrier cell's fifteen, and the one of each send and receive cell. -/
abbrev TK : Type := Fin 15 ⊕ (Bool × Fin 15)
abbrev tokOf (cj : Dev nD × TK) : GSem nD τ sig × ℕ × Fin 15 := match cj.2 with
  | .inl j => (barCell cj.1, 0, j)
  | .inr k => (kcell (cj.1, .inr k), 0, 0)
theorem tokOf_injective : Function.Injective (tokOf : Dev nD × TK → GSem nD τ sig × ℕ × Fin 15) := by
  rintro ⟨c, (j | k)⟩ ⟨c', (j' | k')⟩ h
  · have h1 : c = c' := congrArg (fun x : GSem nD τ sig × ℕ × Fin 15 => x.1.1.1) h
    have h2 : j = j' := congrArg (fun x : GSem nD τ sig × ℕ × Fin 15 => x.2.2) h
    rw [h1, h2]
  · have h2 : (SemLoc.reg barS : SemLoc sig) = osem k' := congrArg (fun x : GSem nD τ sig × ℕ × Fin 15 => x.1.2) h
    obtain ⟨b', j'⟩ := k'
    cases b' <;> exact absurd h2 (fun h' => by cases h')
  · have h2 : osem k = (SemLoc.reg barS : SemLoc sig) := congrArg (fun x : GSem nD τ sig × ℕ × Fin 15 => x.1.2) h
    obtain ⟨b, j⟩ := k
    cases b <;> exact absurd h2 (fun h' => by cases h')
  · have h1 : kcell (c, .inr k) = kcell (c', .inr k') := congrArg (fun x : GSem nD τ sig × ℕ × Fin 15 => x.1) h
    have h2 := kcell_injective h1
    have h3 : c = c' := congrArg Prod.fst h2
    have h4 : (Sum.inr k : CK) = Sum.inr k' := congrArg Prod.snd h2
    rw [h3, Sum.inr.inj h4]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ (bigSep Finset.univ fun k : Bool × Fin 15 => dutyTok ER (kcell (c, .inr k)) 0 (0 : Fin 15)))

/-- What the launch element deals device `c`. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_bool (Φ : Bool → sProp 𝕄) : bigSep Finset.univ Φ = iprop(Φ false ∗ Φ true) := bigSep_univ_eq_bigSepL [false, true] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_CK (Φ : CK → sProp 𝕄) : bigSep Finset.univ Φ = iprop(Φ (.inl ()) ∗ bigSep Finset.univ fun k : Bool × Fin 15 => Φ (.inr k)) := by
  rw [bigSep_univ_sum, bigSep_univ_of_subsingleton ()]; rfl

omit [FloatOps F] in
/-- The thirty own semaphores and the barrier semaphore are the device's thirty-one cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m ρ K ∗ ownPos c ∗ payToks c) ⊢ G' m ρ c := by
  unfold G' ghost
  iintro H
  iexists K
  iexact H

omit [FloatOps F] in
/-- A family over (device, offset) may be read at the device that offset further on. -/
theorem bigSep_shift (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (fwd c j) j := by
  rw [bigSep_univ_comm, bigSep_univ_comm (fun c j => Φ (fwd c j) j)]
  exact bigSep_congr fun j _ => bigSep_univ_equiv (shift j) (fun c => Φ c j)

omit [FloatOps F] in
/-- The tokens dealt around: barrier token `j` and the receive token of slot `j` of a device go to the device `j + 1`
    places before it; the send tokens stay. -/
theorem toks_around : (bigSep Finset.univ fun c : Dev nD => (toks c : sProp 𝕄)) ⊢ bigSep Finset.univ fun c : Dev nD => payToks c := by
  have hB (c : Dev nD) : (bigSep Finset.univ fun k : Bool × Fin 15 => (dutyTok ER (kcell (c, .inr k)) 0 (0 : Fin 15) : sProp 𝕄))
      = iprop((bigSep Finset.univ fun j : Fin 15 => dutyTok ER (sendCell c j) 0 (0 : Fin 15))
          ∗ (bigSep Finset.univ fun j : Fin 15 => dutyTok ER (recvCell c j) 0 (0 : Fin 15))) := by
    rw [bigSep_univ_prod, bigSep_bool]; rfl
  unfold toks payToks
  rw [bigSep_congr (s := Finset.univ) (fun (c : Dev nD) _ => congrArg (fun X : sProp 𝕄 => iprop((bigSep Finset.univ fun j : Fin 15 => dutyTok ER (barCell c) 0 j) ∗ X)) (hB c)),
    bigSep_sep', bigSep_sep', bigSep_sep', bigSep_sep',
    bigSep_shift (fun c j => (dutyTok ER (barCell c) 0 j : sProp 𝕄)), bigSep_shift (fun c j => (dutyTok ER (recvCell c j) 0 (0 : Fin 15) : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (ownPos c : sProp 𝕄)) payToks).symm)
    isplitl [Hat]; · unfold ownPos; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨H0, H1, HS⟩
  isplitr; · iempintro
  isplitl [HS]; · iexact HS
  isplitl [H0] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly
    fair execution of @main terminates, and every final state has each device's windowed arrays at the computed
    contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The `x` block after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the maximum of the sixteen rows. -/
theorem finalA_o (c : Dev nD) : finalA m ρ c (1 : Fin 2) = outAt m ρ c := by
  show (dats m ρ 0 c).arrAt (1 : Fin 2) (t₀.val + 1) = outAt m ρ c
  rw [Dat.arrAt_succ, flush0_1 t₀, if_pos rfl]
  exact Memref.write_access_unit_zero_univ (Elt F) main_v1 (off := fun a => (cfg0.win 1).index t₀ a * (cfg0.win 1).size a)
    (funext fun a => Nat.zero_mul _) _ _ _

/-- The run with both arrays named: the strongest post the claims need. -/
theorem run_values : θ_run (defs (F := F)) (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono (fun r h c => ⟨((h c (1 : Fin 2)).trans (finalA_o m ρ c)), ((h c (0 : Fin 2)).trans (finalA_x m ρ c))⟩) (run_main m ρ)

end Cert.Kernel.Proto

end
-- ==== Proof.Value.lean ====
/-
  The value: on every device the kernel's result row is, column by column, the maximum over all 32768 rows of
  the whole array — its own 2048 rows' maximum joined with the fifteen received rows, which are the other fifteen
  devices' — and so is the reference's.
-/
import proofs.«900915_g7700000000000916_dist_max_ax0_shard0_i_m2048_n1024_v7x_i16_f32_1_alg».proof.Proof.KernelIdeal.Ghost
import proofs.«900915_g7700000000000916_dist_max_ax0_shard0_i_m2048_n1024_v7x_i16_f32_1_alg».proof.Proof.Gen.ReferenceIdeal.Read
import Idealize.ShloMosaic.Lib.Layout
import Idealize.ShloMosaic.PureOps.Ideal.Laws

noncomputable section

namespace Cert.KernelIdeal.Proto.Value

open Cert.KernelIdeal Cert.KernelIdeal.Gen Cert.KernelIdeal.Proto
open Idealize.ShloMosaic Idealize.ShloMosaic.TcCoe Idealize.SL.Sem

open Idealize.ShloMosaic.ValueIdx

/-! ## Maxima as suprema

  Over the extended reals a maximum from −∞ over finitely many values is their supremum, the least upper bound:
  every step below compares suprema by their universal property and computes none. -/

/-- The word 0xFF800000 is −∞, the bottom of the extended reals. -/
private theorem negInf : Ideal.ofBits .f32 0xFF800000#32 = (⊥ : EReal) := by simp [Ideal.ofBits, Ideal.ieee]

/-- The maximum from −∞ over the values of `f` is their supremum. -/
private theorem fold_max_eq_sup {n : Nat} (f : Fin n → EReal) :
    (Finset.univ : Finset (Fin n)).fold max ⊥ f = Finset.univ.sup f :=
  le_antisymm ((Finset.fold_max_le _).2 ⟨bot_le, fun x hx => Finset.le_sup (f := f) hx⟩)
    (Finset.sup_le fun x hx => (Finset.le_fold_max _).2 (Or.inr ⟨x, hx, le_rfl⟩))

/-! ## The kernel's two payloads at a column -/

/-- Column `k` with row `r` put back is the entry (r, k). -/
private theorem lift_rows {n : Nat} (h : (⟨2, ![n, 1024]⟩ : Shape).Reduces [0] (⟨1, ![1024]⟩ : Shape)) (k : Fin 1024)
    (r : Fin ((⟨2, ![n, 1024]⟩ : Shape).size 0)) : h.lift (ix1 k) r = ix2 (⟨r.val, r.isLt⟩ : Fin n) k := by
  funext c; apply Fin.ext
  fin_cases c <;> rfl

/-- A vector of 1024 entries cast to one row, read at (p, k), is entry k. -/
private theorem oneRow_apply (z : FVec Ideal S1024 .f32) (h : S1024.ShapeCasts S1x1024) (p : Fin 1) (k : Fin 1024) :
    shapeCast S1x1024 z h (ix2 p k) = z (ix1 k) :=
  (shapeCast_addUnit_apply ![1024] z h (ix2 p k)).trans (congrArg z (funext fun a => by fin_cases a; rfl))

/-- One row cast to a vector of 1024 entries, read at k, is entry (0, k). -/
private theorem dropRow_apply (z : FVec Ideal S1x1024 .f32) (h : S1x1024.ShapeCasts S1024) (k : Fin 1024) :
    shapeCast S1024 z h (ix1 k) = z (ix2 (0 : Fin 1) k) :=
  (shapeCast_dropUnit_apply ![1024] z h (ix1 k)).trans (congrArg z (funext fun a => by fin_cases a <;> rfl))

/-- Fifteen one-row slots cast to fifteen rows, read at (j, k), is slot j's entry (0, k). -/
private theorem slots_apply (z : FVec Ideal S15x1x1024 .f32) (h : S15x1x1024.ShapeCasts S15x1024) (j : Fin 15) (k : Fin 1024) :
    shapeCast S15x1024 z h (ix2 j k) = z (ix3 j (0 : Fin 1) k) :=
  shapeCast_apply z h (ix2 j k) (ix3 j (0 : Fin 1) k) (by
    rw [Shape.rowMajor_val_three, Shape.rowMajor_val_two]
    show (j.val * 1 + 0) * 1024 + k.val = j.val * 1024 + k.val
    omega)

/-- A maximum-reduction over the rows from −∞, at column k, is the supremum of the column. -/
private theorem rowsMax_apply {n : Nat} (src : FVec Ideal ⟨2, ![n, 1024]⟩ .f32) (h : (⟨2, ![n, 1024]⟩ : Shape).Reduces [0] S1024)
    (hφ : FKind.Formats .f32) (hacc : (0xFF800000#32 : BitVec 32) = FKind.maximumf.neutral .f32 hφ) (k : Fin 1024) :
    multiReduction .maximumf [0] S1024 src 0xFF800000#32 h hφ hacc (ix1 k) = Finset.univ.sup fun r : Fin n => src (ix2 r k) := by
  refine (Ideal.multiReduction_maximumf_single src _ h hφ hacc (ix1 k)).trans ?_
  have hf : (src ∘ h.lift (ix1 k)) = fun r : Fin n => src (ix2 r k) := funext fun r => congrArg src (lift_rows h k r)
  have hb : (FloatOps.ofBits .f32 0xFF800000#32 : Ideal .f32) = (⊥ : EReal) := negInf
  rw [hb]
  exact (congrArg (fun f => Finset.fold max (⊥ : EReal) f (Finset.univ : Finset (Fin n))) hf).trans (fold_max_eq_sup _)

/-- The first payload: the row of column suprema of a 2048 × 1024 block. -/
private theorem pay1_apply (v : Vec Ideal S2048x1024 .f32) (p : Fin 1) (k : Fin 1024) :
    k0_pay1 v (ix2 p k) = Finset.univ.sup fun r : Fin 2048 => v (ix2 r k) := by
  unfold k0_pay1
  refine (oneRow_apply _ _ p k).trans ?_
  rw [shapeCast_self]
  exact rowsMax_apply v _ _ _ k

/-- The second payload: the own row joined with the supremum of the fifteen landed rows. -/
private theorem pay2_apply (a : Vec Ideal S1x1024 .f32) (L : Vec Ideal S15x1x1024 .f32) (p : Fin 1) (k : Fin 1024) :
    k0_pay2 a L (ix2 p k) = max (a (ix2 (0 : Fin 1) k)) (Finset.univ.sup fun j : Fin 15 => L (ix3 j (0 : Fin 1) k)) := by
  unfold k0_pay2
  refine (oneRow_apply _ _ p k).trans ?_
  rw [maximumf_apply, dropRow_apply]
  refine congrArg (max _) ?_
  refine (rowsMax_apply (n := 15) _ _ _ _ k).trans ?_
  exact congrArg (Finset.sup Finset.univ) (funext fun j => slots_apply L _ j k)

/-! ## The reference at a column -/

/-- The reference's result at (p, k) is the supremum of column k over all 32768 rows. -/
private theorem ref_apply (X : (⟨Cert.ReferenceIdeal.S32768x1024, .f32⟩ : BufTy).Contents (Elt Ideal)) (p : Fin 1) (k : Fin 1024) :
    Cert.ReferenceIdeal.Read.val_main_v1 (F := Ideal) X (ix2 p k) = Finset.univ.sup fun r : Fin 32768 => X (ix2 r k) := by
  rw [Cert.ReferenceIdeal.Read.val_main_v1_apply]
  have hi : Cert.ReferenceIdeal.Read.idx_main_v1 (ix2 p k) = ix1 k := funext fun a => by fin_cases a; rfl
  rw [hi]
  unfold Cert.ReferenceIdeal.Read.val_main_v0
  have h : (⟨2, ![32768, 1024]⟩ : Shape).Reduces [0] (⟨1, ![1024]⟩ : Shape) := by decide
  have e := Host.reduce_eq_fold_single (α := Ideal .f32) (s := ⟨2, ![32768, 1024]⟩) (t := ⟨1, ![1024]⟩) (a := 0)
    (FloatOps.maximumf (F := Ideal) (φ := .f32)) X (Cert.ReferenceIdeal.Read.val_main_cst (F := Ideal))
    Cert.ReferenceIdeal.Gen.reducesTo_S32768x1024_S1024_d0 h Cert.ReferenceIdeal.Gen.h_S_ (ix1 k)
  refine e.trans ?_
  have hf : (X ∘ h.lift (ix1 k)) = fun r : Fin 32768 => X (ix2 r k) := funext fun r => congrArg X (lift_rows h k r)
  have hb : Cert.ReferenceIdeal.Read.val_main_cst (F := Ideal) (Shape.Idx.first Cert.ReferenceIdeal.Gen.h_S_) = (⊥ : EReal) := negInf
  rw [hb]
  exact (congrArg (fun f => Finset.fold max (⊥ : EReal) f (Finset.univ : Finset (Fin 32768))) hf).trans (fold_max_eq_sup _)

/-! ## The one law: all rows are the sixteen blocks' rows, all devices are one and the fifteen before it -/

/-- The supremum over all 32768 rows is the supremum over the sixteen blocks of the supremum over each block's 2048 rows:
    row r is row r % 2048 of block r / 2048. -/
private theorem sup_rows_split (X : (⟨2, ![32768, 1024]⟩ : Shape).Idx → EReal) (k : Fin 1024)
    (hT : Layout.Tiles ⟨2, ![2048, 1024]⟩ ⟨2, ![32768, 1024]⟩ 0 16) :
    (Finset.univ.sup fun r : Fin 32768 => X (ix2 r k))
      = Finset.univ.sup fun d : Fin 16 => Finset.univ.sup fun r : Fin 2048 => X (hT.idx d (ix2 r k)) := by
  apply le_antisymm
  · refine Finset.sup_le fun r _ => ?_
    have hd : r.val / 2048 < 16 := by have := r.isLt; omega
    have hr : r.val % 2048 < 2048 := Nat.mod_lt _ (by decide)
    have e : hT.idx ⟨r.val / 2048, hd⟩ (ix2 (⟨r.val % 2048, hr⟩ : Fin 2048) k) = ix2 r k := by
      funext a; apply Fin.ext
      match a with
      | ⟨0, _⟩ => show r.val / 2048 * 2048 + r.val % 2048 = r.val; omega
      | ⟨1, _⟩ => rfl
    refine le_trans (le_of_eq (congrArg X e.symm)) ?_
    refine le_trans ?_ (Finset.le_sup (f := fun d : Fin 16 => Finset.univ.sup fun r : Fin 2048 => X (hT.idx d (ix2 r k)))
      (Finset.mem_univ (⟨r.val / 2048, hd⟩ : Fin 16)))
    exact Finset.le_sup (f := fun r' : Fin 2048 => X (hT.idx ⟨r.val / 2048, hd⟩ (ix2 r' k))) (Finset.mem_univ (⟨r.val % 2048, hr⟩ : Fin 2048))
  · refine Finset.sup_le fun d _ => Finset.sup_le fun r _ => ?_
    have e : hT.idx d (ix2 r k) = ix2 (hT.idx d (ix2 r k) 0) k := by
      refine (eq_ix2 _).trans ?_
      exact congrArg (ix2 (hT.idx d (ix2 r k) 0)) (Fin.ext rfl)
    rw [e]
    exact Finset.le_sup (f := fun r : Fin 32768 => X (ix2 r k)) (Finset.mem_univ _)

/-- Device c and the fifteen devices before it are all sixteen. -/
private theorem sup_devs_split (g : Dev nD → EReal) (c : Dev nD) :
    Finset.univ.sup g = max (g c) (Finset.univ.sup fun j : Fin 15 => g (bwd c j)) := by
  apply le_antisymm
  · refine Finset.sup_le fun d _ => ?_
    by_cases h : d = c
    · rw [h]; exact le_max_left _ _
    · obtain ⟨j, rfl⟩ := exists_bwd c d h
      exact le_max_of_le_right (Finset.le_sup (f := fun j : Fin 15 => g (bwd c j)) (Finset.mem_univ j))
  · exact max_le (Finset.le_sup (f := g) (Finset.mem_univ c))
      (Finset.sup_le fun j _ => Finset.le_sup (f := g) (Finset.mem_univ (bwd c j)))

/-! ## The devices' rows and the result -/

/-- The staged block is the whole of the device's argument buffer. -/
private theorem xstg_eq (m : (ℓ : Loc nD τ sig) → Buf (Elt Ideal) ℓ) (ρ : Dev nD → PrngReg) (d : Dev nD) :
    xstg (F := Ideal) m ρ d = m ((d.tc : Thread nD τ).loc main_arg0) := by
  unfold xstg
  exact Memref.read_access_unit_zero (Elt Ideal) main_arg0 (funext fun a => by fin_cases a <;> rfl) _ _

/-- Device d's row of maxima at column k: the supremum over its block's 2048 rows of the whole array. -/
private theorem rowMax_apply (m : (ℓ : Loc nD τ sig) → Buf (Elt Ideal) ℓ) (ρ : Dev nD → PrngReg)
    (X : (⟨Cert.ReferenceIdeal.S32768x1024, .f32⟩ : BufTy).Contents (Elt Ideal))
    (hX : ∀ c : Dev nD, m ((c.tc : Thread nD τ).loc main_arg0) = Layout.block ⟨2, ![2048, 1024]⟩ ⟨2, ![32768, 1024]⟩ 0 16 c X)
    (hT : Layout.Tiles ⟨2, ![2048, 1024]⟩ ⟨2, ![32768, 1024]⟩ 0 16) (d : Dev nD) (p : Fin 1) (k : Fin 1024) :
    rowMax (F := Ideal) m ρ d (ix2 p k) = Finset.univ.sup fun r : Fin 2048 => X (hT.idx d (ix2 r k)) := by
  unfold rowMax
  rw [pay1_apply, xstg_eq, hX d]
  rfl

/-- The kernel's result at (p, k) on any device: the supremum of column k over all 32768 rows. -/
private theorem outAt_apply (m : (ℓ : Loc nD τ sig) → Buf (Elt Ideal) ℓ) (ρ : Dev nD → PrngReg)
    (X : (⟨Cert.ReferenceIdeal.S32768x1024, .f32⟩ : BufTy).Contents (Elt Ideal))
    (hX : ∀ c : Dev nD, m ((c.tc : Thread nD τ).loc main_arg0) = Layout.block ⟨2, ![2048, 1024]⟩ ⟨2, ![32768, 1024]⟩ 0 16 c X)
    (c : Dev nD) (p : Fin 1) (k : Fin 1024) :
    outAt (F := Ideal) m ρ c (ix2 p k) = Finset.univ.sup fun r : Fin 32768 => X (ix2 r k) := by
  have hT : Layout.Tiles ⟨2, ![2048, 1024]⟩ ⟨2, ![32768, 1024]⟩ 0 16 := by decide
  unfold outAt
  rw [pay2_apply, rowMax_apply m ρ X hX hT c 0 k, sup_rows_split X k hT,
    sup_devs_split (fun d : Dev nD => Finset.univ.sup fun r : Fin 2048 => X (hT.idx d (ix2 r k))) c]
  refine congrArg (max (_ : EReal)) (congrArg (Finset.sup (α := EReal) Finset.univ) (funext fun j => ?_))
  exact rowMax_apply m ρ X hX hT (bwd c j) 0 k

/-- From memories where device `c` holds block `c` (rows 2048 c … 2048 c + 2047) of the whole array `X`, the kernel's
    result on every device is the reference's result of `X`. -/
theorem outAt_eq_ref (m : (ℓ : Loc nD τ sig) → Buf (Elt Ideal) ℓ) (ρ : Dev nD → PrngReg)
    (X : (⟨Cert.ReferenceIdeal.S32768x1024, .f32⟩ : BufTy).Contents (Elt Ideal))
    (hX : ∀ c : Dev nD, m ((c.tc : Thread nD τ).loc main_arg0) = Layout.block ⟨2, ![2048, 1024]⟩ ⟨2, ![32768, 1024]⟩ 0 16 c X)
    (c : Dev nD) :
    outAt (F := Ideal) m ρ c = Cert.ReferenceIdeal.Read.val_main_v1 (F := Ideal) X := by
  funext i
  obtain ⟨p, k, rfl⟩ : ∃ (p : Fin 1) (k : Fin 1024), i = ix2 p k := ⟨i 0, i 1, eq_ix2 i⟩
  exact (outAt_apply m ρ X hX c p k).trans (ref_apply X p k).symm

end Cert.KernelIdeal.Proto.Value

end
-- ==== Proof.lean ====
/-
  The claim. Sixteen devices each hold one block of 2048 rows of a 32768 × 1024 array. Each takes the column maxima of
  its block (one row of 1024 numbers), the sixteen rows are exchanged all-to-all, and every device takes the maximum of
  its own row and the fifteen it received. The reference takes the column maxima of the whole array on one device.
  The maximum is associative and commutative, and from −∞ over the extended reals it is the supremum: both results are,
  column by column, the supremum over all 32768 rows, so every device ends with the reference's row.
  The three frames are the runs with the argument arrays read back; the idealization rewrote nothing; the algebraic
  claim pairs the kernel's run, its result named as the reference's value, with the reference's run.
-/
import proofs.«900915_g7700000000000916_dist_max_ax0_shard0_i_m2048_n1024_v7x_i16_f32_1_alg».proof.Defs
import proofs.«900915_g7700000000000916_dist_max_ax0_shard0_i_m2048_n1024_v7x_i16_f32_1_alg».proof.Proof.Gen.Kernel
import proofs.«900915_g7700000000000916_dist_max_ax0_shard0_i_m2048_n1024_v7x_i16_f32_1_alg».proof.Proof.Gen.Kernel.Skeleton
import proofs.«900915_g7700000000000916_dist_max_ax0_shard0_i_m2048_n1024_v7x_i16_f32_1_alg».proof.Proof.Gen.Kernel.Launch
import proofs.«900915_g7700000000000916_dist_max_ax0_shard0_i_m2048_n1024_v7x_i16_f32_1_alg».proof.Proof.Gen.Kernel.Points
import proofs.«900915_g7700000000000916_dist_max_ax0_shard0_i_m2048_n1024_v7x_i16_f32_1_alg».proof.Proof.Gen.Kernel.Frame
import proofs.«900915_g7700000000000916_dist_max_ax0_shard0_i_m2048_n1024_v7x_i16_f32_1_alg».proof.Proof.Gen.KernelIdeal
import proofs.«900915_g7700000000000916_dist_max_ax0_shard0_i_m2048_n1024_v7x_i16_f32_1_alg».proof.Proof.Gen.KernelIdeal.Skeleton
import proofs.«900915_g7700000000000916_dist_max_ax0_shard0_i_m2048_n1024_v7x_i16_f32_1_alg».proof.Proof.Gen.KernelIdeal.Launch
import proofs.«900915_g7700000000000916_dist_max_ax0_shard0_i_m2048_n1024_v7x_i16_f32_1_alg».proof.Proof.Gen.KernelIdeal.Points
import proofs.«900915_g7700000000000916_dist_max_ax0_shard0_i_m2048_n1024_v7x_i16_f32_1_alg».proof.Proof.Gen.KernelIdeal.Frame
import proofs.«900915_g7700000000000916_dist_max_ax0_shard0_i_m2048_n1024_v7x_i16_f32_1_alg».proof.Proof.Gen.ReferenceIdeal
import proofs.«900915_g7700000000000916_dist_max_ax0_shard0_i_m2048_n1024_v7x_i16_f32_1_alg».proof.Proof.Gen.ReferenceIdeal.Run
import proofs.«900915_g7700000000000916_dist_max_ax0_shard0_i_m2048_n1024_v7x_i16_f32_1_alg».proof.Proof.Gen.ReferenceIdeal.Read
import proofs.«900915_g7700000000000916_dist_max_ax0_shard0_i_m2048_n1024_v7x_i16_f32_1_alg».proof.Proof.Gen.Pre_finite_inputs_Kernel
import proofs.«900915_g7700000000000916_dist_max_ax0_shard0_i_m2048_n1024_v7x_i16_f32_1_alg».proof.Proof.Gen.Pre_finite_inputs_ReferenceIdeal
import proofs.«900915_g7700000000000916_dist_max_ax0_shard0_i_m2048_n1024_v7x_i16_f32_1_alg».proof.Proof.KernelIdeal.Launch
import proofs.«900915_g7700000000000916_dist_max_ax0_shard0_i_m2048_n1024_v7x_i16_f32_1_alg».proof.Proof.Kernel.Launch
import proofs.«900915_g7700000000000916_dist_max_ax0_shard0_i_m2048_n1024_v7x_i16_f32_1_alg».proof.Proof.Value
import Idealize.ShloMosaic.Adequacy
import Idealize.ShloMosaic.Init

noncomputable section

namespace Cert.Proof

open Idealize.ShloMosaic Idealize.SL.Sem Cert.Kernel

/-- The kernel on words: every fair execution on the sixteen devices terminates and each device's block is unchanged. -/
theorem frame_p : Cert.frame_Kernel := fun m ρ _ =>
  (θ_run Cert.Kernel.defs _ _).mono (fun _ h c => (h c).2) (Cert.Kernel.Proto.run_values (F := Bits) m ρ)

/-- The same kernel on extended reals. -/
theorem frame_pi : Cert.frame_KernelIdeal := fun m ρ _ =>
  (θ_run Cert.KernelIdeal.defs _ _).mono (fun _ h c => (h c).2) (Cert.KernelIdeal.Proto.run_values (F := Ideal) m ρ)

/-- The reference on one device: it terminates and the whole array is unchanged. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: the idealization is the kernel's own text read over the extended reals. -/
theorem preserves : Cert.preserves_Kernel_KernelIdeal := trivial

/-- From blocks of one whole array, every device's result row is the reference's: the column suprema over all rows. -/
theorem algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.KernelIdeal.Proto.Value.outAt_eq_ref m g _ hagree c), (h c).2⟩)
      (Cert.KernelIdeal.Proto.run_values (F := Ideal) m g)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_p, frame_pi, frame_ri, preserves, algebraic⟩

end Cert.Proof

end
